-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S64 .f32) (main_arg10 : FVec F S64 .f32) (main_arg11 : FVec F S64x128 .f32) (main_arg12 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x128 .f32) (main_arg12 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x800000 32) (main_arg2 : IVec S100000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x128 .f32) (main_arg12 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x1 : Shape := ⟨2, ![100000, 1]⟩
abbrev S2000x64 : Shape := ⟨2, ![2000, 64]⟩
abbrev S800000x64 : Shape := ⟨2, ![800000, 64]⟩
abbrev S1x64 : Shape := ⟨2, ![1, 64]⟩
abbrev S2000x1 : Shape := ⟨2, ![2000, 1]⟩
abbrev S2000 : Shape := ⟨1, ![2000]⟩
abbrev S100000x128 : Shape := ⟨2, ![100000, 128]⟩
abbrev S2000x128 : Shape := ⟨2, ![2000, 128]⟩
abbrev S800000x128 : Shape := ⟨2, ![800000, 128]⟩
abbrev S1x128 : Shape := ⟨2, ![1, 128]⟩
abbrev S64x1 : Shape := ⟨2, ![64, 1]⟩

abbrev nBuf : Space → Nat
  | .hbm => 151
  | .vmem => 51
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S100000, .f32⟩
  | 19 => ⟨S_, .f32⟩
  | 20 => ⟨S800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S100000, .f32⟩
  | 54 => ⟨S100000x1, .f32⟩
  | 55 => ⟨S100000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x1, .f32⟩
  | 66 => ⟨S800000x64, .f32⟩
  | 67 => ⟨S800000x64, .f32⟩
  | 68 => ⟨S_, .f32⟩
  | 69 => ⟨S100000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S100000x64, .f32⟩
  | 79 => ⟨S1x64, .f32⟩
  | 80 => ⟨S1x64, .f32⟩
  | 81 => ⟨S1x64, .f32⟩
  | 82 => ⟨S100000x64, .f32⟩
  | 83 => ⟨S100000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x1, .f32⟩
  | 94 => ⟨S800000x64, .f32⟩
  | 95 => ⟨S800000x64, .f32⟩
  | 96 => ⟨S_, .f32⟩
  | 97 => ⟨S100000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S100000x64, .f32⟩
  | 107 => ⟨S1x64, .f32⟩
  | 108 => ⟨S1x64, .f32⟩
  | 109 => ⟨S1x64, .f32⟩
  | 110 => ⟨S100000x64, .f32⟩
  | 111 => ⟨S100000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x1, .f32⟩
  | 122 => ⟨S800000x128, .f32⟩
  | 123 => ⟨S800000x128, .f32⟩
  | 124 => ⟨S_, .f32⟩
  | 125 => ⟨S100000x128, .f32⟩
  | 126 => ⟨S_, .i32⟩
  | 127 => ⟨S800000, .i32⟩
  | _ => ⟨S100000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S100000x128, .f32⟩
  | 7 => ⟨S1x128, .f32⟩
  | 8 => ⟨S100000x128, .f32⟩
  | 9 => ⟨S100000x1, .i32⟩
  | 10 => ⟨S64x128, .f32⟩
  | 11 => ⟨S_, .f32⟩
  | 12 => ⟨S100000, .f32⟩
  | 13 => ⟨S_, .f32⟩
  | 14 => ⟨S64, .f32⟩
  | 15 => ⟨S100000x1, .i32⟩
  | 16 => ⟨S64, .f32⟩
  | 17 => ⟨S_, .f32⟩
  | 18 => ⟨S64, .f32⟩
  | 19 => ⟨S64, .f32⟩
  | 20 => ⟨S64x1, .f32⟩
  | 21 => ⟨S64x128, .f32⟩
  | 22 => ⟨S64x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x1, .i32⟩
  | .local _ .vmem, ⟨49, _⟩ => ⟨S2000x1, .i32⟩
  | .local _ .vmem, ⟨50, _⟩ => ⟨S64x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_c_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_cst_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  iota_S2000x64_d1_w32 : S2000x64.Iotas .tc 32 [1]
  natLt_1_32 : 1 < 32
  shapeCasts_S64x128_S64x128 : S64x128.ShapeCasts S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S2000x64_S64x64_S2000x64_1_0_0_1_n_n_wf : DotDims.WF S2000x64 S64x64 S2000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S2000x64_S64x128_S2000x128_1_0_0_1_n_n_wf : DotDims.WF S2000x64 S64x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x64_S2000x128_S64x128_0_0_1_1_n_n_wf : DotDims.WF S2000x64 S2000x128 S64x128 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v78) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v97) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v99) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v100) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v101) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000x1 : Shape := ⟨2, ![100000, 1]⟩
abbrev S1x64 : Shape := ⟨2, ![1, 64]⟩
abbrev S100000x128 : Shape := ⟨2, ![100000, 128]⟩
abbrev S800000x128 : Shape := ⟨2, ![800000, 128]⟩
abbrev S1x128 : Shape := ⟨2, ![1, 128]⟩
abbrev S64x1 : Shape := ⟨2, ![64, 1]⟩

abbrev nBuf : Space → Nat
  | .hbm => 267
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S100000, .f32⟩
  | 19 => ⟨S_, .f32⟩
  | 20 => ⟨S800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S100000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S_, .f32⟩
  | 55 => ⟨S100000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x1, .f32⟩
  | 66 => ⟨S800000x64, .f32⟩
  | 67 => ⟨S800000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S100000x64, .f32⟩
  | 77 => ⟨S100000, .f32⟩
  | 78 => ⟨S100000x1, .f32⟩
  | 79 => ⟨S100000x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000, .f32⟩
  | 87 => ⟨S100000x1, .f32⟩
  | 88 => ⟨S_, .f32⟩
  | 89 => ⟨S100000x1, .f32⟩
  | 90 => ⟨S100000x1, .f32⟩
  | 91 => ⟨S100000x64, .f32⟩
  | 92 => ⟨S100000x64, .f32⟩
  | 93 => ⟨S100000x64, .f32⟩
  | 94 => ⟨S_, .f32⟩
  | 95 => ⟨S100000, .f32⟩
  | 96 => ⟨S100000x1, .f32⟩
  | 97 => ⟨S_, .f32⟩
  | 98 => ⟨S100000x1, .f32⟩
  | 99 => ⟨S100000x1, .f32⟩
  | 100 => ⟨S100000x64, .f32⟩
  | 101 => ⟨S100000x64, .f32⟩
  | 102 => ⟨S_, .f32⟩
  | 103 => ⟨S100000x1, .f32⟩
  | 104 => ⟨S100000x1, .f32⟩
  | 105 => ⟨S100000x1, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S100000x64, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S_, .f32⟩
  | 10 => ⟨S100000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x1, .f32⟩
  | 21 => ⟨S800000x64, .f32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S100000x64, .f32⟩
  | 32 => ⟨S100000, .f32⟩
  | 33 => ⟨S100000x1, .f32⟩
  | 34 => ⟨S100000x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S100000x64, .f32⟩
  | 47 => ⟨S100000x64, .f32⟩
  | 48 => ⟨S100000x64, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x64, .f32⟩
  | 56 => ⟨S100000x64, .f32⟩
  | 57 => ⟨S_, .f32⟩
  | 58 => ⟨S100000x1, .f32⟩
  | 59 => ⟨S100000x1, .f32⟩
  | 60 => ⟨S100000x1, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .f32⟩
  | 93 => ⟨S100000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x64, .f32⟩

abbrev hbmTy0_2 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call0_cst : Ref sig .tc := ⟨.hbm, 114, rfl⟩
abbrev main_call0_v0 : Ref sig .tc := ⟨.hbm, 115, rfl⟩
abbrev main_v82 : Ref sig .tc := ⟨.hbm, 116, rfl⟩
abbrev main_v83 : Ref sig .tc := ⟨.hbm, 117, rfl⟩
abbrev main_c_17 : Ref sig .tc := ⟨.hbm, 118, rfl⟩
abbrev main_v84 : Ref sig .tc := ⟨.hbm, 119, rfl⟩
abbrev main_v85 : Ref sig .tc := ⟨.hbm, 120, rfl⟩
abbrev main_c_18 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_19 : Ref sig .tc := ⟨.hbm, 127, rfl⟩
abbrev main_v91 : Ref sig .tc := ⟨.hbm, 128, rfl⟩
abbrev main_v92 : Ref sig .tc := ⟨.hbm, 129, rfl⟩
abbrev main_c_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_c_22 : Ref sig .tc := ⟨.hbm, 139, rfl⟩
abbrev main_v100 : Ref sig .tc := ⟨.hbm, 140, rfl⟩
abbrev main_v101 : Ref sig .tc := ⟨.hbm, 141, rfl⟩
abbrev main_c_23 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_c_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_26 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_28 : Ref sig .tc := ⟨.hbm, 177, rfl⟩
abbrev main_v132 : Ref sig .tc := ⟨.hbm, 178, rfl⟩
abbrev main_v133 : Ref sig .tc := ⟨.hbm, 179, rfl⟩
abbrev main_cst_29 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_30 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_call1_cst : Ref sig .tc := ⟨.hbm, 197, rfl⟩
abbrev main_call1_v0 : Ref sig .tc := ⟨.hbm, 198, rfl⟩
abbrev main_v149 : Ref sig .tc := ⟨.hbm, 199, rfl⟩
abbrev main_v150 : Ref sig .tc := ⟨.hbm, 200, rfl⟩
abbrev main_c_31 : Ref sig .tc := ⟨.hbm, 201, rfl⟩
abbrev main_v151 : Ref sig .tc := ⟨.hbm, 202, rfl⟩
abbrev main_v152 : Ref sig .tc := ⟨.hbm, 203, rfl⟩
abbrev main_c_32 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_33 : Ref sig .tc := ⟨.hbm, 210, rfl⟩
abbrev main_v158 : Ref sig .tc := ⟨.hbm, 211, rfl⟩
abbrev main_v159 : Ref sig .tc := ⟨.hbm, 212, rfl⟩
abbrev main_c_34 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_35 : Ref sig .tc := ⟨.hbm, 220, rfl⟩
abbrev main_v166 : Ref sig .tc := ⟨.hbm, 221, rfl⟩
abbrev main_c_36 : Ref sig .tc := ⟨.hbm, 222, rfl⟩
abbrev main_v167 : Ref sig .tc := ⟨.hbm, 223, rfl⟩
abbrev main_v168 : Ref sig .tc := ⟨.hbm, 224, rfl⟩
abbrev main_c_37 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_c_38 : Ref sig .tc := ⟨.hbm, 234, rfl⟩
abbrev main_v177 : Ref sig .tc := ⟨.hbm, 235, rfl⟩
abbrev main_v178 : Ref sig .tc := ⟨.hbm, 236, rfl⟩
abbrev main_c_39 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_40 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_cst_41 : Ref sig .tc := ⟨.hbm, 255, rfl⟩
abbrev main_v195 : Ref sig .tc := ⟨.hbm, 256, rfl⟩
abbrev main_cst_42 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_43 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S800000x1_S800000x64_0_1 : S800000x1.BroadcastsInDim S800000x64 (![0, 1] : Fin 2 → Fin S800000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S_S100000x128 : S_.BroadcastsInDim S100000x128 (![] : Fin 0 → Fin S100000x128.rank)
  bcast_S800000x1_S800000x128_0_1 : S800000x1.BroadcastsInDim S800000x128 (![0, 1] : Fin 2 → Fin S800000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []
  gather_S100000_S800000x1_S800000_n_0_n_n_0_1_1_wf : GatherDims.WF S100000 S800000x1 S800000 [] [0] [] [0] [] 1 ![1]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelGlue.lean ====
/-
  The kernel program between its regions. Its host operations are the gather / scatter glue of the three graph
  convolutions, the same operations the reference applies: each stretch's outputs are read here as the reference's
  stage functions of the launched arguments, given what the stretch finds in the buffers it reads, and a buffer that a
  stretch or a region does not write is carried through it unchanged. Stated for any float family.
-/
import proofs.«402218_j7911329759934_1_alg».proof.Proof.Gen.KernelIdeal.Frame
import proofs.«402218_j7911329759934_1_alg».proof.Proof.RefRead

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What each stretch of host operations leaves alone -/

/-- The buffers the host operations of stretch 0 write. -/
abbrev written0 : List (Ref sig .tc) := [main_v0, main_v1, main_v2, main_v3, main_cst, main_v4, main_cst_0, main_v5, main_c, main_v6, main_v7, main_c_1, main_v8, main_v9, main_v10, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]
set_option maxRecDepth 8192 in
theorem writes0 : (hostOps0 : List (HloOp τ sig (Elt F))).Forall fun op => op.writes ⊆ (written0.map (Proc.devRef (τ := τ) .tc)).toFinset := by
  simp only [hostOps0, List.Forall, nullary_writes, unary_writes, binary_writes, ternary_writes, quaternary_writes, reshape_writes,
    Finset.singleton_subset_iff, List.mem_toFinset]
  repeat' apply And.intro
  all_goals exact List.mem_map_of_mem (by decide)
/-- A buffer stretch 0 does not write holds after it what it held before. -/
theorem keep0 (c : Dev nD) (b : Ref sig .tc) (hb : b ∉ written0) :
    W1 m ρ c (Proc.devRef .tc b) = W0 m ρ c (Proc.devRef .tc b) :=
  after_of_writes_sub hostOps0 _ writes0 hb

/-- The buffers the host operations of stretch 1 write. -/
abbrev written1 : List (Ref sig .tc) := [main_c_7, main_v34, main_v35, main_c_8, main_v36, main_v37, main_v38, main_v39, main_v40, main_v41, main_v42, main_v43, main_cst_9, main_v44, main_c_10, main_v45, main_v46, main_c_11, main_v47, main_v48, main_v49, main_v50, main_v51, main_v52, main_v53, main_v54]
set_option maxRecDepth 8192 in
theorem writes1 : (hostOps1 : List (HloOp τ sig (Elt F))).Forall fun op => op.writes ⊆ (written1.map (Proc.devRef (τ := τ) .tc)).toFinset := by
  simp only [hostOps1, List.Forall, nullary_writes, unary_writes, binary_writes, ternary_writes, quaternary_writes, reshape_writes,
    Finset.singleton_subset_iff, List.mem_toFinset]
  repeat' apply And.intro
  all_goals exact List.mem_map_of_mem (by decide)
/-- A buffer stretch 1 does not write holds after it what it held before. -/
theorem keep1 (c : Dev nD) (b : Ref sig .tc) (hb : b ∉ written1) :
    W3 m ρ c (Proc.devRef .tc b) = W2 m ρ c (Proc.devRef .tc b) :=
  after_of_writes_sub hostOps1 _ writes1 hb

/-- The buffers the host operations of stretch 3 write. -/
abbrev written3 : List (Ref sig .tc) := [main_c_12, main_v57, main_v58, main_c_13, main_v59, main_v60, main_v61, main_v62, main_v63, main_v64, main_v65, main_v66, main_cst_14, main_v67, main_c_15, main_v68, main_v69, main_c_16, main_v70, main_v71, main_v72, main_v73, main_v74, main_v75, main_v76, main_v77]
set_option maxRecDepth 8192 in
theorem writes3 : (hostOps3 : List (HloOp τ sig (Elt F))).Forall fun op => op.writes ⊆ (written3.map (Proc.devRef (τ := τ) .tc)).toFinset := by
  simp only [hostOps3, List.Forall, nullary_writes, unary_writes, binary_writes, ternary_writes, quaternary_writes, reshape_writes,
    Finset.singleton_subset_iff, List.mem_toFinset]
  repeat' apply And.intro
  all_goals exact List.mem_map_of_mem (by decide)
/-- A buffer stretch 3 does not write holds after it what it held before. -/
theorem keep3 (c : Dev nD) (b : Ref sig .tc) (hb : b ∉ written3) :
    W6 m ρ c (Proc.devRef .tc b) = W5 m ρ c (Proc.devRef .tc b) :=
  after_of_writes_sub hostOps3 _ writes3 hb

/-- The buffers the host operations of stretch 5 write. -/
abbrev written5 : List (Ref sig .tc) := [main_c_17, main_v80, main_v81, main_c_18, main_v82, main_v83, main_v84, main_v85, main_v86, main_v87, main_v88, main_v89, main_cst_19, main_v90, main_c_20, main_v91, main_v92, main_c_21, main_v93, main_v94, main_v95, main_v96, main_v97, main_v98]
set_option maxRecDepth 8192 in
theorem writes5 : (hostOps5 : List (HloOp τ sig (Elt F))).Forall fun op => op.writes ⊆ (written5.map (Proc.devRef (τ := τ) .tc)).toFinset := by
  simp only [hostOps5, List.Forall, nullary_writes, unary_writes, binary_writes, ternary_writes, quaternary_writes, reshape_writes,
    Finset.singleton_subset_iff, List.mem_toFinset]
  repeat' apply And.intro
  all_goals exact List.mem_map_of_mem (by decide)
/-- A buffer stretch 5 does not write holds after it what it held before. -/
theorem keep5 (c : Dev nD) (b : Ref sig .tc) (hb : b ∉ written5) :
    W9 m ρ c (Proc.devRef .tc b) = W8 m ρ c (Proc.devRef .tc b) :=
  after_of_writes_sub hostOps5 _ writes5 hb

/-- The buffers the host operations of stretch 6 write. -/
abbrev written6 : List (Ref sig .tc) := [main_v100]
set_option maxRecDepth 8192 in
theorem writes6 : (hostOps6 : List (HloOp τ sig (Elt F))).Forall fun op => op.writes ⊆ (written6.map (Proc.devRef (τ := τ) .tc)).toFinset := by
  simp only [hostOps6, List.Forall, nullary_writes, unary_writes, binary_writes, ternary_writes, quaternary_writes, reshape_writes,
    Finset.singleton_subset_iff, List.mem_toFinset]
  repeat' apply And.intro
  all_goals exact List.mem_map_of_mem (by decide)
/-- A buffer stretch 6 does not write holds after it what it held before. -/
theorem keep6 (c : Dev nD) (b : Ref sig .tc) (hb : b ∉ written6) :
    W11 m ρ c (Proc.devRef .tc b) = W10 m ρ c (Proc.devRef .tc b) :=
  after_of_writes_sub hostOps6 _ writes6 hb

/-- The buffers the host operations of stretch 7 write. -/
abbrev written7 : List (Ref sig .tc) := [main_cst_22, main_v102, main_cst_23, main_v103, main_v104, main_v105, main_cst_24, main_v106, main_v107, main_v108, main_v109, main_v110]
set_option maxRecDepth 8192 in
theorem writes7 : (hostOps7 : List (HloOp τ sig (Elt F))).Forall fun op => op.writes ⊆ (written7.map (Proc.devRef (τ := τ) .tc)).toFinset := by
  simp only [hostOps7, List.Forall, nullary_writes, unary_writes, binary_writes, ternary_writes, quaternary_writes, reshape_writes,
    Finset.singleton_subset_iff, List.mem_toFinset]
  repeat' apply And.intro
  all_goals exact List.mem_map_of_mem (by decide)
/-- A buffer stretch 7 does not write holds after it what it held before. -/
theorem keep7 (c : Dev nD) (b : Ref sig .tc) (hb : b ∉ written7) :
    W13 m ρ c (Proc.devRef .tc b) = W12 m ρ c (Proc.devRef .tc b) :=
  after_of_writes_sub hostOps7 _ writes7 hb

/-! ## Carrying a buffer over several boundaries

Region k's exit contents differ from its entry contents only at the region's own arrays; so a buffer that is none of
a span's arrays and that the span's host operations do not write comes through the span unchanged. -/

/-- Through stretch 1 and regions 1 and 2. -/
theorem carry_2_5 (c : Dev nD) (b : Ref sig .tc) (h1 : b ∉ written1) (h2 : ∀ w, Pipeline.arrRef spec1 w ≠ b)
    (h3 : ∀ w, Pipeline.arrRef spec2 w ≠ b) : W5 m ρ c (Proc.devRef .tc b) = W2 m ρ c (Proc.devRef .tc b) :=
  (W5_of_ne m ρ c b h3).trans ((W4_of_ne m ρ c b h2).trans (keep1 m ρ c b h1))
/-- Through stretch 1 and region 1. -/
theorem carry_2_4 (c : Dev nD) (b : Ref sig .tc) (h1 : b ∉ written1) (h2 : ∀ w, Pipeline.arrRef spec1 w ≠ b) :
    W4 m ρ c (Proc.devRef .tc b) = W2 m ρ c (Proc.devRef .tc b) :=
  (W4_of_ne m ρ c b h2).trans (keep1 m ρ c b h1)
/-- Through stretch 3 and regions 3 and 4. -/
theorem carry_5_8 (c : Dev nD) (b : Ref sig .tc) (h1 : b ∉ written3) (h2 : ∀ w, Pipeline.arrRef spec3 w ≠ b)
    (h3 : ∀ w, Pipeline.arrRef spec4 w ≠ b) : W8 m ρ c (Proc.devRef .tc b) = W5 m ρ c (Proc.devRef .tc b) :=
  (W8_of_ne m ρ c b h3).trans ((W7_of_ne m ρ c b h2).trans (keep3 m ρ c b h1))
/-- Through stretch 3 and region 3. -/
theorem carry_5_7 (c : Dev nD) (b : Ref sig .tc) (h1 : b ∉ written3) (h2 : ∀ w, Pipeline.arrRef spec3 w ≠ b) :
    W7 m ρ c (Proc.devRef .tc b) = W5 m ρ c (Proc.devRef .tc b) :=
  (W7_of_ne m ρ c b h2).trans (keep3 m ρ c b h1)
/-- Through stretch 5 and region 5. -/
theorem carry_8_10 (c : Dev nD) (b : Ref sig .tc) (h1 : b ∉ written5) (h2 : ∀ w, Pipeline.arrRef spec5 w ≠ b) :
    W10 m ρ c (Proc.devRef .tc b) = W8 m ρ c (Proc.devRef .tc b) :=
  (W10_of_ne m ρ c b h2).trans (keep5 m ρ c b h1)
/-- Through stretch 6 and region 6. -/
theorem carry_10_12 (c : Dev nD) (b : Ref sig .tc) (h1 : b ∉ written6) (h2 : ∀ w, Pipeline.arrRef spec6 w ≠ b) :
    W12 m ρ c (Proc.devRef .tc b) = W10 m ρ c (Proc.devRef .tc b) :=
  (W12_of_ne m ρ c b h2).trans (keep6 m ρ c b h1)

/-- The self coefficient is an input array of region 1, which leaves it as it found it. -/
theorem through1_v32 (c : Dev nD) : W4 m ρ c (Proc.devRef .tc main_v32) = W3 m ρ c (Proc.devRef .tc main_v32) :=
  (W4_arr m ρ c 2).trans (((dat1 (V3 m ρ) c).arrAt_in 2 rfl _).trans (A_eq1 (V3 m ρ) c 2))
/-- Likewise region 3. -/
theorem through3_v32 (c : Dev nD) : W7 m ρ c (Proc.devRef .tc main_v32) = W6 m ρ c (Proc.devRef .tc main_v32) :=
  (W7_arr m ρ c 2).trans (((dat3 (V6 m ρ) c).arrAt_in 2 rfl _).trans (A_eq3 (V6 m ρ) c 2))

/-! ## Before the first region: the edge endpoints, the inverse root degrees' products, and the arguments -/

theorem w1_arg (c : Dev nD) (b : Ref sig .tc) (hb : b ∉ written0) : W1 m ρ c (Proc.devRef .tc b) = m ((c : Thread nD τ).loc b) :=
  keep0 m ρ c b hb

/-- The source endpoints. -/
theorem w1_v1 (c : Dev nD) : W1 m ρ c (Proc.devRef .tc main_v1) = Cert.RefRead.val_main_v1 (F := F) (m ((c : Thread nD τ).loc main_arg1)) := by
  show StableHlo.after hostOps0 (W0 m ρ c) (Proc.devRef .tc main_v1) = _
  simp only [hostOps0]
  after_results_simp
  rfl
/-- The target endpoints. -/
theorem w1_v3 (c : Dev nD) : W1 m ρ c (Proc.devRef .tc main_v3) = Cert.RefRead.val_main_v3 (F := F) (m ((c : Thread nD τ).loc main_arg1)) := by
  show StableHlo.after hostOps0 (W0 m ρ c) (Proc.devRef .tc main_v3) = _
  simp only [hostOps0]
  after_results_simp
  rfl
/-- The edge coefficient: the product of the two endpoints' inverse root degrees. -/
theorem w1_v30 (c : Dev nD) : W1 m ρ c (Proc.devRef .tc main_v30) = Cert.RefRead.val_main_v31 (F := F) (m ((c : Thread nD τ).loc main_arg1)) := by
  show StableHlo.after hostOps0 (W0 m ρ c) (Proc.devRef .tc main_v30) = _
  simp only [hostOps0]
  after_results_simp
  rfl
/-- The self coefficient: the squared inverse root degree, laid out as a column. -/
theorem w1_v32 (c : Dev nD) :
    W1 m ρ c (Proc.devRef .tc main_v32) = shapeCast S100000x1 (Cert.RefRead.val_main_v50 (F := F) (m ((c : Thread nD τ).loc main_arg1))) shapeCasts_S100000_S100000x1 := by
  show StableHlo.after hostOps0 (W0 m ρ c) (Proc.devRef .tc main_v32) = _
  simp only [hostOps0]
  after_results_simp
  rfl

/-! ## The persistent buffers at each boundary where something reads them -/

theorem w2_v1 (c : Dev nD) : W2 m ρ c (Proc.devRef .tc main_v1) = Cert.RefRead.val_main_v1 (F := F) (m ((c : Thread nD τ).loc main_arg1)) :=
  (W2_of_ne m ρ c main_v1 (by decide)).trans (w1_v1 m ρ c)
theorem w5_v1 (c : Dev nD) : W5 m ρ c (Proc.devRef .tc main_v1) = Cert.RefRead.val_main_v1 (F := F) (m ((c : Thread nD τ).loc main_arg1)) :=
  (carry_2_5 m ρ c main_v1 (by decide) (by decide) (by decide)).trans (w2_v1 m ρ c)
theorem w8_v1 (c : Dev nD) : W8 m ρ c (Proc.devRef .tc main_v1) = Cert.RefRead.val_main_v1 (F := F) (m ((c : Thread nD τ).loc main_arg1)) :=
  (carry_5_8 m ρ c main_v1 (by decide) (by decide) (by decide)).trans (w5_v1 m ρ c)
theorem w2_v3 (c : Dev nD) : W2 m ρ c (Proc.devRef .tc main_v3) = Cert.RefRead.val_main_v3 (F := F) (m ((c : Thread nD τ).loc main_arg1)) :=
  (W2_of_ne m ρ c main_v3 (by decide)).trans (w1_v3 m ρ c)
theorem w5_v3 (c : Dev nD) : W5 m ρ c (Proc.devRef .tc main_v3) = Cert.RefRead.val_main_v3 (F := F) (m ((c : Thread nD τ).loc main_arg1)) :=
  (carry_2_5 m ρ c main_v3 (by decide) (by decide) (by decide)).trans (w2_v3 m ρ c)
theorem w8_v3 (c : Dev nD) : W8 m ρ c (Proc.devRef .tc main_v3) = Cert.RefRead.val_main_v3 (F := F) (m ((c : Thread nD τ).loc main_arg1)) :=
  (carry_5_8 m ρ c main_v3 (by decide) (by decide) (by decide)).trans (w5_v3 m ρ c)
theorem w2_v30 (c : Dev nD) : W2 m ρ c (Proc.devRef .tc main_v30) = Cert.RefRead.val_main_v31 (F := F) (m ((c : Thread nD τ).loc main_arg1)) :=
  (W2_of_ne m ρ c main_v30 (by decide)).trans (w1_v30 m ρ c)
theorem w5_v30 (c : Dev nD) : W5 m ρ c (Proc.devRef .tc main_v30) = Cert.RefRead.val_main_v31 (F := F) (m ((c : Thread nD τ).loc main_arg1)) :=
  (carry_2_5 m ρ c main_v30 (by decide) (by decide) (by decide)).trans (w2_v30 m ρ c)
theorem w8_v30 (c : Dev nD) : W8 m ρ c (Proc.devRef .tc main_v30) = Cert.RefRead.val_main_v31 (F := F) (m ((c : Thread nD τ).loc main_arg1)) :=
  (carry_5_8 m ρ c main_v30 (by decide) (by decide) (by decide)).trans (w5_v30 m ρ c)

theorem w3_v32 (c : Dev nD) :
    W3 m ρ c (Proc.devRef .tc main_v32) = shapeCast S100000x1 (Cert.RefRead.val_main_v50 (F := F) (m ((c : Thread nD τ).loc main_arg1))) shapeCasts_S100000_S100000x1 :=
  (keep1 m ρ c main_v32 (by decide)).trans ((W2_of_ne m ρ c main_v32 (by decide)).trans (w1_v32 m ρ c))
theorem w6_v32 (c : Dev nD) :
    W6 m ρ c (Proc.devRef .tc main_v32) = shapeCast S100000x1 (Cert.RefRead.val_main_v50 (F := F) (m ((c : Thread nD τ).loc main_arg1))) shapeCasts_S100000_S100000x1 :=
  (keep3 m ρ c main_v32 (by decide)).trans ((W5_of_ne m ρ c main_v32 (by decide)).trans ((through1_v32 m ρ c).trans (w3_v32 m ρ c)))
theorem w9_v32 (c : Dev nD) :
    W9 m ρ c (Proc.devRef .tc main_v32) = shapeCast S100000x1 (Cert.RefRead.val_main_v50 (F := F) (m ((c : Thread nD τ).loc main_arg1))) shapeCasts_S100000_S100000x1 :=
  (keep5 m ρ c main_v32 (by decide)).trans ((W8_of_ne m ρ c main_v32 (by decide)).trans ((through3_v32 m ρ c).trans (w6_v32 m ρ c)))

theorem w2_arg (c : Dev nD) (b : Ref sig .tc) (h0 : b ∉ written0) (h : ∀ w, Pipeline.arrRef spec0 w ≠ b) :
    W2 m ρ c (Proc.devRef .tc b) = m ((c : Thread nD τ).loc b) :=
  (W2_of_ne m ρ c b h).trans (w1_arg m ρ c b h0)
theorem w4_arg7 (c : Dev nD) : W4 m ρ c (Proc.devRef .tc main_arg7) = (m ((c : Thread nD τ).loc main_arg7)) :=
  (carry_2_4 m ρ c main_arg7 (by decide) (by decide)).trans (w2_arg m ρ c main_arg7 (by decide) (by decide))
theorem w5_arg (c : Dev nD) (b : Ref sig .tc) (h0 : b ∉ written0) (h : ∀ w, Pipeline.arrRef spec0 w ≠ b) (h1 : b ∉ written1)
    (h2 : ∀ w, Pipeline.arrRef spec1 w ≠ b) (h3 : ∀ w, Pipeline.arrRef spec2 w ≠ b) :
    W5 m ρ c (Proc.devRef .tc b) = m ((c : Thread nD τ).loc b) :=
  (carry_2_5 m ρ c b h1 h2 h3).trans (w2_arg m ρ c b h0 h)
theorem w7_arg11 (c : Dev nD) : W7 m ρ c (Proc.devRef .tc main_arg11) = (m ((c : Thread nD τ).loc main_arg11)) :=
  (carry_5_7 m ρ c main_arg11 (by decide) (by decide)).trans (w5_arg m ρ c main_arg11 (by decide) (by decide) (by decide) (by decide) (by decide))
theorem w8_arg12 (c : Dev nD) : W8 m ρ c (Proc.devRef .tc main_arg12) = (m ((c : Thread nD τ).loc main_arg12)) :=
  (carry_5_8 m ρ c main_arg12 (by decide) (by decide) (by decide)).trans (w5_arg m ρ c main_arg12 (by decide) (by decide) (by decide) (by decide) (by decide))
theorem w10_arg2 (c : Dev nD) : W10 m ρ c (Proc.devRef .tc main_arg2) = (m ((c : Thread nD τ).loc main_arg2)) :=
  (carry_8_10 m ρ c main_arg2 (by decide) (by decide)).trans ((carry_5_8 m ρ c main_arg2 (by decide) (by decide) (by decide)).trans
    (w5_arg m ρ c main_arg2 (by decide) (by decide) (by decide) (by decide) (by decide)))
theorem w12_arg2 (c : Dev nD) : W12 m ρ c (Proc.devRef .tc main_arg2) = (m ((c : Thread nD τ).loc main_arg2)) :=
  (carry_10_12 m ρ c main_arg2 (by decide) (by decide)).trans (w10_arg2 m ρ c)

/-! ## What the later stretches compute

Each layer's stretch gathers the projected features at the source endpoints, scales each edge's row by the edge
coefficient and scatter-adds the rows at the target endpoints: the reference's aggregated messages, once the projected
features it reads are the reference's. The vectors of bias, scale and shift are re-laid as rows. -/

/-- Layer 1's aggregated messages. -/
theorem w3_v51 (c : Dev nD) (h33 : W2 m ρ c (Proc.devRef .tc main_v33) = Cert.RefRead.val_main_v16 (F := F) (m ((c : Thread nD τ).loc main_arg0)) (m ((c : Thread nD τ).loc main_arg3))) :
    W3 m ρ c (Proc.devRef .tc main_v51) = Cert.RefRead.val_main_v49 (F := F) (m ((c : Thread nD τ).loc main_arg0)) (m ((c : Thread nD τ).loc main_arg1)) (m ((c : Thread nD τ).loc main_arg3)) := by
  show StableHlo.after hostOps1 (W2 m ρ c) (Proc.devRef .tc main_v51) = _
  simp only [hostOps1]
  after_results_simp
  simp only [h33, w2_v1 m ρ c, w2_v3 m ρ c, w2_v30 m ρ c]
  rfl
/-- Layer 1's projected features are still there after the stretch. -/
theorem w3_v33 (c : Dev nD) : W3 m ρ c (Proc.devRef .tc main_v33) = W2 m ρ c (Proc.devRef .tc main_v33) := keep1 m ρ c main_v33 (by decide)
theorem w3_v52 (c : Dev nD) : W3 m ρ c (Proc.devRef .tc main_v52) = shapeCast S1x64 (m ((c : Thread nD τ).loc main_arg4)) shapeCasts_S64_S1x64 := by
  show StableHlo.after hostOps1 (W2 m ρ c) (Proc.devRef .tc main_v52) = _
  simp only [hostOps1]
  after_results_simp
  simp only [w2_arg m ρ c main_arg4 (by decide) (by decide)]
  rfl
theorem w3_v53 (c : Dev nD) : W3 m ρ c (Proc.devRef .tc main_v53) = shapeCast S1x64 (m ((c : Thread nD τ).loc main_arg5)) shapeCasts_S64_S1x64 := by
  show StableHlo.after hostOps1 (W2 m ρ c) (Proc.devRef .tc main_v53) = _
  simp only [hostOps1]
  after_results_simp
  simp only [w2_arg m ρ c main_arg5 (by decide) (by decide)]
  rfl
theorem w3_v54 (c : Dev nD) : W3 m ρ c (Proc.devRef .tc main_v54) = shapeCast S1x64 (m ((c : Thread nD τ).loc main_arg6)) shapeCasts_S64_S1x64 := by
  show StableHlo.after hostOps1 (W2 m ρ c) (Proc.devRef .tc main_v54) = _
  simp only [hostOps1]
  after_results_simp
  simp only [w2_arg m ρ c main_arg6 (by decide) (by decide)]
  rfl

/-- Layer 2's aggregated messages. -/
theorem w6_v74 (c : Dev nD) (h56 : W5 m ρ c (Proc.devRef .tc main_v56) = Cert.RefRead.val_main_v83 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W6 m ρ c (Proc.devRef .tc main_v74) = Cert.RefRead.val_main_v116 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W5 m ρ c) (Proc.devRef .tc main_v74) = _
  simp only [hostOps3]
  after_results_simp
  simp only [h56, w5_v1 m ρ c, w5_v3 m ρ c, w5_v30 m ρ c]
  rfl
theorem w6_v56 (c : Dev nD) : W6 m ρ c (Proc.devRef .tc main_v56) = W5 m ρ c (Proc.devRef .tc main_v56) := keep3 m ρ c main_v56 (by decide)
theorem w6_v75 (c : Dev nD) : W6 m ρ c (Proc.devRef .tc main_v75) = shapeCast S1x64 (m ((c : Thread nD τ).loc main_arg8)) shapeCasts_S64_S1x64 := by
  show StableHlo.after hostOps3 (W5 m ρ c) (Proc.devRef .tc main_v75) = _
  simp only [hostOps3]
  after_results_simp
  simp only [w5_arg m ρ c main_arg8 (by decide) (by decide) (by decide) (by decide) (by decide)]
  rfl
theorem w6_v76 (c : Dev nD) : W6 m ρ c (Proc.devRef .tc main_v76) = shapeCast S1x64 (m ((c : Thread nD τ).loc main_arg9)) shapeCasts_S64_S1x64 := by
  show StableHlo.after hostOps3 (W5 m ρ c) (Proc.devRef .tc main_v76) = _
  simp only [hostOps3]
  after_results_simp
  simp only [w5_arg m ρ c main_arg9 (by decide) (by decide) (by decide) (by decide) (by decide)]
  rfl
theorem w6_v77 (c : Dev nD) : W6 m ρ c (Proc.devRef .tc main_v77) = shapeCast S1x64 (m ((c : Thread nD τ).loc main_arg10)) shapeCasts_S64_S1x64 := by
  show StableHlo.after hostOps3 (W5 m ρ c) (Proc.devRef .tc main_v77) = _
  simp only [hostOps3]
  after_results_simp
  simp only [w5_arg m ρ c main_arg10 (by decide) (by decide) (by decide) (by decide) (by decide)]
  rfl

/-- Layer 3's aggregated messages. -/
theorem w9_v97 (c : Dev nD) (h79 : W8 m ρ c (Proc.devRef .tc main_v79) = Cert.RefRead.val_main_v150 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    W9 m ρ c (Proc.devRef .tc main_v97) = Cert.RefRead.val_main_v183 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W8 m ρ c) (Proc.devRef .tc main_v97) = _
  simp only [hostOps5]
  after_results_simp
  simp only [h79, w8_v1 m ρ c, w8_v3 m ρ c, w8_v30 m ρ c]
  rfl
theorem w9_v79 (c : Dev nD) : W9 m ρ c (Proc.devRef .tc main_v79) = W8 m ρ c (Proc.devRef .tc main_v79) := keep5 m ρ c main_v79 (by decide)
theorem w9_v98 (c : Dev nD) : W9 m ρ c (Proc.devRef .tc main_v98) = shapeCast S1x128 (m ((c : Thread nD τ).loc main_arg12)) shapeCasts_S128_S1x128 := by
  show StableHlo.after hostOps5 (W8 m ρ c) (Proc.devRef .tc main_v98) = _
  simp only [hostOps5]
  after_results_simp
  simp only [w8_arg12 m ρ c]
  rfl

/-- The segment words laid out as a column. -/
theorem w11_v100 (c : Dev nD) : W11 m ρ c (Proc.devRef .tc main_v100) = shapeCast S100000x1 (m ((c : Thread nD τ).loc main_arg2)) shapeCasts_S100000_S100000x1 := by
  show StableHlo.after hostOps6 (W10 m ρ c) (Proc.devRef .tc main_v100) = _
  simp only [hostOps6]
  after_results_simp
  simp only [w10_arg2 m ρ c]
  rfl
theorem w11_v99 (c : Dev nD) : W11 m ρ c (Proc.devRef .tc main_v99) = W10 m ρ c (Proc.devRef .tc main_v99) := keep6 m ρ c main_v99 (by decide)

/-- The result: the pooled sums divided, row by row, by the number of nodes of the segment, at least one. -/
theorem w13_v110 (c : Dev nD) (h101 : W12 m ρ c (Proc.devRef .tc main_v101) = Cert.RefRead.val_main_v194 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W13 m ρ c (Proc.devRef .tc main_v110) = Cert.RefRead.val_main_v203 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps7 (W12 m ρ c) (Proc.devRef .tc main_v110) = _
  simp only [hostOps7]
  after_results_simp
  simp only [h101, w12_arg2 m ρ c]
  rfl

end Cert.KernelIdeal.Glue

end
-- ==== Proof.Spec.lean ====
/-
  The dense stages of the graph encoder, each as ONE function of whole arrays, index by index, on the extended
  reals. Every array is a function from the indices of a literal rank-2 shape.

  * `mm`      — the matrix product: entry (r, j) is the sum over c of x (r, c) · w (c, j).
  * `conv`    — one graph convolution's output row by row: the aggregated neighbour messages, plus the node's
                own projected features scaled by its self coefficient (a column), plus the bias (a row).
  * `lnRelu`  — layer normalisation of each row of 64 features followed by the positive part: with μ the row's
                mean and σ² the mean of the squared deviations, max ((x − μ) · (σ² + ε)^(−1/2) · g + β, 0).
  * `pool`    — the segment sum: row s of the result adds the rows of h whose segment word equals s.
-/
import Idealize.ShloMosaic.PureOps.Ideal
import Idealize.ShloMosaic.Lib.ValueIdx

noncomputable section

namespace Cert.Spec

open Idealize.ShloMosaic Idealize.ShloMosaic.ValueIdx

/-- A rank-2 array of extended reals with `n` rows and `k` columns. -/
abbrev Mat (n k : Nat) : Type := (⟨2, ![n, k]⟩ : Shape).Idx → EReal

/-- A rank-2 array of 32-bit words. -/
abbrev IMat (n k : Nat) : Type := (⟨2, ![n, k]⟩ : Shape).Idx → BitVec 32

/-- The matrix product. -/
def mm {n k f : Nat} (x : Mat n k) (w : Mat k f) : Mat n f :=
  fun i => ∑ c : Fin k, x (ix2 (i 0) c) * w (ix2 c (i 1))

/-- A convolution's output: aggregated messages + own features · self coefficient + bias. -/
def conv {n f : Nat} (agg hlin : Mat n f) (coef : Mat n 1) (b : Mat 1 f) : Mat n f :=
  fun i => agg i + hlin i * coef (ix2 (i 0) 0) + b (ix2 0 (i 1))

/-- The number of features of a normalised row, 64, as the float both programs divide by. -/
def width64 : EReal := Ideal.ofBits .f32 0x42800000#32

/-- The variance offset ε both programs add (the float nearest 1e-5). -/
def eps : EReal := Ideal.ofBits .f32 0x3727C5AC#32

/-- The float zero the positive part compares with. -/
def zero32 : EReal := Ideal.ofBits .f32 0x00000000#32

/-- The mean of row `r`. -/
def rowMean {n : Nat} (x : Mat n 64) (r : Fin n) : EReal :=
  Ideal.div (∑ k : Fin 64, x (ix2 r k)) width64

/-- The mean of the squared deviations of row `r` from its mean. -/
def rowVar {n : Nat} (x : Mat n 64) (r : Fin n) : EReal :=
  Ideal.div (∑ k : Fin 64, (x (ix2 r k) - rowMean x r) * (x (ix2 r k) - rowMean x r)) width64

/-- Layer normalisation of each row, scaled by `g`, shifted by `β`, then the positive part. -/
def lnRelu {n : Nat} (x : Mat n 64) (g β : Mat 1 64) : Mat n 64 :=
  fun i => max ((x i - rowMean x (i 0)) * Ideal.rsqrt (rowVar x (i 0) + eps) * g (ix2 0 (i 1)) + β (ix2 0 (i 1))) zero32

/-- The segment sum over a column of segment words: row `s` adds the rows of `h` whose word is `s`. -/
def pool {n f : Nat} (h : Mat n f) (seg : IMat n 1) : Mat 64 f :=
  fun i => ∑ r : Fin n, if seg (ix2 r 0) = BitVec.ofNat 32 (i 0).val then h (ix2 r (i 1)) else 0

/-- A vector read as a column: entry (r, 0) is the vector's entry r. -/
def col {n : Nat} (v : (⟨1, ![n]⟩ : Shape).Idx → EReal) : Mat n 1 := fun i => v (ix1 (i 0))

/-- A vector read as a row: entry (0, j) is the vector's entry j. -/
def row {f : Nat} (v : (⟨1, ![f]⟩ : Shape).Idx → EReal) : Mat 1 f := fun i => v (ix1 (i 1))

/-- A vector of words read as a column. -/
def icol {n : Nat} (v : (⟨1, ![n]⟩ : Shape).Idx → BitVec 32) : IMat n 1 := fun i => v (ix1 (i 0))

end Cert.Spec

end
-- ==== Proof.RegProj0.lean ====
/-
  Region 0, the first projection x · W1: the array the region leaves is the matrix product of the two arrays it finds,
  whatever the buffer contents at its entry.

  The rows are cut into 50 tiles of 2000. At grid point t the body multiplies tile t of the rows (2000 × 64) by the
  whole weight matrix (64 × 64): entry (p, q) of what it stores is the sum over k of row-tile (p, k) times weight
  (k, q), the rounding of both factors being the identity on the extended reals and the accumulator starting at zero.
  Row p of tile t is row 2000·t + p of the array, so the stored tile is tile t of the product of the whole arrays; the
  50 tiles cover every row, hence the result array is that product.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The body reads and writes each staged block from its corner: both offsets are zero. -/
private theorem zeroOffsets : (![0, 0] : Fin 2 → Nat) = fun _ => 0 := funext fun a => by fin_cases a <;> rfl

/-! ## The contraction's operand indices

For the output entry i = (p, q) and the contraction position k, the left factor is read at (p, k) and the right factor
at (k, q): the left operand's axis 0 is free and follows the output's row, its axis 1 is contracted; the right
operand's axis 0 is contracted, its axis 1 is free and follows the output's column. -/

/-- The left operand's row is the output's row. -/
private theorem lhsRow (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contraction position. -/
private theorem lhsCol (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contraction position. -/
private theorem rhsRow (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the output's column. -/
private theorem rhsCol (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-! ## The body's result at an entry -/

/-- Entry (p, q) of what the body stores is the sum over k of x (p, k) · w (k, q): the change of format of both
    blocks is the identity on the extended reals, the accumulator is zero and 0 + s = s, and the one-axis contraction
    index is its coordinate k. -/
private theorem tileProduct (x : FVec Ideal S2000x64 .f32) (w : FVec Ideal S64x64 .f32) (p : Fin 2000) (q : Fin 64) :
    (k0_pay1 (F := Ideal) x w) (ix2 p q) = ∑ k : Fin 64, x (ix2 p k) * w (ix2 k q) := by
  unfold k0_pay1
  refine (Ideal.matmul_constant_zero_apply dot_S2000x64_S64x64_S2000x64_1_0_0_1_n_n none _ _ (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhsRow _ _
    | ⟨1, _⟩ => exact (lhsCol _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhsRow _ _).trans hk
    | ⟨1, _⟩ => exact rhsCol _ _)
  rw [el, er]
  rfl

/-- A tile of the product: when row p of the staged rows is row r of X and column q of the staged matrix is column q
    of W, entry (p, q) of the body's result is entry (r, q) of X · W. -/
private theorem tileOfProduct (X : Cert.Spec.Mat 100000 64) (W : Cert.Spec.Mat 64 64)
    (x : FVec Ideal S2000x64 .f32) (w : FVec Ideal S64x64 .f32) (p : Fin 2000) (q : Fin 64) (r : Fin 100000)
    (hx : ∀ k : Fin 64, x (ix2 p k) = X (ix2 r k)) (hw : ∀ k : Fin 64, w (ix2 k q) = W (ix2 k q)) :
    k0_pay1 (F := Ideal) x w (ix2 p q) = Cert.Spec.mm X W (ix2 r q) := by
  rw [tileProduct]
  unfold Cert.Spec.mm
  exact Finset.sum_congr rfl fun k _ => by rw [hx k, hw k]

/-! ## From the tiles to the array -/

/-- Where each window's block sits at grid point t: row tile t of the rows and of the result, the one block of the
    weight matrix. -/
private theorem blockIndices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is tile t of the product of the two arrays the region finds: entry (p, q) of a block
    sits in its array at (block index · block size + p, …), so row p of the staged rows is row 2000·t + p of the rows,
    the staged matrix is the whole weight matrix, and entry (p, q) of the result's block is entry (2000·t + p, q). -/
private theorem writtenBack (c : Dev nD) (t : Fin cfg0.N) :
    (dat0 (F := Ideal) V c).flushed 2 t = ((cfg0.win 2).blk t).view.read (Elt Ideal)
      (Cert.Spec.mm (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeroOffsets]
  simp only [View.ld_unit_zero (S := S2000x64) zeroOffsets, View.ld_unit_zero (S := S64x64) zeroOffsets]
  obtain ⟨e00, e01, e10, e11, e20, e21⟩ := blockIndices t
  have ht : t.val < 50 := lt_of_lt_of_eq t.isLt N_0
  funext j
  have hj0 : (j 0).val < 2000 := (j 0).isLt
  have hj1 : (j 1).val < 64 := (j 1).isLt
  have hr : t.val * 2000 + (j 0).val < 100000 := by omega
  -- the entry inside the block, by its two coordinates
  have ei : (cfg0.win 2).xinj (grid0.coords t) j = ix2 (⟨(j 0).val, hj0⟩ : Fin 2000) (⟨(j 1).val, hj1⟩ : Fin 64) :=
    funext fun a => match a with | ⟨0, _⟩ => rfl | ⟨1, _⟩ => rfl
  -- the same entry inside the result array
  have eo : ((cfg0.win 2).blk t).view.emb j = ix2 (⟨t.val * 2000 + (j 0).val, hr⟩ : Fin 100000) (⟨(j 1).val, hj1⟩ : Fin 64) := by
    funext a; apply Fin.ext
    match a with
    | ⟨0, _⟩ => show win0_2.index t (0 : Fin 2) * 2000 + 1 * (j 0).val = t.val * 2000 + (j 0).val; omega
    | ⟨1, _⟩ => show win0_2.index t (1 : Fin 2) * 64 + 1 * (j 1).val = (j 1).val; omega
  show k0_pay1 (F := Ideal) (iblk0 V c 0 t) (iblk0 V c 1 t) ((cfg0.win 2).xinj (grid0.coords t) j)
    = Cert.Spec.mm (V c (Pipeline.arrRef spec0 0)) (V c (Pipeline.arrRef spec0 1)) (((cfg0.win 2).blk t).view.emb j)
  refine (congrArg (k0_pay1 (F := Ideal) (iblk0 V c 0 t) (iblk0 V c 1 t)) ei).trans ?_
  refine Eq.trans ?_ (congrArg (Cert.Spec.mm (V c (Pipeline.arrRef spec0 0)) (V c (Pipeline.arrRef spec0 1))) eo).symm
  refine tileOfProduct (V c (Pipeline.arrRef spec0 0)) (V c (Pipeline.arrRef spec0 1)) (iblk0 V c 0 t) (iblk0 V c 1 t)
    ⟨(j 0).val, hj0⟩ ⟨(j 1).val, hj1⟩ ⟨t.val * 2000 + (j 0).val, hr⟩ ?_ ?_
  · -- row p of the staged rows is row 2000·t + p of the rows
    intro k
    show V c (Pipeline.arrRef spec0 0) (((cfg0.win 0).blk t).view.emb (ix2 (⟨(j 0).val, hj0⟩ : Fin 2000) k))
      = V c (Pipeline.arrRef spec0 0) (ix2 (⟨t.val * 2000 + (j 0).val, hr⟩ : Fin 100000) k)
    refine congrArg _ ?_
    funext a; apply Fin.ext
    match a with
    | ⟨0, _⟩ => show win0_0.index t (0 : Fin 2) * 2000 + 1 * (j 0).val = t.val * 2000 + (j 0).val; omega
    | ⟨1, _⟩ => show win0_0.index t (1 : Fin 2) * 64 + 1 * k.val = k.val; omega
  · -- the staged matrix is the weight matrix
    intro k
    show V c (Pipeline.arrRef spec0 1) (((cfg0.win 1).blk t).view.emb (ix2 k (⟨(j 1).val, hj1⟩ : Fin 64)))
      = V c (Pipeline.arrRef spec0 1) (ix2 k (⟨(j 1).val, hj1⟩ : Fin 64))
    refine congrArg _ ?_
    funext a; apply Fin.ext
    match a with
    | ⟨0, _⟩ => show win0_1.index t (0 : Fin 2) * 64 + 1 * k.val = k.val; omega
    | ⟨1, _⟩ => show win0_1.index t (1 : Fin 2) * 64 + 1 * (j 1).val = (j 1).val; omega

/-- An entry of the result array lies in grid point t's block exactly when each coordinate lies in the block's range
    on its axis. -/
private theorem inBlock (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v33).slice (win0_2.rect t)).set ↔ _
  rw [View.set_slice_whole, Rect.mem_set_unit]
  exact Iff.rfl

/-- The 50 row tiles cover the result: row r lies in the tile of grid point r / 2000, and every column in its one
    column block. -/
private theorem rowCovered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := lt_of_lt_of_eq (show (i 0).val / 2000 < 50 by omega) N_0.symm
  obtain ⟨-, -, -, -, e20, e21⟩ := blockIndices ⟨(i 0).val / 2000, hN⟩
  have e20' : win0_2.index ⟨(i 0).val / 2000, hN⟩ (0 : Fin 2) = (i 0).val / 2000 := e20
  refine ⟨⟨(i 0).val / 2000, hN⟩, flush0_2 _, ?_⟩
  rw [inBlock]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 64 ≤ (i 1).val ∧ (i 1).val < win0_2.index ⟨(i 0).val / 2000, hN⟩ (1 : Fin 2) * 64 + 64; omega

/-- Row r of the result is row r of the input times the weight matrix. -/
theorem proj0 (c : Dev nD) :
    (dat0 (F := Ideal) V c).arrAt 2 cfg0.N = Cert.Spec.mm (V c (Pipeline.arrRef spec0 0)) (V c (Pipeline.arrRef spec0 1)) :=
  (dat0 (F := Ideal) V c).arrAt_eq_of_cover 2 _ (fun t _ => writtenBack V c t) rowCovered

end Cert.KernelIdeal.RegionValue

end
-- ==== Proof.RegProj2.lean ====
/-
  Region 2, the second projection h · W2: the array the region leaves is the matrix product of the two arrays it finds,
  whatever the buffer contents at its entry.

  The rows are cut into 50 tiles of 2000. At grid point t the body multiplies tile t of the rows (2000 × 64) by the
  whole weight matrix (64 × 64): entry (p, q) of what it stores is the sum over k of row-tile (p, k) times weight
  (k, q), the rounding of both factors being the identity on the extended reals and the accumulator starting at zero.
  Row p of tile t is row 2000·t + p of the array, so the stored tile is tile t of the product of the whole arrays; the
  50 tiles cover every row, hence the result array is that product.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The body reads and writes each staged block from its corner: both offsets are zero. -/
private theorem zeroOffsets : (![0, 0] : Fin 2 → Nat) = fun _ => 0 := funext fun a => by fin_cases a <;> rfl

/-! ## The contraction's operand indices

For the output entry i = (p, q) and the contraction position k, the left factor is read at (p, k) and the right factor
at (k, q): the left operand's axis 0 is free and follows the output's row, its axis 1 is contracted; the right
operand's axis 0 is contracted, its axis 1 is free and follows the output's column. -/

/-- The left operand's row is the output's row. -/
private theorem lhsRow (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contraction position. -/
private theorem lhsCol (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contraction position. -/
private theorem rhsRow (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the output's column. -/
private theorem rhsCol (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-! ## The body's result at an entry -/

/-- Entry (p, q) of what the body stores is the sum over k of x (p, k) · w (k, q): the change of format of both
    blocks is the identity on the extended reals, the accumulator is zero and 0 + s = s, and the one-axis contraction
    index is its coordinate k; the cast of the rows to their own shape, which this body applies first, is the
    identity too. -/
private theorem tileProduct (x : FVec Ideal S2000x64 .f32) (w : FVec Ideal S64x64 .f32) (p : Fin 2000) (q : Fin 64) :
    (k2_pay1 (F := Ideal) x w) (ix2 p q) = ∑ k : Fin 64, x (ix2 p k) * w (ix2 k q) := by
  unfold k2_pay1
  refine (Ideal.matmul_constant_zero_apply dot_S2000x64_S64x64_S2000x64_1_0_0_1_n_n none _ _ (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhsRow _ _
    | ⟨1, _⟩ => exact (lhsCol _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhsRow _ _).trans hk
    | ⟨1, _⟩ => exact rhsCol _ _)
  rw [el, er]
  show shapeCast S2000x64 x shapeCasts_S2000x64_S2000x64 (ix2 p k) * w (ix2 k q) = x (ix2 p k) * w (ix2 k q)
  rw [shapeCast_self]

/-- A tile of the product: when row p of the staged rows is row r of X and column q of the staged matrix is column q
    of W, entry (p, q) of the body's result is entry (r, q) of X · W. -/
private theorem tileOfProduct (X : Cert.Spec.Mat 100000 64) (W : Cert.Spec.Mat 64 64)
    (x : FVec Ideal S2000x64 .f32) (w : FVec Ideal S64x64 .f32) (p : Fin 2000) (q : Fin 64) (r : Fin 100000)
    (hx : ∀ k : Fin 64, x (ix2 p k) = X (ix2 r k)) (hw : ∀ k : Fin 64, w (ix2 k q) = W (ix2 k q)) :
    k2_pay1 (F := Ideal) x w (ix2 p q) = Cert.Spec.mm X W (ix2 r q) := by
  rw [tileProduct]
  unfold Cert.Spec.mm
  exact Finset.sum_congr rfl fun k _ => by rw [hx k, hw k]

/-! ## From the tiles to the array -/

/-- Where each window's block sits at grid point t: row tile t of the rows and of the result, the one block of the
    weight matrix. -/
private theorem blockIndices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point t writes back is tile t of the product of the two arrays the region finds: entry (p, q) of a block
    sits in its array at (block index · block size + p, …), so row p of the staged rows is row 2000·t + p of the rows,
    the staged matrix is the whole weight matrix, and entry (p, q) of the result's block is entry (2000·t + p, q). -/
private theorem writtenBack (c : Dev nD) (t : Fin cfg2.N) :
    (dat2 (F := Ideal) V c).flushed 2 t = ((cfg2.win 2).blk t).view.read (Elt Ideal)
      (Cert.Spec.mm (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zeroOffsets]
  simp only [View.ld_unit_zero (S := S2000x64) zeroOffsets, View.ld_unit_zero (S := S64x64) zeroOffsets]
  obtain ⟨e00, e01, e10, e11, e20, e21⟩ := blockIndices t
  have ht : t.val < 50 := lt_of_lt_of_eq t.isLt N_2
  funext j
  have hj0 : (j 0).val < 2000 := (j 0).isLt
  have hj1 : (j 1).val < 64 := (j 1).isLt
  have hr : t.val * 2000 + (j 0).val < 100000 := by omega
  -- the entry inside the block, by its two coordinates
  have ei : (cfg2.win 2).xinj (grid2.coords t) j = ix2 (⟨(j 0).val, hj0⟩ : Fin 2000) (⟨(j 1).val, hj1⟩ : Fin 64) :=
    funext fun a => match a with | ⟨0, _⟩ => rfl | ⟨1, _⟩ => rfl
  -- the same entry inside the result array
  have eo : ((cfg2.win 2).blk t).view.emb j = ix2 (⟨t.val * 2000 + (j 0).val, hr⟩ : Fin 100000) (⟨(j 1).val, hj1⟩ : Fin 64) := by
    funext a; apply Fin.ext
    match a with
    | ⟨0, _⟩ => show win2_2.index t (0 : Fin 2) * 2000 + 1 * (j 0).val = t.val * 2000 + (j 0).val; omega
    | ⟨1, _⟩ => show win2_2.index t (1 : Fin 2) * 64 + 1 * (j 1).val = (j 1).val; omega
  show k2_pay1 (F := Ideal) (iblk2 V c 0 t) (iblk2 V c 1 t) ((cfg2.win 2).xinj (grid2.coords t) j)
    = Cert.Spec.mm (V c (Pipeline.arrRef spec2 0)) (V c (Pipeline.arrRef spec2 1)) (((cfg2.win 2).blk t).view.emb j)
  refine (congrArg (k2_pay1 (F := Ideal) (iblk2 V c 0 t) (iblk2 V c 1 t)) ei).trans ?_
  refine Eq.trans ?_ (congrArg (Cert.Spec.mm (V c (Pipeline.arrRef spec2 0)) (V c (Pipeline.arrRef spec2 1))) eo).symm
  refine tileOfProduct (V c (Pipeline.arrRef spec2 0)) (V c (Pipeline.arrRef spec2 1)) (iblk2 V c 0 t) (iblk2 V c 1 t)
    ⟨(j 0).val, hj0⟩ ⟨(j 1).val, hj1⟩ ⟨t.val * 2000 + (j 0).val, hr⟩ ?_ ?_
  · -- row p of the staged rows is row 2000·t + p of the rows
    intro k
    show V c (Pipeline.arrRef spec2 0) (((cfg2.win 0).blk t).view.emb (ix2 (⟨(j 0).val, hj0⟩ : Fin 2000) k))
      = V c (Pipeline.arrRef spec2 0) (ix2 (⟨t.val * 2000 + (j 0).val, hr⟩ : Fin 100000) k)
    refine congrArg _ ?_
    funext a; apply Fin.ext
    match a with
    | ⟨0, _⟩ => show win2_0.index t (0 : Fin 2) * 2000 + 1 * (j 0).val = t.val * 2000 + (j 0).val; omega
    | ⟨1, _⟩ => show win2_0.index t (1 : Fin 2) * 64 + 1 * k.val = k.val; omega
  · -- the staged matrix is the weight matrix
    intro k
    show V c (Pipeline.arrRef spec2 1) (((cfg2.win 1).blk t).view.emb (ix2 k (⟨(j 1).val, hj1⟩ : Fin 64)))
      = V c (Pipeline.arrRef spec2 1) (ix2 k (⟨(j 1).val, hj1⟩ : Fin 64))
    refine congrArg _ ?_
    funext a; apply Fin.ext
    match a with
    | ⟨0, _⟩ => show win2_1.index t (0 : Fin 2) * 64 + 1 * k.val = k.val; omega
    | ⟨1, _⟩ => show win2_1.index t (1 : Fin 2) * 64 + 1 * (j 1).val = (j 1).val; omega

/-- An entry of the result array lies in grid point t's block exactly when each coordinate lies in the block's range
    on its axis. -/
private theorem inBlock (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v56).slice (win2_2.rect t)).set ↔ _
  rw [View.set_slice_whole, Rect.mem_set_unit]
  exact Iff.rfl

/-- The 50 row tiles cover the result: row r lies in the tile of grid point r / 2000, and every column in its one
    column block. -/
private theorem rowCovered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 2000 < cfg2.N := lt_of_lt_of_eq (show (i 0).val / 2000 < 50 by omega) N_2.symm
  obtain ⟨-, -, -, -, e20, e21⟩ := blockIndices ⟨(i 0).val / 2000, hN⟩
  have e20' : win2_2.index ⟨(i 0).val / 2000, hN⟩ (0 : Fin 2) = (i 0).val / 2000 := e20
  refine ⟨⟨(i 0).val / 2000, hN⟩, flush2_2 _, ?_⟩
  rw [inBlock]
  intro a
  match a with
  | ⟨0, _⟩ => show win2_2.index ⟨(i 0).val / 2000, hN⟩ (0 : Fin 2) * 2000 ≤ (i 0).val ∧ (i 0).val < win2_2.index ⟨(i 0).val / 2000, hN⟩ (0 : Fin 2) * 2000 + 2000; omega
  | ⟨1, _⟩ => show win2_2.index ⟨(i 0).val / 2000, hN⟩ (1 : Fin 2) * 64 ≤ (i 1).val ∧ (i 1).val < win2_2.index ⟨(i 0).val / 2000, hN⟩ (1 : Fin 2) * 64 + 64; omega

/-- Row r of the result is row r of the input times the weight matrix. -/
theorem proj2 (c : Dev nD) :
    (dat2 (F := Ideal) V c).arrAt 2 cfg2.N = Cert.Spec.mm (V c (Pipeline.arrRef spec2 0)) (V c (Pipeline.arrRef spec2 1)) :=
  (dat2 (F := Ideal) V c).arrAt_eq_of_cover 2 _ (fun t _ => writtenBack V c t) rowCovered

end Cert.KernelIdeal.RegionValue

end
-- ==== Proof.RegProj4.lean ====
/-
  Region 4, the third projection h · W3 (64 features to 128): the array the region leaves is the matrix product of the two arrays it finds,
  whatever the buffer contents at its entry.

  The rows are cut into 50 tiles of 2000. At grid point t the body multiplies tile t of the rows (2000 × 64) by the
  whole weight matrix (64 × 128): entry (p, q) of what it stores is the sum over k of row-tile (p, k) times weight
  (k, q), the rounding of both factors being the identity on the extended reals and the accumulator starting at zero.
  Row p of tile t is row 2000·t + p of the array, so the stored tile is tile t of the product of the whole arrays; the
  50 tiles cover every row, hence the result array is that product.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The body reads and writes each staged block from its corner: both offsets are zero. -/
private theorem zeroOffsets : (![0, 0] : Fin 2 → Nat) = fun _ => 0 := funext fun a => by fin_cases a <;> rfl

/-! ## The contraction's operand indices

For the output entry i = (p, q) and the contraction position k, the left factor is read at (p, k) and the right factor
at (k, q): the left operand's axis 0 is free and follows the output's row, its axis 1 is contracted; the right
operand's axis 0 is contracted, its axis 1 is free and follows the output's column. -/

/-- The left operand's row is the output's row. -/
private theorem lhsRow (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The left operand's column is the contraction position. -/
private theorem lhsCol (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The right operand's row is the contraction position. -/
private theorem rhsRow (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- The right operand's column is the output's column. -/
private theorem rhsCol (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-! ## The body's result at an entry -/

/-- Entry (p, q) of what the body stores is the sum over k of x (p, k) · w (k, q): the change of format of both
    blocks is the identity on the extended reals, the accumulator is zero and 0 + s = s, and the one-axis contraction
    index is its coordinate k; the cast of the rows to their own shape, which this body applies first, is the
    identity too. -/
private theorem tileProduct (x : FVec Ideal S2000x64 .f32) (w : FVec Ideal S64x128 .f32) (p : Fin 2000) (q : Fin 128) :
    (k4_pay1 (F := Ideal) x w) (ix2 p q) = ∑ k : Fin 64, x (ix2 p k) * w (ix2 k q) := by
  unfold k4_pay1
  refine (Ideal.matmul_constant_zero_apply dot_S2000x64_S64x128_S2000x128_1_0_0_1_n_n none _ _ (ix2 p q)).trans ?_
  rw [← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhsRow _ _
    | ⟨1, _⟩ => exact (lhsCol _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhsRow _ _).trans hk
    | ⟨1, _⟩ => exact rhsCol _ _)
  rw [el, er]
  show shapeCast S2000x64 x shapeCasts_S2000x64_S2000x64 (ix2 p k) * w (ix2 k q) = x (ix2 p k) * w (ix2 k q)
  rw [shapeCast_self]

/-- A tile of the product: when row p of the staged rows is row r of X and column q of the staged matrix is column q
    of W, entry (p, q) of the body's result is entry (r, q) of X · W. -/
private theorem tileOfProduct (X : Cert.Spec.Mat 100000 64) (W : Cert.Spec.Mat 64 128)
    (x : FVec Ideal S2000x64 .f32) (w : FVec Ideal S64x128 .f32) (p : Fin 2000) (q : Fin 128) (r : Fin 100000)
    (hx : ∀ k : Fin 64, x (ix2 p k) = X (ix2 r k)) (hw : ∀ k : Fin 64, w (ix2 k q) = W (ix2 k q)) :
    k4_pay1 (F := Ideal) x w (ix2 p q) = Cert.Spec.mm X W (ix2 r q) := by
  rw [tileProduct]
  unfold Cert.Spec.mm
  exact Finset.sum_congr rfl fun k _ => by rw [hx k, hw k]

/-! ## From the tiles to the array -/

/-- Where each window's block sits at grid point t: row tile t of the rows and of the result, the one block of the
    weight matrix. -/
private theorem blockIndices : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What grid point t writes back is tile t of the product of the two arrays the region finds: entry (p, q) of a block
    sits in its array at (block index · block size + p, …), so row p of the staged rows is row 2000·t + p of the rows,
    the staged matrix is the whole weight matrix, and entry (p, q) of the result's block is entry (2000·t + p, q). -/
private theorem writtenBack (c : Dev nD) (t : Fin cfg4.N) :
    (dat4 (F := Ideal) V c).flushed 2 t = ((cfg4.win 2).blk t).view.read (Elt Ideal)
      (Cert.Spec.mm (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zeroOffsets]
  simp only [View.ld_unit_zero (S := S2000x64) zeroOffsets, View.ld_unit_zero (S := S64x128) zeroOffsets]
  obtain ⟨e00, e01, e10, e11, e20, e21⟩ := blockIndices t
  have ht : t.val < 50 := lt_of_lt_of_eq t.isLt N_4
  funext j
  have hj0 : (j 0).val < 2000 := (j 0).isLt
  have hj1 : (j 1).val < 128 := (j 1).isLt
  have hr : t.val * 2000 + (j 0).val < 100000 := by omega
  -- the entry inside the block, by its two coordinates
  have ei : (cfg4.win 2).xinj (grid4.coords t) j = ix2 (⟨(j 0).val, hj0⟩ : Fin 2000) (⟨(j 1).val, hj1⟩ : Fin 128) :=
    funext fun a => match a with | ⟨0, _⟩ => rfl | ⟨1, _⟩ => rfl
  -- the same entry inside the result array
  have eo : ((cfg4.win 2).blk t).view.emb j = ix2 (⟨t.val * 2000 + (j 0).val, hr⟩ : Fin 100000) (⟨(j 1).val, hj1⟩ : Fin 128) := by
    funext a; apply Fin.ext
    match a with
    | ⟨0, _⟩ => show win4_2.index t (0 : Fin 2) * 2000 + 1 * (j 0).val = t.val * 2000 + (j 0).val; omega
    | ⟨1, _⟩ => show win4_2.index t (1 : Fin 2) * 128 + 1 * (j 1).val = (j 1).val; omega
  show k4_pay1 (F := Ideal) (iblk4 V c 0 t) (iblk4 V c 1 t) ((cfg4.win 2).xinj (grid4.coords t) j)
    = Cert.Spec.mm (V c (Pipeline.arrRef spec4 0)) (V c (Pipeline.arrRef spec4 1)) (((cfg4.win 2).blk t).view.emb j)
  refine (congrArg (k4_pay1 (F := Ideal) (iblk4 V c 0 t) (iblk4 V c 1 t)) ei).trans ?_
  refine Eq.trans ?_ (congrArg (Cert.Spec.mm (V c (Pipeline.arrRef spec4 0)) (V c (Pipeline.arrRef spec4 1))) eo).symm
  refine tileOfProduct (V c (Pipeline.arrRef spec4 0)) (V c (Pipeline.arrRef spec4 1)) (iblk4 V c 0 t) (iblk4 V c 1 t)
    ⟨(j 0).val, hj0⟩ ⟨(j 1).val, hj1⟩ ⟨t.val * 2000 + (j 0).val, hr⟩ ?_ ?_
  · -- row p of the staged rows is row 2000·t + p of the rows
    intro k
    show V c (Pipeline.arrRef spec4 0) (((cfg4.win 0).blk t).view.emb (ix2 (⟨(j 0).val, hj0⟩ : Fin 2000) k))
      = V c (Pipeline.arrRef spec4 0) (ix2 (⟨t.val * 2000 + (j 0).val, hr⟩ : Fin 100000) k)
    refine congrArg _ ?_
    funext a; apply Fin.ext
    match a with
    | ⟨0, _⟩ => show win4_0.index t (0 : Fin 2) * 2000 + 1 * (j 0).val = t.val * 2000 + (j 0).val; omega
    | ⟨1, _⟩ => show win4_0.index t (1 : Fin 2) * 64 + 1 * k.val = k.val; omega
  · -- the staged matrix is the weight matrix
    intro k
    show V c (Pipeline.arrRef spec4 1) (((cfg4.win 1).blk t).view.emb (ix2 k (⟨(j 1).val, hj1⟩ : Fin 128)))
      = V c (Pipeline.arrRef spec4 1) (ix2 k (⟨(j 1).val, hj1⟩ : Fin 128))
    refine congrArg _ ?_
    funext a; apply Fin.ext
    match a with
    | ⟨0, _⟩ => show win4_1.index t (0 : Fin 2) * 64 + 1 * k.val = k.val; omega
    | ⟨1, _⟩ => show win4_1.index t (1 : Fin 2) * 128 + 1 * (j 1).val = (j 1).val; omega

/-- An entry of the result array lies in grid point t's block exactly when each coordinate lies in the block's range
    on its axis. -/
private theorem inBlock (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v79).slice (win4_2.rect t)).set ↔ _
  rw [View.set_slice_whole, Rect.mem_set_unit]
  exact Iff.rfl

/-- The 50 row tiles cover the result: row r lies in the tile of grid point r / 2000, and every column in its one
    column block. -/
private theorem rowCovered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : (i 0).val / 2000 < cfg4.N := lt_of_lt_of_eq (show (i 0).val / 2000 < 50 by omega) N_4.symm
  obtain ⟨-, -, -, -, e20, e21⟩ := blockIndices ⟨(i 0).val / 2000, hN⟩
  have e20' : win4_2.index ⟨(i 0).val / 2000, hN⟩ (0 : Fin 2) = (i 0).val / 2000 := e20
  refine ⟨⟨(i 0).val / 2000, hN⟩, flush4_2 _, ?_⟩
  rw [inBlock]
  intro a
  match a with
  | ⟨0, _⟩ => show win4_2.index ⟨(i 0).val / 2000, hN⟩ (0 : Fin 2) * 2000 ≤ (i 0).val ∧ (i 0).val < win4_2.index ⟨(i 0).val / 2000, hN⟩ (0 : Fin 2) * 2000 + 2000; omega
  | ⟨1, _⟩ => show win4_2.index ⟨(i 0).val / 2000, hN⟩ (1 : Fin 2) * 128 ≤ (i 1).val ∧ (i 1).val < win4_2.index ⟨(i 0).val / 2000, hN⟩ (1 : Fin 2) * 128 + 128; omega

/-- Row r of the result is row r of the input times the weight matrix. -/
theorem proj4 (c : Dev nD) :
    (dat4 (F := Ideal) V c).arrAt 2 cfg4.N = Cert.Spec.mm (V c (Pipeline.arrRef spec4 0)) (V c (Pipeline.arrRef spec4 1)) :=
  (dat4 (F := Ideal) V c).arrAt_eq_of_cover 2 _ (fun t _ => writtenBack V c t) rowCovered

end Cert.KernelIdeal.RegionValue

end
-- ==== Proof.RegNorm1.lean ====
/-
  Region 1, the first convolution's output normalised: aggregated messages + own features · self coefficient + bias,
  then layer normalisation of each row and the positive part.

  The region's grid has 50 points over tiles of 2000 rows. At each point the body computes, of its six blocks, the
  specification's function of them (first part); a row of that function uses only that row of the blocks (second
  part); and the blocks are rows 2000·t … 2000·t + 1999 of the arrays, the 50 tiles covering all 100000 rows (third
  part). So the array the region leaves is the specification's function of the six arrays it finds.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

/-! ## The body's arithmetic on one block of 2000 rows

The body reads six vectors: two blocks of 2000 rows by 64 lanes (the aggregated messages and the node's own
projected features), a column of 2000 self coefficients, and three rows of 64 lanes (bias, scale, shift). Every
operation is pointwise except four re-indexings (a column spread over the lanes, a row repeated over the rows, a
vector of row sums viewed as a column) and the two sums over the 64 lanes of a row. -/

/-- A column of 2000 entries spread over 64 lanes reads, at (r, j), the column's entry r. -/
private theorem spreadCol (v : S2000x1.Idx → EReal) (h : S2000x1.Broadcasts S2000x64) (r : Fin 2000) (j : Fin 64) :
    broadcastTo S2000x64 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A row of 64 lanes repeated over 2000 rows reads, at (r, j), the row's entry j. -/
private theorem spreadRow (v : S1x64.Idx → EReal) (h : S1x64.Broadcasts S2000x64) (r : Fin 2000) (j : Fin 64) :
    broadcastTo S2000x64 v h (ix2 r j) = v (ix2 (0 : Fin 1) j) :=
  broadcastTo_1b_ab_apply v h r j

/-- A vector of 2000 entries viewed as a column reads, at (r, 0), the vector's entry r: both have row-major
    position r. -/
private theorem asCol (v : S2000.Idx → EReal) (h : S2000.ShapeCasts S2000x1) (r : Fin 2000) (u : Fin 1) :
    shapeCast S2000x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum over the lanes, read at row r, is the sum over k of the entries (r, k): the index of the block over
    row r with lane k inserted is (r, k). -/
private theorem laneSum (v : FVec Ideal S2000x64 .f32) (h : S2000x64.Reduces [1] S2000) (hφ : FKind.Formats .f32)
    (hacc : (0x00000000#32 : BitVec 32) = FKind.add.neutral .f32 hφ) (r : Fin 2000) :
    multiReduction (F := Ideal) .add [1] S2000 v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext c
  apply Fin.ext
  match c with
  | ⟨0, _⟩ => rfl
  | ⟨1, _⟩ => rfl

/-- The convolution of a block as the body forms it: messages + own features · coefficient column + bias row. -/
private def convBlk (x0 x1 : Vec Ideal S2000x64 .f32) (x2 : Vec Ideal S2000x1 .f32) (x3 : Vec Ideal S1x64 .f32) :
    FVec Ideal S2000x64 .f32 :=
  addf (addf (shapeCast S2000x64 x0 shapeCasts_S2000x64_S2000x64)
      (mulf (shapeCast S2000x64 x1 shapeCasts_S2000x64_S2000x64)
        (broadcastTo S2000x64 (shapeCast S2000x1 x2 shapeCasts_S2000x1_S2000x1) broadcasts_S2000x1_S2000x64)))
    (broadcastTo S2000x64 (shapeCast S1x64 x3 shapeCasts_S1x64_S1x64) broadcasts_S1x64_S2000x64)

/-- The lane sum of every row divided by 64, as a column: what the body forms twice, of the rows and of their
    squared deviations. -/
private def meanCol (v : FVec Ideal S2000x64 .f32) : FVec Ideal S2000x1 .f32 :=
  divf (shapeCast S2000x1 (multiReduction (F := Ideal) .add [1] S2000 v 0x00000000#32 reduces_S2000x64_S2000 (.inl rfl) rfl)
      shapeCasts_S2000_S2000x1)
    (broadcast S2000x1 (Scalar.ofBits (F := Ideal) .f32 0x42800000#32))

/-- The block's convolution is the specification's, entry by entry: the three same-shape casts are the identity,
    the coefficient column is read at (r, 0) and the bias row at (0, j). -/
private theorem convBlk_eq (x0 x1 : Vec Ideal S2000x64 .f32) (x2 : Vec Ideal S2000x1 .f32) (x3 : Vec Ideal S1x64 .f32) :
    convBlk x0 x1 x2 x3 = Cert.Spec.conv x0 x1 x2 x3 := by
  unfold convBlk
  rw [shapeCast_self, shapeCast_self, shapeCast_self, shapeCast_self]
  funext i
  obtain ⟨r, j, rfl⟩ : ∃ (r : Fin 2000) (j : Fin 64), i = ix2 r j := ⟨i 0, i 1, eq_ix2 i⟩
  show x0 (ix2 r j) + x1 (ix2 r j) * broadcastTo S2000x64 x2 broadcasts_S2000x1_S2000x64 (ix2 r j)
      + broadcastTo S2000x64 x3 broadcasts_S1x64_S2000x64 (ix2 r j)
    = x0 (ix2 r j) + x1 (ix2 r j) * x2 (ix2 r (0 : Fin 1)) + x3 (ix2 (0 : Fin 1) j)
  rw [spreadCol, spreadRow]

/-- The mean column at row r is the row's lane sum divided by 64. -/
private theorem meanCol_apply (v : FVec Ideal S2000x64 .f32) (r : Fin 2000) (u : Fin 1) :
    meanCol v (ix2 r u) = Ideal.div (∑ k : Fin 64, v (ix2 r k)) Cert.Spec.width64 := by
  unfold meanCol
  show Ideal.div (shapeCast S2000x1 (multiReduction (F := Ideal) .add [1] S2000 v 0x00000000#32 reduces_S2000x64_S2000 (.inl rfl) rfl)
      shapeCasts_S2000_S2000x1 (ix2 r u)) (Ideal.ofBits .f32 0x42800000#32) = _
  exact congrArg (fun s => Ideal.div s Cert.Spec.width64) ((asCol _ _ r u).trans (laneSum v _ _ _ r))

/-- The deviations of a block from its rows' means. -/
private def devBlk (X : FVec Ideal S2000x64 .f32) : FVec Ideal S2000x64 .f32 :=
  subf X (broadcastTo S2000x64 (meanCol X) broadcasts_S2000x1_S2000x64)

/-- Entry (r, k) of the deviations is the entry less the mean of row r. -/
private theorem devBlk_apply (X : FVec Ideal S2000x64 .f32) (r : Fin 2000) (k : Fin 64) :
    devBlk X (ix2 r k) = X (ix2 r k) - Cert.Spec.rowMean X r := by
  show X (ix2 r k) - broadcastTo S2000x64 (meanCol X) broadcasts_S2000x1_S2000x64 (ix2 r k) = _
  rw [spreadCol, meanCol_apply]
  rfl

/-- Layer normalisation and the positive part as the body forms them of a block `X`, a scale row and a shift row. -/
private def normBlk (X : FVec Ideal S2000x64 .f32) (g b : Vec Ideal S1x64 .f32) : FVec Ideal S2000x64 .f32 :=
  maximumf (addf (mulf (mulf (devBlk X)
          (broadcastTo S2000x64
            (rsqrt (addf (meanCol (mulf (devBlk X) (devBlk X))) (broadcast S2000x1 (Scalar.ofBits (F := Ideal) .f32 0x3727C5AC#32))))
            broadcasts_S2000x1_S2000x64))
        (broadcastTo S2000x64 (shapeCast S1x64 g shapeCasts_S1x64_S1x64) broadcasts_S1x64_S2000x64))
      (broadcastTo S2000x64 (shapeCast S1x64 b shapeCasts_S1x64_S1x64) broadcasts_S1x64_S2000x64))
    (broadcast S2000x64 (Scalar.ofBits (F := Ideal) .f32 0x00000000#32))

/-- It is the specification's: the mean column of the squared deviations at row r is the row's variance, the
    column under the reciprocal square root is read at (r, 0), the scale and shift rows at (0, j). -/
private theorem normBlk_eq (X : FVec Ideal S2000x64 .f32) (g b : Vec Ideal S1x64 .f32) :
    normBlk X g b = Cert.Spec.lnRelu X g b := by
  unfold normBlk
  rw [shapeCast_self, shapeCast_self]
  funext i
  obtain ⟨r, j, rfl⟩ : ∃ (r : Fin 2000) (j : Fin 64), i = ix2 r j := ⟨i 0, i 1, eq_ix2 i⟩
  have hvar : meanCol (mulf (devBlk X) (devBlk X)) (ix2 r (0 : Fin 1)) = Cert.Spec.rowVar X r := by
    refine (meanCol_apply _ r 0).trans ?_
    unfold Cert.Spec.rowVar
    refine congrArg (fun s => Ideal.div s Cert.Spec.width64) (Finset.sum_congr rfl fun k _ => ?_)
    show devBlk X (ix2 r k) * devBlk X (ix2 r k) = _
    rw [devBlk_apply]
  show max (devBlk X (ix2 r j)
        * broadcastTo S2000x64
            (rsqrt (addf (meanCol (mulf (devBlk X) (devBlk X))) (broadcast S2000x1 (Scalar.ofBits (F := Ideal) .f32 0x3727C5AC#32))))
            broadcasts_S2000x1_S2000x64 (ix2 r j)
        * broadcastTo S2000x64 g broadcasts_S1x64_S2000x64 (ix2 r j)
        + broadcastTo S2000x64 b broadcasts_S1x64_S2000x64 (ix2 r j)) (Ideal.ofBits .f32 0x00000000#32) = _
  rw [spreadCol, spreadRow, spreadRow, devBlk_apply]
  show max ((X (ix2 r j) - Cert.Spec.rowMean X r)
        * Ideal.rsqrt (meanCol (mulf (devBlk X) (devBlk X)) (ix2 r (0 : Fin 1)) + Ideal.ofBits .f32 0x3727C5AC#32)
        * g (ix2 (0 : Fin 1) j) + b (ix2 (0 : Fin 1) j)) (Ideal.ofBits .f32 0x00000000#32) = _
  rw [hvar]
  rfl

/-- THE BODY ON A BLOCK is the specification on the block: its 43 operations are the convolution, then the
    normalisation of its rows and the positive part. -/
private theorem pay_eq (x0 x1 : Vec Ideal S2000x64 .f32) (x2 : Vec Ideal S2000x1 .f32) (x3 x4 x5 : Vec Ideal S1x64 .f32) :
    k1_pay1 (F := Ideal) x0 x1 x2 x3 x4 x5 = Cert.Spec.lnRelu (Cert.Spec.conv x0 x1 x2 x3) x4 x5 := by
  have shape : k1_pay1 (F := Ideal) x0 x1 x2 x3 x4 x5 = normBlk (convBlk x0 x1 x2 x3) x4 x5 := rfl
  rw [shape, normBlk_eq, convBlk_eq]

/-! ## From a block's rows to the array's rows

The normalisation of a row uses that row only (its 64 entries, its coefficient) and the three parameter rows; so
the specification on a block, at row r, is the specification on the whole arrays at the array's row that the block's
row r is, provided the block's row is the array's row entry by entry. -/

/-- If row `y 0` of the three blocks is row `i 0` of the three arrays, the parameter rows agree, and the lane
    is the same, then the specification on the blocks at `y` is the specification on the arrays at `i`. -/
private theorem lnRelu_row (A0 A1 : Cert.Spec.Mat 100000 64) (A2 : Cert.Spec.Mat 100000 1) (A3 A4 A5 : Cert.Spec.Mat 1 64)
    (x0 x1 : Cert.Spec.Mat 2000 64) (x2 : Cert.Spec.Mat 2000 1) (x3 x4 x5 : Cert.Spec.Mat 1 64)
    (y : (⟨2, ![2000, 64]⟩ : Shape).Idx) (i : (⟨2, ![100000, 64]⟩ : Shape).Idx) (hj : i 1 = y 1)
    (h0 : ∀ k : Fin 64, x0 (ix2 (y 0) k) = A0 (ix2 (i 0) k))
    (h1 : ∀ k : Fin 64, x1 (ix2 (y 0) k) = A1 (ix2 (i 0) k))
    (h2 : x2 (ix2 (y 0) (0 : Fin 1)) = A2 (ix2 (i 0) (0 : Fin 1)))
    (h3 : ∀ k : Fin 64, x3 (ix2 (0 : Fin 1) k) = A3 (ix2 (0 : Fin 1) k))
    (h4 : ∀ k : Fin 64, x4 (ix2 (0 : Fin 1) k) = A4 (ix2 (0 : Fin 1) k))
    (h5 : ∀ k : Fin 64, x5 (ix2 (0 : Fin 1) k) = A5 (ix2 (0 : Fin 1) k)) :
    Cert.Spec.lnRelu (Cert.Spec.conv x0 x1 x2 x3) x4 x5 y = Cert.Spec.lnRelu (Cert.Spec.conv A0 A1 A2 A3) A4 A5 i := by
  obtain ⟨r, j, rfl⟩ : ∃ (r : Fin 2000) (j : Fin 64), y = ix2 r j := ⟨y 0, y 1, eq_ix2 y⟩
  obtain ⟨R, j', rfl⟩ : ∃ (R : Fin 100000) (j' : Fin 64), i = ix2 R j' := ⟨i 0, i 1, eq_ix2 i⟩
  have hj' : j' = j := hj
  subst hj'
  have hc : ∀ k : Fin 64, Cert.Spec.conv x0 x1 x2 x3 (ix2 r k) = Cert.Spec.conv A0 A1 A2 A3 (ix2 R k) := fun k => by
    show x0 (ix2 r k) + x1 (ix2 r k) * x2 (ix2 r (0 : Fin 1)) + x3 (ix2 (0 : Fin 1) k)
      = A0 (ix2 R k) + A1 (ix2 R k) * A2 (ix2 R (0 : Fin 1)) + A3 (ix2 (0 : Fin 1) k)
    rw [h0 k, h1 k, h2, h3 k]
  have hm : Cert.Spec.rowMean (Cert.Spec.conv x0 x1 x2 x3) r = Cert.Spec.rowMean (Cert.Spec.conv A0 A1 A2 A3) R := by
    unfold Cert.Spec.rowMean
    exact congrArg (fun s => Ideal.div s Cert.Spec.width64) (Finset.sum_congr rfl fun k _ => hc k)
  have hv : Cert.Spec.rowVar (Cert.Spec.conv x0 x1 x2 x3) r = Cert.Spec.rowVar (Cert.Spec.conv A0 A1 A2 A3) R := by
    unfold Cert.Spec.rowVar
    rw [hm]
    exact congrArg (fun s => Ideal.div s Cert.Spec.width64) (Finset.sum_congr rfl fun k _ => by rw [hc k])
  show max ((Cert.Spec.conv x0 x1 x2 x3 (ix2 r j') - Cert.Spec.rowMean (Cert.Spec.conv x0 x1 x2 x3) r)
        * Ideal.rsqrt (Cert.Spec.rowVar (Cert.Spec.conv x0 x1 x2 x3) r + Cert.Spec.eps) * x4 (ix2 (0 : Fin 1) j') + x5 (ix2 (0 : Fin 1) j'))
      Cert.Spec.zero32
    = max ((Cert.Spec.conv A0 A1 A2 A3 (ix2 R j') - Cert.Spec.rowMean (Cert.Spec.conv A0 A1 A2 A3) R)
        * Ideal.rsqrt (Cert.Spec.rowVar (Cert.Spec.conv A0 A1 A2 A3) R + Cert.Spec.eps) * A4 (ix2 (0 : Fin 1) j') + A5 (ix2 (0 : Fin 1) j'))
      Cert.Spec.zero32
  rw [hc j', hm, hv, h4 j', h5 j']

/-! ## From the blocks to the array

The grid has 50 points; point t's blocks of the messages, the features, the coefficients and the output are rows
2000·t … 2000·t + 1999 of their arrays (block index (t, 0)), and its blocks of the bias, the scale and the shift
are those one-row arrays whole (block index (0, 0)). So what point t writes back is rows 2000·t … of the
specification of the whole arrays, and the 50 blocks tile the 100000 rows. -/

variable (V : (c : Dev nD) → (b : Ref sig .tc) → Buf (Elt Ideal) ((c : Thread nD τ).loc b))

/-- The six arrays the region finds, each at its literal shape: the aggregated messages, the projected features,
    the self coefficients, the bias, the scale and the shift. -/
private abbrev arrAgg (c : Dev nD) : Cert.Spec.Mat 100000 64 := V c (Pipeline.arrRef spec1 0)
private abbrev arrLin (c : Dev nD) : Cert.Spec.Mat 100000 64 := V c (Pipeline.arrRef spec1 1)
private abbrev arrCoef (c : Dev nD) : Cert.Spec.Mat 100000 1 := V c (Pipeline.arrRef spec1 2)
private abbrev arrBias (c : Dev nD) : Cert.Spec.Mat 1 64 := V c (Pipeline.arrRef spec1 3)
private abbrev arrScale (c : Dev nD) : Cert.Spec.Mat 1 64 := V c (Pipeline.arrRef spec1 4)
private abbrev arrShift (c : Dev nD) : Cert.Spec.Mat 1 64 := V c (Pipeline.arrRef spec1 5)

/-- Their blocks at point `t`, each at its literal shape. -/
private abbrev blkAgg (c : Dev nD) (t : Fin cfg1.N) : Cert.Spec.Mat 2000 64 := iblk1 V c 0 t
private abbrev blkLin (c : Dev nD) (t : Fin cfg1.N) : Cert.Spec.Mat 2000 64 := iblk1 V c 1 t
private abbrev blkCoef (c : Dev nD) (t : Fin cfg1.N) : Cert.Spec.Mat 2000 1 := iblk1 V c 2 t
private abbrev blkBias (c : Dev nD) (t : Fin cfg1.N) : Cert.Spec.Mat 1 64 := iblk1 V c 3 t
private abbrev blkScale (c : Dev nD) (t : Fin cfg1.N) : Cert.Spec.Mat 1 64 := iblk1 V c 4 t
private abbrev blkShift (c : Dev nD) (t : Fin cfg1.N) : Cert.Spec.Mat 1 64 := iblk1 V c 5 t

/-- The index of the output array that index `y` of point `t`'s output block is. -/
private abbrev atPoint (t : Fin cfg1.N) (y : (⟨2, ![2000, 64]⟩ : Shape).Idx) : (⟨2, ![100000, 64]⟩ : Shape).Idx :=
  ((cfg1.win 6).blk t).view.emb y

/-- The offsets of a whole-buffer access are zero on both axes. -/
private theorem offZero : (![0, 0] : Fin 2 → Nat) = fun _ => 0 := funext fun a => by fin_cases a <;> rfl

/-- The windows' index maps over the grid: the three row-tiled inputs move with the output, whose block index is
    (t, 0); the three parameter rows stay at block (0, 0). -/
private theorem blockIndex : ∀ t : Fin cfg1.N,
      win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 :=
  (by decide +kernel : ∀ t : Fin grid1.N, _)

/-- Every one of the 50 row tiles is some point's output block. -/
private theorem tileOnto : ∀ q : Fin 50, ∃ t : Fin cfg1.N, win1_6.index t = ![q.val, 0] :=
  (by decide +kernel : ∀ q : Fin 50, ∃ t : Fin grid1.N, win1_6.index t = ![q.val, 0])

/-- The output's block keeps the lane: its block index on the lane axis is 0. -/
private theorem atPoint_lane (t : Fin cfg1.N) (y : (⟨2, ![2000, 64]⟩ : Shape).Idx) : atPoint t y 1 = y 1 := by
  obtain ⟨e00, e01, e10, e11, e20, e21, e30, e31, e40, e41, e50, e51, e61⟩ := blockIndex t
  apply Fin.ext
  show win1_6.index t (1 : Fin 2) * 64 + 1 * (y 1).val = (y 1).val
  omega

/-- Row `y 0` of the messages' block at point `t` is the array's row that the output block's row `y 0` is. -/
private theorem blkAgg_row (c : Dev nD) (t : Fin cfg1.N) (y : (⟨2, ![2000, 64]⟩ : Shape).Idx) (k : Fin 64) :
    blkAgg V c t (ix2 (y 0) k) = arrAgg V c (ix2 (atPoint t y 0) k) := by
  obtain ⟨e00, e01, e10, e11, e20, e21, e30, e31, e40, e41, e50, e51, e61⟩ := blockIndex t
  show V c (Pipeline.arrRef spec1 0) (((cfg1.win 0).blk t).view.emb (ix2 (y 0) k)) = _
  refine congrArg (V c (Pipeline.arrRef spec1 0)) (funext fun a => Fin.ext ?_)
  match a with
  | ⟨0, _⟩ => show win1_0.index t (0 : Fin 2) * 2000 + 1 * (y 0).val = win1_6.index t (0 : Fin 2) * 2000 + 1 * (y 0).val; omega
  | ⟨1, _⟩ => show win1_0.index t (1 : Fin 2) * 64 + 1 * k.val = k.val; omega

/-- The features' block, likewise. -/
private theorem blkLin_row (c : Dev nD) (t : Fin cfg1.N) (y : (⟨2, ![2000, 64]⟩ : Shape).Idx) (k : Fin 64) :
    blkLin V c t (ix2 (y 0) k) = arrLin V c (ix2 (atPoint t y 0) k) := by
  obtain ⟨e00, e01, e10, e11, e20, e21, e30, e31, e40, e41, e50, e51, e61⟩ := blockIndex t
  show V c (Pipeline.arrRef spec1 1) (((cfg1.win 1).blk t).view.emb (ix2 (y 0) k)) = _
  refine congrArg (V c (Pipeline.arrRef spec1 1)) (funext fun a => Fin.ext ?_)
  match a with
  | ⟨0, _⟩ => show win1_1.index t (0 : Fin 2) * 2000 + 1 * (y 0).val = win1_6.index t (0 : Fin 2) * 2000 + 1 * (y 0).val; omega
  | ⟨1, _⟩ => show win1_1.index t (1 : Fin 2) * 64 + 1 * k.val = k.val; omega

/-- The coefficients' block is a column of 2000: its entry `y 0` is the array's entry at that row. -/
private theorem blkCoef_row (c : Dev nD) (t : Fin cfg1.N) (y : (⟨2, ![2000, 64]⟩ : Shape).Idx) :
    blkCoef V c t (ix2 (y 0) (0 : Fin 1)) = arrCoef V c (ix2 (atPoint t y 0) (0 : Fin 1)) := by
  obtain ⟨e00, e01, e10, e11, e20, e21, e30, e31, e40, e41, e50, e51, e61⟩ := blockIndex t
  show V c (Pipeline.arrRef spec1 2) (((cfg1.win 2).blk t).view.emb (ix2 (y 0) (0 : Fin 1))) = _
  refine congrArg (V c (Pipeline.arrRef spec1 2)) (funext fun a => Fin.ext ?_)
  match a with
  | ⟨0, _⟩ => show win1_2.index t (0 : Fin 2) * 2000 + 1 * (y 0).val = win1_6.index t (0 : Fin 2) * 2000 + 1 * (y 0).val; omega
  | ⟨1, _⟩ => show win1_2.index t (1 : Fin 2) * 1 + 1 * 0 = 0; omega

/-- The bias' block is the whole one-row array, at every point. -/
private theorem blkBias_row (c : Dev nD) (t : Fin cfg1.N) (k : Fin 64) :
    blkBias V c t (ix2 (0 : Fin 1) k) = arrBias V c (ix2 (0 : Fin 1) k) := by
  obtain ⟨e00, e01, e10, e11, e20, e21, e30, e31, e40, e41, e50, e51, e61⟩ := blockIndex t
  show V c (Pipeline.arrRef spec1 3) (((cfg1.win 3).blk t).view.emb (ix2 (0 : Fin 1) k)) = _
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- So is the scale's. -/
private theorem blkScale_row (c : Dev nD) (t : Fin cfg1.N) (k : Fin 64) :
    blkScale V c t (ix2 (0 : Fin 1) k) = arrScale V c (ix2 (0 : Fin 1) k) := by
  obtain ⟨e00, e01, e10, e11, e20, e21, e30, e31, e40, e41, e50, e51, e61⟩ := blockIndex t
  show V c (Pipeline.arrRef spec1 4) (((cfg1.win 4).blk t).view.emb (ix2 (0 : Fin 1) k)) = _
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 64 + 1 * k.val = k.val; omega

/-- And the shift's. -/
private theorem blkShift_row (c : Dev nD) (t : Fin cfg1.N) (k : Fin 64) :
    blkShift V c t (ix2 (0 : Fin 1) k) = arrShift V c (ix2 (0 : Fin 1) k) := by
  obtain ⟨e00, e01, e10, e11, e20, e21, e30, e31, e40, e41, e50, e51, e61⟩ := blockIndex t
  show V c (Pipeline.arrRef spec1 5) (((cfg1.win 5).blk t).view.emb (ix2 (0 : Fin 1) k)) = _
  refine congrArg (V c (Pipeline.arrRef spec1 5)) (funext fun a => Fin.ext ?_)
  match a with
  | ⟨0, _⟩ => show win1_5.index t (0 : Fin 2) * 1 + 1 * 0 = 0; omega
  | ⟨1, _⟩ => show win1_5.index t (1 : Fin 2) * 64 + 1 * k.val = k.val; omega

/-- The specification on point `t`'s blocks, at `y`, is the specification on the arrays at the index `y` is there. -/
private theorem blocks_eq (c : Dev nD) (t : Fin cfg1.N) (y : (⟨2, ![2000, 64]⟩ : Shape).Idx) :
    Cert.Spec.lnRelu (Cert.Spec.conv (blkAgg V c t) (blkLin V c t) (blkCoef V c t) (blkBias V c t)) (blkScale V c t) (blkShift V c t) y
      = Cert.Spec.lnRelu (Cert.Spec.conv (arrAgg V c) (arrLin V c) (arrCoef V c) (arrBias V c)) (arrScale V c) (arrShift V c) (atPoint t y) :=
  lnRelu_row (arrAgg V c) (arrLin V c) (arrCoef V c) (arrBias V c) (arrScale V c) (arrShift V c)
    (blkAgg V c t) (blkLin V c t) (blkCoef V c t) (blkBias V c t) (blkScale V c t) (blkShift V c t) y (atPoint t y)
    (atPoint_lane t y) (blkAgg_row V c t y) (blkLin_row V c t y) (blkCoef_row V c t y) (blkBias_row V c t) (blkScale_row V c t) (blkShift_row V c t)

/-- WHAT POINT `t` WRITES BACK is its block of the specification of the six arrays the region finds: the body's
    one store is its payload of the six loaded blocks, the payload is the specification on the blocks, and that is
    the specification on the arrays read through the output's block. -/
private theorem written (c : Dev nD) (t : Fin cfg1.N) :
    (dat1 (F := Ideal) V c).flushed 6 t = ((cfg1.win 6).blk t).view.read (Elt Ideal)
      (Cert.Spec.lnRelu (Cert.Spec.conv (V c (Pipeline.arrRef spec1 0)) (V c (Pipeline.arrRef spec1 1)) (V c (Pipeline.arrRef spec1 2)) (V c (Pipeline.arrRef spec1 3))) (V c (Pipeline.arrRef spec1 4)) (V c (Pipeline.arrRef spec1 5))) := by
  show (cfg1.win 6).cut (grid1.coords t) ((dat1 (F := Ideal) V c).after 6 t) = _
  rw [after1_6]
  unfold out1_6
  rw [View.canon_unit_zero offZero]
  simp only [View.ld_unit_zero (S := S2000x64) offZero, View.ld_unit_zero (S := S2000x1) offZero, View.ld_unit_zero (S := S1x64) offZero]
  rw [pay_eq]
  funext y
  exact blocks_eq V c t y

/-- An index of the output array is in point `t`'s block iff each coordinate is in the block's range on its axis. -/
private theorem mem_tile (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v55).slice (win1_6.rect t)).set ↔ _
  rw [View.set_slice_whole, Rect.mem_set_unit]
  exact Iff.rfl

/-- The 50 blocks of 2000 rows tile the 100000 rows: row R is in the block of the point whose tile is R / 2000. -/
private theorem tiled (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := tileOnto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_tile]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- The array the region leaves is the normalised convolution output of the six arrays it finds. -/
theorem norm1 (c : Dev nD) :
    (dat1 (F := Ideal) V c).arrAt 6 cfg1.N
      = Cert.Spec.lnRelu (Cert.Spec.conv (V c (Pipeline.arrRef spec1 0)) (V c (Pipeline.arrRef spec1 1)) (V c (Pipeline.arrRef spec1 2)) (V c (Pipeline.arrRef spec1 3))) (V c (Pipeline.arrRef spec1 4)) (V c (Pipeline.arrRef spec1 5)) :=
  (dat1 (F := Ideal) V c).arrAt_eq_of_cover 6 _ (fun t _ => written V c t) tiled

end Cert.KernelIdeal.RegionValue

end
-- ==== Proof.RegNorm3.lean ====
/-
  Region 3, the second convolution's output normalised: aggregated messages + own features · self coefficient + bias,
  then layer normalisation of each row and the positive part.

  The region's grid has 50 points over tiles of 2000 rows. At each point the body computes, of its six blocks, the
  specification's function of them (first part); a row of that function uses only that row of the blocks (second
  part); and the blocks are rows 2000·t … 2000·t + 1999 of the arrays, the 50 tiles covering all 100000 rows (third
  part). So the array the region leaves is the specification's function of the six arrays it finds.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

/-! ## The body's arithmetic on one block of 2000 rows

The body reads six vectors: two blocks of 2000 rows by 64 lanes (the aggregated messages and the node's own
projected features), a column of 2000 self coefficients, and three rows of 64 lanes (bias, scale, shift). Every
operation is pointwise except four re-indexings (a column spread over the lanes, a row repeated over the rows, a
vector of row sums viewed as a column) and the two sums over the 64 lanes of a row. -/

/-- A column of 2000 entries spread over 64 lanes reads, at (r, j), the column's entry r. -/
private theorem spreadCol (v : S2000x1.Idx → EReal) (h : S2000x1.Broadcasts S2000x64) (r : Fin 2000) (j : Fin 64) :
    broadcastTo S2000x64 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A row of 64 lanes repeated over 2000 rows reads, at (r, j), the row's entry j. -/
private theorem spreadRow (v : S1x64.Idx → EReal) (h : S1x64.Broadcasts S2000x64) (r : Fin 2000) (j : Fin 64) :
    broadcastTo S2000x64 v h (ix2 r j) = v (ix2 (0 : Fin 1) j) :=
  broadcastTo_1b_ab_apply v h r j

/-- A vector of 2000 entries viewed as a column reads, at (r, 0), the vector's entry r: both have row-major
    position r. -/
private theorem asCol (v : S2000.Idx → EReal) (h : S2000.ShapeCasts S2000x1) (r : Fin 2000) (u : Fin 1) :
    shapeCast S2000x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum over the lanes, read at row r, is the sum over k of the entries (r, k): the index of the block over
    row r with lane k inserted is (r, k). -/
private theorem laneSum (v : FVec Ideal S2000x64 .f32) (h : S2000x64.Reduces [1] S2000) (hφ : FKind.Formats .f32)
    (hacc : (0x00000000#32 : BitVec 32) = FKind.add.neutral .f32 hφ) (r : Fin 2000) :
    multiReduction (F := Ideal) .add [1] S2000 v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext c
  apply Fin.ext
  match c with
  | ⟨0, _⟩ => rfl
  | ⟨1, _⟩ => rfl

/-- The convolution of a block as the body forms it: messages + own features · coefficient column + bias row. -/
private def convBlk (x0 x1 : Vec Ideal S2000x64 .f32) (x2 : Vec Ideal S2000x1 .f32) (x3 : Vec Ideal S1x64 .f32) :
    FVec Ideal S2000x64 .f32 :=
  addf (addf (shapeCast S2000x64 x0 shapeCasts_S2000x64_S2000x64)
      (mulf (shapeCast S2000x64 x1 shapeCasts_S2000x64_S2000x64)
        (broadcastTo S2000x64 (shapeCast S2000x1 x2 shapeCasts_S2000x1_S2000x1) broadcasts_S2000x1_S2000x64)))
    (broadcastTo S2000x64 (shapeCast S1x64 x3 shapeCasts_S1x64_S1x64) broadcasts_S1x64_S2000x64)

/-- The lane sum of every row divided by 64, as a column: what the body forms twice, of the rows and of their
    squared deviations. -/
private def meanCol (v : FVec Ideal S2000x64 .f32) : FVec Ideal S2000x1 .f32 :=
  divf (shapeCast S2000x1 (multiReduction (F := Ideal) .add [1] S2000 v 0x00000000#32 reduces_S2000x64_S2000 (.inl rfl) rfl)
      shapeCasts_S2000_S2000x1)
    (broadcast S2000x1 (Scalar.ofBits (F := Ideal) .f32 0x42800000#32))

/-- The block's convolution is the specification's, entry by entry: the three same-shape casts are the identity,
    the coefficient column is read at (r, 0) and the bias row at (0, j). -/
private theorem convBlk_eq (x0 x1 : Vec Ideal S2000x64 .f32) (x2 : Vec Ideal S2000x1 .f32) (x3 : Vec Ideal S1x64 .f32) :
    convBlk x0 x1 x2 x3 = Cert.Spec.conv x0 x1 x2 x3 := by
  unfold convBlk
  rw [shapeCast_self, shapeCast_self, shapeCast_self, shapeCast_self]
  funext i
  obtain ⟨r, j, rfl⟩ : ∃ (r : Fin 2000) (j : Fin 64), i = ix2 r j := ⟨i 0, i 1, eq_ix2 i⟩
  show x0 (ix2 r j) + x1 (ix2 r j) * broadcastTo S2000x64 x2 broadcasts_S2000x1_S2000x64 (ix2 r j)
      + broadcastTo S2000x64 x3 broadcasts_S1x64_S2000x64 (ix2 r j)
    = x0 (ix2 r j) + x1 (ix2 r j) * x2 (ix2 r (0 : Fin 1)) + x3 (ix2 (0 : Fin 1) j)
  rw [spreadCol, spreadRow]

/-- The mean column at row r is the row's lane sum divided by 64. -/
private theorem meanCol_apply (v : FVec Ideal S2000x64 .f32) (r : Fin 2000) (u : Fin 1) :
    meanCol v (ix2 r u) = Ideal.div (∑ k : Fin 64, v (ix2 r k)) Cert.Spec.width64 := by
  unfold meanCol
  show Ideal.div (shapeCast S2000x1 (multiReduction (F := Ideal) .add [1] S2000 v 0x00000000#32 reduces_S2000x64_S2000 (.inl rfl) rfl)
      shapeCasts_S2000_S2000x1 (ix2 r u)) (Ideal.ofBits .f32 0x42800000#32) = _
  exact congrArg (fun s => Ideal.div s Cert.Spec.width64) ((asCol _ _ r u).trans (laneSum v _ _ _ r))

/-- The deviations of a block from its rows' means. -/
private def devBlk (X : FVec Ideal S2000x64 .f32) : FVec Ideal S2000x64 .f32 :=
  subf X (broadcastTo S2000x64 (meanCol X) broadcasts_S2000x1_S2000x64)

/-- Entry (r, k) of the deviations is the entry less the mean of row r. -/
private theorem devBlk_apply (X : FVec Ideal S2000x64 .f32) (r : Fin 2000) (k : Fin 64) :
    devBlk X (ix2 r k) = X (ix2 r k) - Cert.Spec.rowMean X r := by
  show X (ix2 r k) - broadcastTo S2000x64 (meanCol X) broadcasts_S2000x1_S2000x64 (ix2 r k) = _
  rw [spreadCol, meanCol_apply]
  rfl

/-- Layer normalisation and the positive part as the body forms them of a block `X`, a scale row and a shift row. -/
private def normBlk (X : FVec Ideal S2000x64 .f32) (g b : Vec Ideal S1x64 .f32) : FVec Ideal S2000x64 .f32 :=
  maximumf (addf (mulf (mulf (devBlk X)
          (broadcastTo S2000x64
            (rsqrt (addf (meanCol (mulf (devBlk X) (devBlk X))) (broadcast S2000x1 (Scalar.ofBits (F := Ideal) .f32 0x3727C5AC#32))))
            broadcasts_S2000x1_S2000x64))
        (broadcastTo S2000x64 (shapeCast S1x64 g shapeCasts_S1x64_S1x64) broadcasts_S1x64_S2000x64))
      (broadcastTo S2000x64 (shapeCast S1x64 b shapeCasts_S1x64_S1x64) broadcasts_S1x64_S2000x64))
    (broadcast S2000x64 (Scalar.ofBits (F := Ideal) .f32 0x00000000#32))

/-- It is the specification's: the mean column of the squared deviations at row r is the row's variance, the
    column under the reciprocal square root is read at (r, 0), the scale and shift rows at (0, j). -/
private theorem normBlk_eq (X : FVec Ideal S2000x64 .f32) (g b : Vec Ideal S1x64 .f32) :
    normBlk X g b = Cert.Spec.lnRelu X g b := by
  unfold normBlk
  rw [shapeCast_self, shapeCast_self]
  funext i
  obtain ⟨r, j, rfl⟩ : ∃ (r : Fin 2000) (j : Fin 64), i = ix2 r j := ⟨i 0, i 1, eq_ix2 i⟩
  have hvar : meanCol (mulf (devBlk X) (devBlk X)) (ix2 r (0 : Fin 1)) = Cert.Spec.rowVar X r := by
    refine (meanCol_apply _ r 0).trans ?_
    unfold Cert.Spec.rowVar
    refine congrArg (fun s => Ideal.div s Cert.Spec.width64) (Finset.sum_congr rfl fun k _ => ?_)
    show devBlk X (ix2 r k) * devBlk X (ix2 r k) = _
    rw [devBlk_apply]
  show max (devBlk X (ix2 r j)
        * broadcastTo S2000x64
            (rsqrt (addf (meanCol (mulf (devBlk X) (devBlk X))) (broadcast S2000x1 (Scalar.ofBits (F := Ideal) .f32 0x3727C5AC#32))))
            broadcasts_S2000x1_S2000x64 (ix2 r j)
        * broadcastTo S2000x64 g broadcasts_S1x64_S2000x64 (ix2 r j)
        + broadcastTo S2000x64 b broadcasts_S1x64_S2000x64 (ix2 r j)) (Ideal.ofBits .f32 0x00000000#32) = _
  rw [spreadCol, spreadRow, spreadRow, devBlk_apply]
  show max ((X (ix2 r j) - Cert.Spec.rowMean X r)
        * Ideal.rsqrt (meanCol (mulf (devBlk X) (devBlk X)) (ix2 r (0 : Fin 1)) + Ideal.ofBits .f32 0x3727C5AC#32)
        * g (ix2 (0 : Fin 1) j) + b (ix2 (0 : Fin 1) j)) (Ideal.ofBits .f32 0x00000000#32) = _
  rw [hvar]
  rfl

/-- THE BODY ON A BLOCK is the specification on the block: its 43 operations are the convolution, then the
    normalisation of its rows and the positive part. -/
private theorem pay_eq (x0 x1 : Vec Ideal S2000x64 .f32) (x2 : Vec Ideal S2000x1 .f32) (x3 x4 x5 : Vec Ideal S1x64 .f32) :
    k3_pay1 (F := Ideal) x0 x1 x2 x3 x4 x5 = Cert.Spec.lnRelu (Cert.Spec.conv x0 x1 x2 x3) x4 x5 := by
  have shape : k3_pay1 (F := Ideal) x0 x1 x2 x3 x4 x5 = normBlk (convBlk x0 x1 x2 x3) x4 x5 := rfl
  rw [shape, normBlk_eq, convBlk_eq]

/-! ## From a block's rows to the array's rows

The normalisation of a row uses that row only (its 64 entries, its coefficient) and the three parameter rows; so
the specification on a block, at row r, is the specification on the whole arrays at the array's row that the block's
row r is, provided the block's row is the array's row entry by entry. -/

/-- If row `y 0` of the three blocks is row `i 0` of the three arrays, the parameter rows agree, and the lane
    is the same, then the specification on the blocks at `y` is the specification on the arrays at `i`. -/
private theorem lnRelu_row (A0 A1 : Cert.Spec.Mat 100000 64) (A2 : Cert.Spec.Mat 100000 1) (A3 A4 A5 : Cert.Spec.Mat 1 64)
    (x0 x1 : Cert.Spec.Mat 2000 64) (x2 : Cert.Spec.Mat 2000 1) (x3 x4 x5 : Cert.Spec.Mat 1 64)
    (y : (⟨2, ![2000, 64]⟩ : Shape).Idx) (i : (⟨2, ![100000, 64]⟩ : Shape).Idx) (hj : i 1 = y 1)
    (h0 : ∀ k : Fin 64, x0 (ix2 (y 0) k) = A0 (ix2 (i 0) k))
    (h1 : ∀ k : Fin 64, x1 (ix2 (y 0) k) = A1 (ix2 (i 0) k))
    (h2 : x2 (ix2 (y 0) (0 : Fin 1)) = A2 (ix2 (i 0) (0 : Fin 1)))
    (h3 : ∀ k : Fin 64, x3 (ix2 (0 : Fin 1) k) = A3 (ix2 (0 : Fin 1) k))
    (h4 : ∀ k : Fin 64, x4 (ix2 (0 : Fin 1) k) = A4 (ix2 (0 : Fin 1) k))
    (h5 : ∀ k : Fin 64, x5 (ix2 (0 : Fin 1) k) = A5 (ix2 (0 : Fin 1) k)) :
    Cert.Spec.lnRelu (Cert.Spec.conv x0 x1 x2 x3) x4 x5 y = Cert.Spec.lnRelu (Cert.Spec.conv A0 A1 A2 A3) A4 A5 i := by
  obtain ⟨r, j, rfl⟩ : ∃ (r : Fin 2000) (j : Fin 64), y = ix2 r j := ⟨y 0, y 1, eq_ix2 y⟩
  obtain ⟨R, j', rfl⟩ : ∃ (R : Fin 100000) (j' : Fin 64), i = ix2 R j' := ⟨i 0, i 1, eq_ix2 i⟩
  have hj' : j' = j := hj
  subst hj'
  have hc : ∀ k : Fin 64, Cert.Spec.conv x0 x1 x2 x3 (ix2 r k) = Cert.Spec.conv A0 A1 A2 A3 (ix2 R k) := fun k => by
    show x0 (ix2 r k) + x1 (ix2 r k) * x2 (ix2 r (0 : Fin 1)) + x3 (ix2 (0 : Fin 1) k)
      = A0 (ix2 R k) + A1 (ix2 R k) * A2 (ix2 R (0 : Fin 1)) + A3 (ix2 (0 : Fin 1) k)
    rw [h0 k, h1 k, h2, h3 k]
  have hm : Cert.Spec.rowMean (Cert.Spec.conv x0 x1 x2 x3) r = Cert.Spec.rowMean (Cert.Spec.conv A0 A1 A2 A3) R := by
    unfold Cert.Spec.rowMean
    exact congrArg (fun s => Ideal.div s Cert.Spec.width64) (Finset.sum_congr rfl fun k _ => hc k)
  have hv : Cert.Spec.rowVar (Cert.Spec.conv x0 x1 x2 x3) r = Cert.Spec.rowVar (Cert.Spec.conv A0 A1 A2 A3) R := by
    unfold Cert.Spec.rowVar
    rw [hm]
    exact congrArg (fun s => Ideal.div s Cert.Spec.width64) (Finset.sum_congr rfl fun k _ => by rw [hc k])
  show max ((Cert.Spec.conv x0 x1 x2 x3 (ix2 r j') - Cert.Spec.rowMean (Cert.Spec.conv x0 x1 x2 x3) r)
        * Ideal.rsqrt (Cert.Spec.rowVar (Cert.Spec.conv x0 x1 x2 x3) r + Cert.Spec.eps) * x4 (ix2 (0 : Fin 1) j') + x5 (ix2 (0 : Fin 1) j'))
      Cert.Spec.zero32
    = max ((Cert.Spec.conv A0 A1 A2 A3 (ix2 R j') - Cert.Spec.rowMean (Cert.Spec.conv A0 A1 A2 A3) R)
        * Ideal.rsqrt (Cert.Spec.rowVar (Cert.Spec.conv A0 A1 A2 A3) R + Cert.Spec.eps) * A4 (ix2 (0 : Fin 1) j') + A5 (ix2 (0 : Fin 1) j'))
      Cert.Spec.zero32
  rw [hc j', hm, hv, h4 j', h5 j']

/-! ## From the blocks to the array

The grid has 50 points; point t's blocks of the messages, the features, the coefficients and the output are rows
2000·t … 2000·t + 1999 of their arrays (block index (t, 0)), and its blocks of the bias, the scale and the shift
are those one-row arrays whole (block index (0, 0)). So what point t writes back is rows 2000·t … of the
specification of the whole arrays, and the 50 blocks tile the 100000 rows. -/

variable (V : (c : Dev nD) → (b : Ref sig .tc) → Buf (Elt Ideal) ((c : Thread nD τ).loc b))

/-- The six arrays the region finds, each at its literal shape: the aggregated messages, the projected features,
    the self coefficients, the bias, the scale and the shift. -/
private abbrev arrAgg (c : Dev nD) : Cert.Spec.Mat 100000 64 := V c (Pipeline.arrRef spec3 0)
private abbrev arrLin (c : Dev nD) : Cert.Spec.Mat 100000 64 := V c (Pipeline.arrRef spec3 1)
private abbrev arrCoef (c : Dev nD) : Cert.Spec.Mat 100000 1 := V c (Pipeline.arrRef spec3 2)
private abbrev arrBias (c : Dev nD) : Cert.Spec.Mat 1 64 := V c (Pipeline.arrRef spec3 3)
private abbrev arrScale (c : Dev nD) : Cert.Spec.Mat 1 64 := V c (Pipeline.arrRef spec3 4)
private abbrev arrShift (c : Dev nD) : Cert.Spec.Mat 1 64 := V c (Pipeline.arrRef spec3 5)

/-- Their blocks at point `t`, each at its literal shape. -/
private abbrev blkAgg (c : Dev nD) (t : Fin cfg3.N) : Cert.Spec.Mat 2000 64 := iblk3 V c 0 t
private abbrev blkLin (c : Dev nD) (t : Fin cfg3.N) : Cert.Spec.Mat 2000 64 := iblk3 V c 1 t
private abbrev blkCoef (c : Dev nD) (t : Fin cfg3.N) : Cert.Spec.Mat 2000 1 := iblk3 V c 2 t
private abbrev blkBias (c : Dev nD) (t : Fin cfg3.N) : Cert.Spec.Mat 1 64 := iblk3 V c 3 t
private abbrev blkScale (c : Dev nD) (t : Fin cfg3.N) : Cert.Spec.Mat 1 64 := iblk3 V c 4 t
private abbrev blkShift (c : Dev nD) (t : Fin cfg3.N) : Cert.Spec.Mat 1 64 := iblk3 V c 5 t

/-- The index of the output array that index `y` of point `t`'s output block is. -/
private abbrev atPoint (t : Fin cfg3.N) (y : (⟨2, ![2000, 64]⟩ : Shape).Idx) : (⟨2, ![100000, 64]⟩ : Shape).Idx :=
  ((cfg3.win 6).blk t).view.emb y

/-- The offsets of a whole-buffer access are zero on both axes. -/
private theorem offZero : (![0, 0] : Fin 2 → Nat) = fun _ => 0 := funext fun a => by fin_cases a <;> rfl

/-- The windows' index maps over the grid: the three row-tiled inputs move with the output, whose block index is
    (t, 0); the three parameter rows stay at block (0, 0). -/
private theorem blockIndex : ∀ t : Fin cfg3.N,
      win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 :=
  (by decide +kernel : ∀ t : Fin grid3.N, _)

/-- Every one of the 50 row tiles is some point's output block. -/
private theorem tileOnto : ∀ q : Fin 50, ∃ t : Fin cfg3.N, win3_6.index t = ![q.val, 0] :=
  (by decide +kernel : ∀ q : Fin 50, ∃ t : Fin grid3.N, win3_6.index t = ![q.val, 0])

/-- The output's block keeps the lane: its block index on the lane axis is 0. -/
private theorem atPoint_lane (t : Fin cfg3.N) (y : (⟨2, ![2000, 64]⟩ : Shape).Idx) : atPoint t y 1 = y 1 := by
  obtain ⟨e00, e01, e10, e11, e20, e21, e30, e31, e40, e41, e50, e51, e61⟩ := blockIndex t
  apply Fin.ext
  show win3_6.index t (1 : Fin 2) * 64 + 1 * (y 1).val = (y 1).val
  omega

/-- Row `y 0` of the messages' block at point `t` is the array's row that the output block's row `y 0` is. -/
private theorem blkAgg_row (c : Dev nD) (t : Fin cfg3.N) (y : (⟨2, ![2000, 64]⟩ : Shape).Idx) (k : Fin 64) :
    blkAgg V c t (ix2 (y 0) k) = arrAgg V c (ix2 (atPoint t y 0) k) := by
  obtain ⟨e00, e01, e10, e11, e20, e21, e30, e31, e40, e41, e50, e51, e61⟩ := blockIndex t
  show V c (Pipeline.arrRef spec3 0) (((cfg3.win 0).blk t).view.emb (ix2 (y 0) k)) = _
  refine congrArg (V c (Pipeline.arrRef spec3 0)) (funext fun a => Fin.ext ?_)
  match a with
  | ⟨0, _⟩ => show win3_0.index t (0 : Fin 2) * 2000 + 1 * (y 0).val = win3_6.index t (0 : Fin 2) * 2000 + 1 * (y 0).val; omega
  | ⟨1, _⟩ => show win3_0.index t (1 : Fin 2) * 64 + 1 * k.val = k.val; omega

/-- The features' block, likewise. -/
private theorem blkLin_row (c : Dev nD) (t : Fin cfg3.N) (y : (⟨2, ![2000, 64]⟩ : Shape).Idx) (k : Fin 64) :
    blkLin V c t (ix2 (y 0) k) = arrLin V c (ix2 (atPoint t y 0) k) := by
  obtain ⟨e00, e01, e10, e11, e20, e21, e30, e31, e40, e41, e50, e51, e61⟩ := blockIndex t
  show V c (Pipeline.arrRef spec3 1) (((cfg3.win 1).blk t).view.emb (ix2 (y 0) k)) = _
  refine congrArg (V c (Pipeline.arrRef spec3 1)) (funext fun a => Fin.ext ?_)
  match a with
  | ⟨0, _⟩ => show win3_1.index t (0 : Fin 2) * 2000 + 1 * (y 0).val = win3_6.index t (0 : Fin 2) * 2000 + 1 * (y 0).val; omega
  | ⟨1, _⟩ => show win3_1.index t (1 : Fin 2) * 64 + 1 * k.val = k.val; omega

/-- The coefficients' block is a column of 2000: its entry `y 0` is the array's entry at that row. -/
private theorem blkCoef_row (c : Dev nD) (t : Fin cfg3.N) (y : (⟨2, ![2000, 64]⟩ : Shape).Idx) :
    blkCoef V c t (ix2 (y 0) (0 : Fin 1)) = arrCoef V c (ix2 (atPoint t y 0) (0 : Fin 1)) := by
  obtain ⟨e00, e01, e10, e11, e20, e21, e30, e31, e40, e41, e50, e51, e61⟩ := blockIndex t
  show V c (Pipeline.arrRef spec3 2) (((cfg3.win 2).blk t).view.emb (ix2 (y 0) (0 : Fin 1))) = _
  refine congrArg (V c (Pipeline.arrRef spec3 2)) (funext fun a => Fin.ext ?_)
  match a with
  | ⟨0, _⟩ => show win3_2.index t (0 : Fin 2) * 2000 + 1 * (y 0).val = win3_6.index t (0 : Fin 2) * 2000 + 1 * (y 0).val; omega
  | ⟨1, _⟩ => show win3_2.index t (1 : Fin 2) * 1 + 1 * 0 = 0; omega

/-- The bias' block is the whole one-row array, at every point. -/
private theorem blkBias_row (c : Dev nD) (t : Fin cfg3.N) (k : Fin 64) :
    blkBias V c t (ix2 (0 : Fin 1) k) = arrBias V c (ix2 (0 : Fin 1) k) := by
  obtain ⟨e00, e01, e10, e11, e20, e21, e30, e31, e40, e41, e50, e51, e61⟩ := blockIndex t
  show V c (Pipeline.arrRef spec3 3) (((cfg3.win 3).blk t).view.emb (ix2 (0 : Fin 1) k)) = _
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 64 + 1 * k.val = k.val; omega

/-- So is the scale's. -/
private theorem blkScale_row (c : Dev nD) (t : Fin cfg3.N) (k : Fin 64) :
    blkScale V c t (ix2 (0 : Fin 1) k) = arrScale V c (ix2 (0 : Fin 1) k) := by
  obtain ⟨e00, e01, e10, e11, e20, e21, e30, e31, e40, e41, e50, e51, e61⟩ := blockIndex t
  show V c (Pipeline.arrRef spec3 4) (((cfg3.win 4).blk t).view.emb (ix2 (0 : Fin 1) k)) = _
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 64 + 1 * k.val = k.val; omega

/-- And the shift's. -/
private theorem blkShift_row (c : Dev nD) (t : Fin cfg3.N) (k : Fin 64) :
    blkShift V c t (ix2 (0 : Fin 1) k) = arrShift V c (ix2 (0 : Fin 1) k) := by
  obtain ⟨e00, e01, e10, e11, e20, e21, e30, e31, e40, e41, e50, e51, e61⟩ := blockIndex t
  show V c (Pipeline.arrRef spec3 5) (((cfg3.win 5).blk t).view.emb (ix2 (0 : Fin 1) k)) = _
  refine congrArg (V c (Pipeline.arrRef spec3 5)) (funext fun a => Fin.ext ?_)
  match a with
  | ⟨0, _⟩ => show win3_5.index t (0 : Fin 2) * 1 + 1 * 0 = 0; omega
  | ⟨1, _⟩ => show win3_5.index t (1 : Fin 2) * 64 + 1 * k.val = k.val; omega

/-- The specification on point `t`'s blocks, at `y`, is the specification on the arrays at the index `y` is there. -/
private theorem blocks_eq (c : Dev nD) (t : Fin cfg3.N) (y : (⟨2, ![2000, 64]⟩ : Shape).Idx) :
    Cert.Spec.lnRelu (Cert.Spec.conv (blkAgg V c t) (blkLin V c t) (blkCoef V c t) (blkBias V c t)) (blkScale V c t) (blkShift V c t) y
      = Cert.Spec.lnRelu (Cert.Spec.conv (arrAgg V c) (arrLin V c) (arrCoef V c) (arrBias V c)) (arrScale V c) (arrShift V c) (atPoint t y) :=
  lnRelu_row (arrAgg V c) (arrLin V c) (arrCoef V c) (arrBias V c) (arrScale V c) (arrShift V c)
    (blkAgg V c t) (blkLin V c t) (blkCoef V c t) (blkBias V c t) (blkScale V c t) (blkShift V c t) y (atPoint t y)
    (atPoint_lane t y) (blkAgg_row V c t y) (blkLin_row V c t y) (blkCoef_row V c t y) (blkBias_row V c t) (blkScale_row V c t) (blkShift_row V c t)

/-- WHAT POINT `t` WRITES BACK is its block of the specification of the six arrays the region finds: the body's
    one store is its payload of the six loaded blocks, the payload is the specification on the blocks, and that is
    the specification on the arrays read through the output's block. -/
private theorem written (c : Dev nD) (t : Fin cfg3.N) :
    (dat3 (F := Ideal) V c).flushed 6 t = ((cfg3.win 6).blk t).view.read (Elt Ideal)
      (Cert.Spec.lnRelu (Cert.Spec.conv (V c (Pipeline.arrRef spec3 0)) (V c (Pipeline.arrRef spec3 1)) (V c (Pipeline.arrRef spec3 2)) (V c (Pipeline.arrRef spec3 3))) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero offZero]
  simp only [View.ld_unit_zero (S := S2000x64) offZero, View.ld_unit_zero (S := S2000x1) offZero, View.ld_unit_zero (S := S1x64) offZero]
  rw [pay_eq]
  funext y
  exact blocks_eq V c t y

/-- An index of the output array is in point `t`'s block iff each coordinate is in the block's range on its axis. -/
private theorem mem_tile (t : Fin cfg3.N) (i : S100000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v78).slice (win3_6.rect t)).set ↔ _
  rw [View.set_slice_whole, Rect.mem_set_unit]
  exact Iff.rfl

/-- The 50 blocks of 2000 rows tile the 100000 rows: row R is in the block of the point whose tile is R / 2000. -/
private theorem tiled (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := tileOnto ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_tile]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 64 ≤ (i 1).val ∧ (i 1).val < win3_6.index t (1 : Fin 2) * 64 + 64; omega

/-- The array the region leaves is the normalised convolution output of the six arrays it finds. -/
theorem norm3 (c : Dev nD) :
    (dat3 (F := Ideal) V c).arrAt 6 cfg3.N
      = Cert.Spec.lnRelu (Cert.Spec.conv (V c (Pipeline.arrRef spec3 0)) (V c (Pipeline.arrRef spec3 1)) (V c (Pipeline.arrRef spec3 2)) (V c (Pipeline.arrRef spec3 3))) (V c (Pipeline.arrRef spec3 4)) (V c (Pipeline.arrRef spec3 5)) :=
  (dat3 (F := Ideal) V c).arrAt_eq_of_cover 6 _ (fun t _ => written V c t) tiled

end Cert.KernelIdeal.RegionValue

end
-- ==== Proof.RegPlain5.lean ====
/-
  Region 5, the third convolution's output (no normalisation): aggregated messages + own features · self coefficient + bias.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The offsets of an access to a whole block are zero on both axes. -/
private theorem origin2 : (![0, 0] : Fin 2 → Nat) = fun _ => 0 :=
  funext fun a => match a with | ⟨0, _⟩ => rfl | ⟨1, _⟩ => rfl

/-- A column of `a` rows spread over `b` columns reads, at `(p, c)`, the column's entry of row `p`. -/
private theorem spread_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One entry of the block the body stores, at row `p` and column `q` of the tile: the message entry, plus the
    feature entry times the row's self coefficient, plus the column's bias. -/
private theorem stored_entry (x0 x1 : Vec Ideal S2000x128 .f32) (x2 : Vec Ideal S2000x1 .f32) (x3 : Vec Ideal S1x128 .f32)
    (p : Fin 2000) (q : Fin 128) :
    k5_pay1 (F := Ideal) x0 x1 x2 x3 (ix2 p q)
      = x0 (ix2 p q) + x1 (ix2 p q) * x2 (ix2 p (0 : Fin 1)) + x3 (ix2 (0 : Fin 1) q) := by
  unfold k5_pay1
  simp only [shapeCast_self]
  show x0 (ix2 p q) + x1 (ix2 p q) * broadcastTo S2000x128 x2 broadcasts_S2000x1_S2000x128 (ix2 p q)
      + broadcastTo S2000x128 x3 broadcasts_S1x128_S2000x128 (ix2 p q) = _
  rw [spread_column x2 _ p q, broadcastTo_1b_ab_apply x3 _ p q]

/-- Over the 50 grid points: the message, feature and output tiles are the same row tile, the coefficient tile is the
    same rows of the one column, the bias is always its one block, and point `t` works on row tile `t`. -/
private theorem tile_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- One entry of the convolution output from entries of the four arrays: the message and feature entries sit at the
    output's own index, the coefficient at the output's row of the one column, the bias at the output's column of the
    one row. -/
private theorem conv_entry (A0 A1 : Cert.Spec.Mat 100000 128) (A2 : Cert.Spec.Mat 100000 1) (A3 : Cert.Spec.Mat 1 128)
    (i i0 i1 : S100000x128.Idx) (i2 : S100000x1.Idx) (i3 : S1x128.Idx)
    (h00 : (i0 0).val = (i 0).val) (h01 : (i0 1).val = (i 1).val)
    (h10 : (i1 0).val = (i 0).val) (h11 : (i1 1).val = (i 1).val)
    (h2 : (i2 0).val = (i 0).val) (h3 : (i3 1).val = (i 1).val) :
    A0 i0 + A1 i1 * A2 i2 + A3 i3 = Cert.Spec.conv A0 A1 A2 A3 i := by
  have e0 : i0 = i := Shape.idx_ext₂ h00 h01
  have e1 : i1 = i := Shape.idx_ext₂ h10 h11
  have e2 : i2 = ix2 (i 0) 0 := Shape.idx_ext₂ h2 (by have := idx2_lt1 i2; show (i2 1).val = 0; omega)
  have e3 : i3 = ix2 0 (i 1) := Shape.idx_ext₂ (by have := idx2_lt0 i3; show (i3 0).val = 0; omega) h3
  rw [e0, e1, e2, e3]
  rfl

/-- What grid point `t` writes back to the output array is row tile `t` of the convolution output of the four
    arrays the region finds. -/
private theorem written_tile (c : Dev nD) (t : Fin cfg5.N) :
    (dat5 (F := Ideal) V c).flushed 4 t
      = ((cfg5.win 4).blk t).view.read (Elt Ideal)
          (Cert.Spec.conv (V c (Pipeline.arrRef spec5 0)) (V c (Pipeline.arrRef spec5 1))
            (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero origin2]
  simp only [View.ld_unit_zero (S := S2000x128) origin2, View.ld_unit_zero (S := S2000x1) origin2,
    View.ld_unit_zero (S := S1x128) origin2]
  funext j
  obtain ⟨p, q, rfl⟩ : ∃ (p : Fin 2000) (q : Fin 128), j = ix2 p q := ⟨j 0, j 1, eq_ix2 j⟩
  obtain ⟨e00, e01, e10, e11, e20, e21, e30, e31, e40, e41⟩ := tile_facts t
  show k5_pay1 (F := Ideal) (iblk5 V c 0 t) (iblk5 V c 1 t) (iblk5 V c 2 t) (iblk5 V c 3 t) (ix2 p q) = _
  refine (stored_entry (iblk5 V c 0 t) (iblk5 V c 1 t) (iblk5 V c 2 t) (iblk5 V c 3 t) p q).trans ?_
  exact conv_entry (V c (Pipeline.arrRef spec5 0)) (V c (Pipeline.arrRef spec5 1)) (V c (Pipeline.arrRef spec5 2))
    (V c (Pipeline.arrRef spec5 3))
    (((cfg5.win 4).blk t).view.emb (ix2 p q)) (((cfg5.win 0).blk t).view.emb (ix2 p q))
    (((cfg5.win 1).blk t).view.emb (ix2 p q)) (((cfg5.win 2).blk t).view.emb (ix2 p (0 : Fin 1)))
    (((cfg5.win 3).blk t).view.emb (ix2 (0 : Fin 1) q))
    (by show win5_0.index t (0 : Fin 2) * 2000 + 1 * p.val = win5_4.index t (0 : Fin 2) * 2000 + 1 * p.val; omega)
    (by show win5_0.index t (1 : Fin 2) * 128 + 1 * q.val = win5_4.index t (1 : Fin 2) * 128 + 1 * q.val; omega)
    (by show win5_1.index t (0 : Fin 2) * 2000 + 1 * p.val = win5_4.index t (0 : Fin 2) * 2000 + 1 * p.val; omega)
    (by show win5_1.index t (1 : Fin 2) * 128 + 1 * q.val = win5_4.index t (1 : Fin 2) * 128 + 1 * q.val; omega)
    (by show win5_2.index t (0 : Fin 2) * 2000 + 1 * p.val = win5_4.index t (0 : Fin 2) * 2000 + 1 * p.val; omega)
    (by show win5_3.index t (1 : Fin 2) * 128 + 1 * q.val = win5_4.index t (1 : Fin 2) * 128 + 1 * q.val; omega)

/-- An index of the output array lies in point `t`'s tile exactly when each coordinate is in the tile's range on its
    axis. -/
private theorem mem_tile (t : Fin cfg5.N) (i : S100000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v99).slice (win5_4.rect t)).set ↔ _
  rw [View.set_slice_whole, Rect.mem_set_unit]
  exact Iff.rfl

/-- The 50 tiles of 2000 rows fill the 100000 rows: row `r` lies in the tile of point `r / 2000`, and every point
    writes its tile back. -/
private theorem tiles_cover (i : S100000x128.Idx) :
    ∃ t : Fin cfg5.N, (cfg5.win 4).flush t = true ∧ i ∈ ((cfg5.win 4).blk t).view.set := by
  have hr : (i 0).val < 100000 := idx2_lt0 i
  have hc : (i 1).val < 128 := idx2_lt1 i
  obtain ⟨t, ht⟩ : ∃ t : Fin cfg5.N, t.val = (i 0).val / 2000 :=
    ⟨⟨(i 0).val / 2000, by rw [show cfg5.N = 50 from N_5]; omega⟩, rfl⟩
  obtain ⟨-, -, -, -, -, -, -, -, e40, e41⟩ := tile_facts t
  refine ⟨t, flush5_4 t, ?_⟩
  rw [mem_tile]
  intro a
  match a with
  | ⟨0, _⟩ =>
    show win5_4.index t (0 : Fin 2) * 2000 ≤ (i 0).val ∧ (i 0).val < win5_4.index t (0 : Fin 2) * 2000 + 2000
    omega
  | ⟨1, _⟩ =>
    show win5_4.index t (1 : Fin 2) * 128 ≤ (i 1).val ∧ (i 1).val < win5_4.index t (1 : Fin 2) * 128 + 128
    omega

/-- The array the region leaves is the convolution output of the four arrays it finds. -/
theorem plain5 (c : Dev nD) :
    (dat5 (F := Ideal) V c).arrAt 4 cfg5.N = Cert.Spec.conv (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => written_tile V c t) tiles_cover

end Cert.KernelIdeal.RegionValue

end
-- ==== Proof.RegPool6.lean ====
/-
  Region 6, the segment sums: the 64 × 128 block carried over the fifty grid points ends at, in row s, the sum of the rows
  of the features whose segment word is s.

  At each grid point t the body adds to the carried block the product of two matrices contracted over the 2000 rows of
  block t: the one-hot matrix of the block's segment words (entry (r, s) is 1 when row r's word is s, else 0) and the
  block of features. Entry (s, j) therefore gains the sum, over the rows r of block t whose word is s, of the feature
  at (r, j). The block is zeroed at point 0, so after point 49 entry (s, j) is the sum over all fifty blocks, which is
  the sum over all 100000 rows: row 2000 t + r of the array is row r of block t. Only the last point writes the block
  back, and the block is the whole result array.
-/
import proofs.«402218_j7911329759934_1_alg».proof.Proof.Gen.KernelIdeal.Frame
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

namespace Pool6

/-! ## What each control case leaves in the carried block -/

section Pieces
variable {F : FTy → Type} [FloatOps F]

/-- The offsets of a store that covers a whole rank-2 block are zero on both axes. -/
theorem hz6 : (![0, 0] : Fin 2 → Nat) = fun _ => 0 := funext fun a => by fin_cases a <;> rfl

/-- At a point other than the first the body leaves, over the running block `xo`, the accumulating store's value
    computed from the segment block `x1`, the feature block `x0` and `xo`: its one store covers the block, and its
    three loads read the whole buffers. -/
theorem out_B (c : Dev nD) (i : grid6.Coords) (a1 : Memref sig .tc .vmem S2000x128 .f32) (h1 : a1.IsWhole)
    (a2 : Memref sig .tc .vmem S2000x1 .i32) (h2 : a2.IsWhole) (a3 : Memref sig .tc .vmem S64x128 .f32) (h3 : a3.IsWhole)
    (hc : ¬cond6_0 i) (x0 : Vec F S2000x128 .f32) (x1 : Vec F S2000x1 .i32) (xo : Vec F S64x128 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz6]
  simp only [View.readAt_eq_ld, h1.read_unread, h2.read_unread, h3.read_unread, View.ld_unit_zero (S := S2000x128) hz6,
    View.ld_unit_zero (S := S2000x1) hz6, View.ld_unit_zero (S := S64x128) hz6]

/-- At the first point the body stores the zero block, reads it back, and leaves the accumulating store's value over
    the zero block: of its two stores the later covers the block, and the block it reads is what the earlier wrote. -/
theorem out_A (c : Dev nD) (i : grid6.Coords) (a1 : Memref sig .tc .vmem S2000x128 .f32) (h1 : a1.IsWhole)
    (a2 : Memref sig .tc .vmem S2000x1 .i32) (h2 : a2.IsWhole) (a3 : Memref sig .tc .vmem S64x128 .f32) (h3 : a3.IsWhole)
    (hc : cond6_0 i) (x0 : Vec F S2000x128 .f32) (x1 : Vec F S2000x1 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) hz6, View.readCov_unit_zero (S := S64x128) _ hz6]
  simp only [View.readAt_eq_ld, h1.read_unread, h2.read_unread, View.ld_unit_zero (S := S2000x128) hz6,
    View.ld_unit_zero (S := S2000x1) hz6]

end Pieces

/-! ## The accumulating store at an entry -/

/-- Two 32-bit words compared for equality, the bit widened to a word and read as a signed integer: the extended real
    1 when the words are equal, 0 when they are not. -/
theorem onehot_word (x y : BitVec 32) :
    FloatOps.sitofp (F := Ideal) .f32 ((IntOp.cmpi .eq x y).setWidth 32) = if x = y then (1 : EReal) else 0 := by
  show (((BitVec.setWidth 32 (IntOp.cmpi .eq x y)).toInt : ℝ) : EReal) = _
  by_cases h : x = y
  · subst h
    rw [if_pos rfl]
    have e : IntOp.cmpi .eq x x = 1#1 := by simp [IntOp.cmpi]
    rw [e]
    norm_num
  · rw [if_neg h]
    have hb : (x == y) = false := beq_eq_false_iff_ne.mpr h
    have e : IntOp.cmpi .eq x y = 0#1 := by simp [IntOp.cmpi, hb]
    rw [e]
    norm_num

/-- The contraction's left operand is indexed (contracted row, segment): axis 0 is the contracted one, -/
theorem lhs_pool_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
/-- and axis 1 is the result's row. -/
theorem lhs_pool_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
/-- The right operand is indexed (contracted row, column): axis 0 is the contracted one, -/
theorem rhs_pool_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
/-- and axis 1 is the result's column. -/
theorem rhs_pool_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The one-hot matrix of a block of segment words: the column of words spread along 64 columns, compared with the
    column number, the bit read as a number. -/
def onehot (seg : Vec Ideal S2000x1 .i32) : FVec Ideal S2000x64 .bf16 :=
  truncf .bf16 (sitofp .f32 (extui 32 (cmpi .eq (broadcastTo S2000x64 (shapeCast S2000x1 seg shapeCasts_S2000x1_S2000x1) broadcasts_S2000x1_S2000x64)
    (iota .tc S2000x64 32 [1] iota_S2000x64_d1_w32)) natLt_1_32)) bitsLt_bf16_f32

/-- Its entry (r, s) is 1 when row r's word is s, else 0. -/
theorem onehot_apply (seg : Vec Ideal S2000x1 .i32) (r : Fin 2000) (s : Fin 64) :
    onehot seg (ix2 r s) = if seg (ix2 r 0) = BitVec.ofNat 32 s.val then (1 : EReal) else 0 := by
  show FloatOps.sitofp (F := Ideal) .f32 ((IntOp.cmpi .eq
    (broadcastTo S2000x64 (shapeCast S2000x1 seg shapeCasts_S2000x1_S2000x1) broadcasts_S2000x1_S2000x64 (ix2 r s))
    (iota .tc S2000x64 32 [1] iota_S2000x64_d1_w32 (ix2 r s))).setWidth 32) = _
  rw [onehot_word, iota_single_apply, shapeCast_self,
    broadcastTo_apply seg broadcasts_S2000x1_S2000x64 (ix2 r s) (ix2 r 0) (fun a => by
      match a with
      | ⟨0, _⟩ => rfl
      | ⟨1, _⟩ => rfl)]

/-- The accumulating store's value is the running block plus the product of the one-hot matrix and the feature block,
    contracted over the block's rows. -/
theorem pay2_eq (seg : Vec Ideal S2000x1 .i32) (h : Vec Ideal S2000x128 .f32) (acc : Vec Ideal S64x128 .f32) :
    k6_pay2 (F := Ideal) seg h acc
      = addf (shapeCast S64x128 acc shapeCasts_S64x128_S64x128)
          (matmul dot_S2000x64_S2000x128_S64x128_0_0_1_1_n_n none (onehot seg)
            (truncf .bf16 (shapeCast S2000x128 h shapeCasts_S2000x128_S2000x128) bitsLt_bf16_f32)
            (constant S64x128 .f32 0x00000000#32)) := rfl

/-- At entry (s, j): the running entry plus the sum, over the rows r of the block whose word is s, of the feature at
    (r, j) — a product by 1 keeps the feature, a product by 0 is 0 for every extended real. -/
theorem pay2_apply (seg : Vec Ideal S2000x1 .i32) (h : Vec Ideal S2000x128 .f32) (acc : Vec Ideal S64x128 .f32)
    (s : Fin 64) (j : Fin 128) :
    k6_pay2 (F := Ideal) seg h acc (ix2 s j)
      = acc (ix2 s j) + ∑ r : Fin 2000, if seg (ix2 r 0) = BitVec.ofNat 32 s.val then h (ix2 r j) else 0 := by
  rw [pay2_eq, addf_apply, shapeCast_self]
  refine congrArg (acc (ix2 s j) + ·) ?_
  refine (Ideal.matmul_constant_zero_apply dot_S2000x64_S2000x128_S64x128_0_0_1_1_n_n none (onehot seg) _ (ix2 s j)).trans ?_
  rw [← Equiv.sum_comp (contrEquiv1 dot_S2000x64_S2000x128_S64x128_0_0_1_1_n_n 2000 rfl rfl).symm]
  refine Finset.sum_congr rfl fun r _ => ?_
  have hk := contrEquiv1_symm_val dot_S2000x64_S2000x128_S64x128_0_0_1_1_n_n 2000 rfl rfl r
  have el : dot_S2000x64_S2000x128_S64x128_0_0_1_1_n_n.lhsIdx (ix2 s j) ((contrEquiv1 dot_S2000x64_S2000x128_S64x128_0_0_1_1_n_n 2000 rfl rfl).symm r) = ix2 r s := funext fun a => Fin.ext (by
    match a with
    | ⟨0, _⟩ => exact (lhs_pool_0 _ _).trans hk
    | ⟨1, _⟩ => exact lhs_pool_1 _ _)
  have er : dot_S2000x64_S2000x128_S64x128_0_0_1_1_n_n.rhsIdx (ix2 s j) ((contrEquiv1 dot_S2000x64_S2000x128_S64x128_0_0_1_1_n_n 2000 rfl rfl).symm r) = ix2 r j := funext fun a => Fin.ext (by
    match a with
    | ⟨0, _⟩ => exact (rhs_pool_0 _ _).trans hk
    | ⟨1, _⟩ => exact rhs_pool_1 _ _)
  rw [el, er, onehot_apply, truncf_apply, shapeCast_self]
  by_cases hw : seg (ix2 r 0) = BitVec.ofNat 32 s.val
  · rw [if_pos hw, if_pos hw, one_mul]
  · rw [if_neg hw, if_neg hw, zero_mul]

/-- The zero block the first point stores: every entry is 0. -/
theorem pay1_apply (i : S64x128.Idx) : k6_pay1 (F := Ideal) i = 0 := Ideal.ofBits_zero_f32

/-! ## The blocks of the two input arrays -/

variable (V : (c : Dev nD) → (b : Ref sig .tc) → Buf (Elt Ideal) ((c : Thread nD τ).loc b))

/-- The feature array and the segment column as the region finds them, and their blocks at a grid point. -/
abbrev featArr (c : Dev nD) : Vec Ideal S100000x128 .f32 := V c (Pipeline.arrRef spec6 0)
abbrev segArr (c : Dev nD) : Vec Ideal S100000x1 .i32 := V c (Pipeline.arrRef spec6 1)
abbrev featBlk (c : Dev nD) (t : Fin cfg6.N) : Vec Ideal S2000x128 .f32 := iblk6 V c 0 t
abbrev segBlk (c : Dev nD) (t : Fin cfg6.N) : Vec Ideal S2000x1 .i32 := iblk6 V c 1 t

/-- The block indices of the three windows at every grid point: the two inputs walk down the rows, block t at point t;
    the output's block never moves. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row r of block t is row 2000 t + r of the array (taken modulo the array's height, so that it names a row for
    every natural t; for t below 50 nothing is cut off). -/
def rowOf (t : Nat) (r : Fin 2000) : Fin 100000 := ⟨(2000 * t + r.val) % 100000, Nat.mod_lt _ (by decide)⟩

/-- The feature block at point t, at (r, j), is the array at (2000 t + r, j). -/
theorem featBlk_apply (c : Dev nD) (t : Fin cfg6.N) (r : Fin 2000) (j : Fin 128) :
    featBlk V c t (ix2 r j) = featArr V c (ix2 (rowOf t.val r) j) := by
  have hN : t.val < 50 := lt_of_lt_of_eq t.isLt (show cfg6.N = 50 from N_6)
  obtain ⟨e0, e1, -⟩ := idx_facts6 t
  unfold featBlk iblk6
  rw [View.read_apply]
  show V c (Pipeline.arrRef spec6 0) (((cfg6.win 0).blk t).view.emb (ix2 r j)) = V c (Pipeline.arrRef spec6 0) (ix2 (rowOf t.val r) j)
  refine congrArg _ (funext fun a => Fin.ext ?_)
  match a with
  | ⟨0, _⟩ => show win6_0.index t (0 : Fin 2) * 2000 + 1 * r.val = (2000 * t.val + r.val) % 100000; rw [e0]; have := r.isLt; omega
  | ⟨1, _⟩ => show win6_0.index t (1 : Fin 2) * 128 + 1 * j.val = j.val; rw [e1]; omega

/-- The segment block at point t, at row r, is the column at row 2000 t + r. -/
theorem segBlk_apply (c : Dev nD) (t : Fin cfg6.N) (r : Fin 2000) :
    segBlk V c t (ix2 r 0) = segArr V c (ix2 (rowOf t.val r) 0) := by
  have hN : t.val < 50 := lt_of_lt_of_eq t.isLt (show cfg6.N = 50 from N_6)
  obtain ⟨-, -, e0, e1, -⟩ := idx_facts6 t
  unfold segBlk iblk6
  rw [View.read_apply]
  show V c (Pipeline.arrRef spec6 1) (((cfg6.win 1).blk t).view.emb (ix2 r 0)) = V c (Pipeline.arrRef spec6 1) (ix2 (rowOf t.val r) 0)
  refine congrArg _ (funext fun a => Fin.ext ?_)
  match a with
  | ⟨0, _⟩ => show win6_1.index t (0 : Fin 2) * 2000 + 1 * r.val = (2000 * t.val + r.val) % 100000; rw [e0]; have := r.isLt; omega
  | ⟨1, _⟩ => show win6_1.index t (1 : Fin 2) * 1 + 1 * 0 = 0; rw [e1]

/-! ## The fold over the fifty points -/

/-- What grid point n adds to entry (s, j): the features at column j of the rows of block n whose segment word is s. -/
def addend (c : Dev nD) (n : Nat) (i : S64x128.Idx) : EReal :=
  ∑ r : Fin 2000, if segArr V c (ix2 (rowOf n r) 0) = BitVec.ofNat 32 (i 0).val then featArr V c (ix2 (rowOf n r) (i 1)) else 0

/-- One grid point's store over a running block: the block plus that point's addend, entry by entry. -/
theorem step_apply (c : Dev nD) (t : Fin cfg6.N) (acc : Vec Ideal S64x128 .f32) (i : S64x128.Idx) :
    k6_pay2 (F := Ideal) (segBlk V c t) (featBlk V c t) acc i = acc i + addend V c t.val i := by
  obtain ⟨s, j, rfl⟩ : ∃ (s : Fin 64) (j : Fin 128), i = ix2 s j := ⟨i 0, i 1, eq_ix2 i⟩
  rw [pay2_apply]
  refine congrArg (acc (ix2 s j) + ·) ?_
  show _ = ∑ r : Fin 2000, if segArr V c (ix2 (rowOf t.val r) 0) = BitVec.ofNat 32 s.val then featArr V c (ix2 (rowOf t.val r) j) else 0
  refine Finset.sum_congr rfl fun r _ => ?_
  rw [segBlk_apply, featBlk_apply]

/-- After the last of the fifty points the carried block holds, entry by entry, the sum of the fifty addends: the block
    is zeroed and stepped at point 0 and stepped from its predecessor at every later point, so it is the fold of the
    steps, and a fold of additions from zero is the sum. -/
theorem outs_last (c : Dev nD) (h : 49 < cfg6.N) (i : S64x128.Idx) :
    outsAt6 V c 49 h i = ∑ t : Fin 50, addend V c t.val i := by
  have hA : ∀ (n : Nat) (hn : n < cfg6.N), n % 50 = 0 →
      outsAt6 V c n hn = k6_pay2 (F := Ideal) (segBlk V c ⟨n, hn⟩) (featBlk V c ⟨n, hn⟩) (k6_pay1 (F := Ideal)) := by
    intro n hn h0
    rw [outsAt6_A V c ⟨n, hn⟩ h0]
    exact out_A (F := Ideal) c (grid6.coords ⟨n, hn⟩) (ms6_0 ⟨n, hn⟩) (hs6_0 ⟨n, hn⟩) (ms6_1 ⟨n, hn⟩) (hs6_1 ⟨n, hn⟩)
      (ms6_2 ⟨n, hn⟩) (hs6_2 ⟨n, hn⟩) ((hcond6_0 ⟨n, hn⟩).mpr h0) (iblk6 V c 0 ⟨n, hn⟩) (iblk6 V c 1 ⟨n, hn⟩)
  have hB : ∀ (n : Nat) (hn : n + 1 < cfg6.N), ¬(n + 1) % 50 = 0 →
      outsAt6 V c (n + 1) hn = k6_pay2 (F := Ideal) (segBlk V c ⟨n + 1, hn⟩) (featBlk V c ⟨n + 1, hn⟩)
        (outsAt6 V c n (Nat.lt_of_succ_lt hn)) := by
    intro n hn h0
    rw [outsAt6_B V c ⟨n + 1, hn⟩ h0]
    exact out_B (F := Ideal) c (grid6.coords ⟨n + 1, hn⟩) (ms6_0 ⟨n + 1, hn⟩) (hs6_0 ⟨n + 1, hn⟩) (ms6_1 ⟨n + 1, hn⟩) (hs6_1 ⟨n + 1, hn⟩)
      (ms6_2 ⟨n + 1, hn⟩) (hs6_2 ⟨n + 1, hn⟩) (fun hh => h0 ((hcond6_0 ⟨n + 1, hn⟩).mp hh)) (iblk6 V c 0 ⟨n + 1, hn⟩) (iblk6 V c 1 ⟨n + 1, hn⟩)
      (outsAt6 V c n (Nat.lt_of_succ_lt hn))
  have hfold : outsAt6 V c 49 h
      = Pipeline.accAt (N := cfg6.N)
          (fun n hn => k6_pay2 (F := Ideal) (segBlk V c ⟨n, hn⟩) (featBlk V c ⟨n, hn⟩) (k6_pay1 (F := Ideal)))
          (fun n hn acc => k6_pay2 (F := Ideal) (segBlk V c ⟨n, hn⟩) (featBlk V c ⟨n, hn⟩) acc) 0 49 (by omega) :=
    Pipeline.eq_accAt (N := cfg6.N) (fun n hn => outsAt6 V c n hn) 50 _ _ hA hB 0 49 (by decide) h
  rw [hfold]
  have hsum := Pipeline.accAt_add_apply (N := cfg6.N)
    (fun n hn => k6_pay2 (F := Ideal) (segBlk V c ⟨n, hn⟩) (featBlk V c ⟨n, hn⟩) (k6_pay1 (F := Ideal)))
    (fun n hn acc => k6_pay2 (F := Ideal) (segBlk V c ⟨n, hn⟩) (featBlk V c ⟨n, hn⟩) acc)
    (fun _ => (0 : EReal)) (addend V c) 0 49
    (fun h0 i => by
      show k6_pay2 (F := Ideal) (segBlk V c ⟨0, h0⟩) (featBlk V c ⟨0, h0⟩) (k6_pay1 (F := Ideal)) i = 0 + addend V c 0 i
      rw [step_apply V c ⟨0, h0⟩ (k6_pay1 (F := Ideal)) i, pay1_apply])
    (fun n hn acc i _ _ => step_apply V c ⟨n, hn⟩ acc i)
    49 le_rfl (by omega) i
  rw [hsum]
  show (0 : EReal) + ∑ s ∈ Finset.range 50, addend V c (0 + s) i = _
  rw [zero_add, Finset.sum_range]
  exact Finset.sum_congr rfl fun t _ => by rw [Nat.zero_add]

/-- A sum over the hundred thousand rows is the sum over the fifty blocks of the sums over each block's two thousand
    rows: every row is 2000 t + r for exactly one block t and one row r of it. -/
theorem sum_rows (φ : Fin 100000 → EReal) :
    ∑ r : Fin 100000, φ r = ∑ t : Fin 50, ∑ r' : Fin 2000, φ (rowOf t.val r') :=
  calc ∑ r : Fin 100000, φ r
      = ∑ x : Fin 50 × Fin 2000, φ (finProdFinEquiv x) := (Equiv.sum_comp (finProdFinEquiv (m := 50) (n := 2000)) φ).symm
    _ = ∑ t : Fin 50, ∑ r' : Fin 2000, φ (finProdFinEquiv (t, r')) := Fintype.sum_prod_type _
    _ = _ := Finset.sum_congr rfl fun t _ => Finset.sum_congr rfl fun r' _ => congrArg φ (Fin.ext (by
        show r'.val + 2000 * t.val = (2000 * t.val + r'.val) % 100000
        have := t.isLt; have := r'.isLt; omega))

/-- So the carried block after the last point is the segment sum of the whole arrays. -/
theorem outs_last_eq_pool (c : Dev nD) (h : 49 < cfg6.N) (i : S64x128.Idx) :
    outsAt6 V c 49 h i = Cert.Spec.pool (featArr V c) (segArr V c) i := by
  rw [outs_last]
  show _ = ∑ r : Fin 100000, if segArr V c (ix2 r 0) = BitVec.ofNat 32 (i 0).val then featArr V c (ix2 r (i 1)) else 0
  rw [sum_rows]
  rfl

/-! ## From the carried block to the result array -/

/-- An index of the result array lies in a point's output block when each coordinate lies in the block's range. -/
theorem mem_blk6 (t : Fin cfg6.N) (i : S64x128.Idx) :
    i ∈ ((cfg6.win 2).blk t).view.set ↔ ∀ a : Fin 2, win6_2.index t a * S64x128.size a ≤ (i a).val ∧ (i a).val < win6_2.index t a * S64x128.size a + S64x128.size a := by
  show i ∈ ((View.whole main_v101).slice (win6_2.rect t)).set ↔ _
  rw [View.set_slice_whole, Rect.mem_set_unit]
  exact Iff.rfl

/-- The one write-back is at the last point, and its block is the whole array at zero offsets: it writes whatever
    the carried block holds after that point, entry for entry. -/
theorem flushed6_of (c : Dev nD) (G : Vec Ideal S64x128 .f32)
    (hG : ∀ (h : 49 < cfg6.N) (i : S64x128.Idx), outsAt6 V c 49 h i = G i)
    (t : Fin cfg6.N) (hf : (cfg6.win 2).flush t = true) :
    (dat6 V c).flushed 2 t = ((cfg6.win 2).blk t).view.read (Elt Ideal) G := by
  have hN : cfg6.N = 50 := N_6
  have h49 : t.val = 49 := by have := (flush6_2 t).mp hf; have := t.isLt; omega
  obtain ⟨-, -, -, -, e0, e1⟩ := idx_facts6 t
  show (cfg6.win 2).cut (grid6.coords t) ((dat6 V c).after 2 t) = _
  rw [after6_2]
  funext y
  rw [View.read_apply]
  show outsAt6 V c t.val t.isLt y = G (((cfg6.win 2).blk t).view.emb y)
  have same : ∀ (n : Nat) (hn : n < cfg6.N), n = 49 → outsAt6 V c n hn y = G y := by
    intro n hn e; subst e; exact hG hn y
  refine (same t.val t.isLt h49).trans (congrArg G (funext fun a => Fin.ext ?_))
  match a with
  | ⟨0, _⟩ => show (y 0).val = win6_2.index t (0 : Fin 2) * 64 + 1 * (y 0).val; rw [e0]; omega
  | ⟨1, _⟩ => show (y 1).val = win6_2.index t (1 : Fin 2) * 128 + 1 * (y 1).val; rw [e1]; omega

/-- The last point's block covers every index of the result array. -/
theorem cover6 (i : S64x128.Idx) :
    ∃ t : Fin cfg6.N, (cfg6.win 2).flush t = true ∧ i ∈ ((cfg6.win 2).blk t).view.set := by
  have hN : cfg6.N = 50 := N_6
  refine ⟨⟨49, by omega⟩, (flush6_2 _).mpr rfl, ?_⟩
  obtain ⟨-, -, -, -, e0, e1⟩ := idx_facts6 ⟨49, by omega⟩
  rw [mem_blk6]
  intro a
  have h0 : (i 0).val < 64 := (i 0).isLt
  have h1 : (i 1).val < 128 := (i 1).isLt
  match a with
  | ⟨0, _⟩ => show win6_2.index ⟨49, _⟩ (0 : Fin 2) * 64 ≤ (i 0).val ∧ (i 0).val < win6_2.index ⟨49, _⟩ (0 : Fin 2) * 64 + 64; rw [e0]; omega
  | ⟨1, _⟩ => show win6_2.index ⟨49, _⟩ (1 : Fin 2) * 128 ≤ (i 1).val ∧ (i 1).val < win6_2.index ⟨49, _⟩ (1 : Fin 2) * 128 + 128; rw [e1]; omega

end Pool6

variable (V : (c : Dev nD) → (b : Ref sig .tc) → Buf (Elt Ideal) ((c : Thread nD τ).loc b))

/-- The array the region leaves is the segment sum of the feature array by the segment column it finds. -/
theorem pool6 (c : Dev nD) :
    (dat6 (F := Ideal) V c).arrAt 2 cfg6.N = Cert.Spec.pool (V c (Pipeline.arrRef spec6 0)) (V c (Pipeline.arrRef spec6 1)) :=
  (dat6 V c).arrAt_eq_of_cover 2 _ (Pool6.flushed6_of V c _ (Pool6.outs_last_eq_pool V c)) Pool6.cover6

end Cert.KernelIdeal.RegionValue

end
-- ==== Proof.RefProj.lean ====
/-
  The reference's three projections: a host dot_general contracting the features of a node array with the rows of a weight
  matrix is the matrix product, whatever the node array.

  On the extended reals the host's dot_general is, entry by entry, the sum over its one contracted axis of the products of
  the two operands; the contraction pairs axis 1 of the node array with axis 0 of the weight matrix, and the free axes
  are the node array's rows and the weight matrix's columns. So entry (r, j) of the result is the sum over the 64
  features c of a (r, c) · w (c, j): the matrix product of the specification.
-/
import proofs.«402218_j7911329759934_1_alg».proof.Proof.RefRead
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefStages

open Cert.ReferenceIdeal Cert.RefRead Idealize.ShloMosaic Idealize.ShloMosaic.TcCoe
open Idealize.ShloMosaic.ValueIdx

/-! ## Into 64 columns -/

/-- For output entry (r, j) and feature c the product reads the node array at (r, c): row r is the output's row, column c
    the contracted feature. -/
private theorem nodeEntry64 (i : S100000x64.Idx) (c : Fin 64) : lidx_main_v16 i c = ix2 (i 0) c :=
  funext fun a => Fin.ext (by match a with | ⟨0, _⟩ => rfl | ⟨1, _⟩ => rfl)

/-- … and the weight matrix at (c, j): row c is the contracted feature, column j the output's column. -/
private theorem weightEntry64 (i : S100000x64.Idx) (c : Fin 64) : ridx_main_v16 i c = ix2 c (i 1) :=
  funext fun a => Fin.ext (by match a with | ⟨0, _⟩ => rfl | ⟨1, _⟩ => rfl)

/-- A 100000 × 64 array times a 64 × 64 matrix. -/
theorem dot64 (a : (⟨S100000x64, .f32⟩ : BufTy).Contents (Elt Ideal)) (w : (⟨S64x64, .f32⟩ : BufTy).Contents (Elt Ideal)) :
    Host.dotGeneral (F := Ideal) (φ₁ := .f32) (φ₂ := .f32) dot_S100000x64_S64x64_S100000x64_1_0_0_1_n_n none a w = Cert.Spec.mm a w := by
  -- the left side is the first projection's stage read at any two operands
  show val_main_v16 (F := Ideal) a w = _
  funext i
  rw [val_main_v16_apply]
  unfold Cert.Spec.mm
  refine Finset.sum_congr rfl fun c _ => ?_
  rw [nodeEntry64, weightEntry64]
  rfl

/-! ## Into 128 columns

The same reading for the 64 × 128 weight matrix: the contraction's one axis is re-indexed by the feature c : Fin 64, and
the two operand indices at (output entry, feature) are computed axis by axis from the dimension numbers. -/

/-- Entry (r, j) of the product into 128 columns is the sum over the features c of a (r, c) · w (c, j). -/
private theorem dot128_entry (a : (⟨S100000x64, .f32⟩ : BufTy).Contents (Elt Ideal)) (w : (⟨S64x128, .f32⟩ : BufTy).Contents (Elt Ideal))
    (i : S100000x128.Idx) :
    Host.dotGeneral (F := Ideal) (φ₁ := .f32) (φ₂ := .f32) dot_S100000x64_S64x128_S100000x128_1_0_0_1_n_n none a w i
      = ∑ c : Fin 64, a (ix2 (i 0) c) * w (ix2 c (i 1)) := by
  simp only [Host.dotGeneral]
  rw [Ideal.dotGeneral_apply, ← Equiv.sum_comp (contrEquiv1 dot_S100000x64_S64x128_S100000x128_1_0_0_1_n_n 64 rfl rfl).symm]
  refine Finset.sum_congr rfl fun c _ => ?_
  -- the contraction index that the feature c names has c on its one axis
  have hc := contrEquiv1_symm_val dot_S100000x64_S64x128_S100000x128_1_0_0_1_n_n 64 rfl rfl c
  -- the node array is read at (r, c): axis 0 is free and follows the output's row, axis 1 is contracted
  have eNode : dot_S100000x64_S64x128_S100000x128_1_0_0_1_n_n.lhsIdx i ((contrEquiv1 dot_S100000x64_S64x128_S100000x128_1_0_0_1_n_n 64 rfl rfl).symm c) = ix2 (i 0) c := funext fun a => Fin.ext (by
    match a with
    | ⟨0, _⟩ => exact lhs_main_v150_0 _ _
    | ⟨1, _⟩ => exact (lhs_main_v150_1 _ _).trans hc)
  -- the weight matrix is read at (c, j): axis 0 is contracted, axis 1 is free and follows the output's column
  have eWeight : dot_S100000x64_S64x128_S100000x128_1_0_0_1_n_n.rhsIdx i ((contrEquiv1 dot_S100000x64_S64x128_S100000x128_1_0_0_1_n_n 64 rfl rfl).symm c) = ix2 c (i 1) := funext fun a => Fin.ext (by
    match a with
    | ⟨0, _⟩ => exact (rhs_main_v150_0 _ _).trans hc
    | ⟨1, _⟩ => exact rhs_main_v150_1 _ _)
  rw [eNode, eWeight]
  rfl

/-- A 100000 × 64 array times a 64 × 128 matrix. -/
theorem dot128 (a : (⟨S100000x64, .f32⟩ : BufTy).Contents (Elt Ideal)) (w : (⟨S64x128, .f32⟩ : BufTy).Contents (Elt Ideal)) :
    Host.dotGeneral (F := Ideal) (φ₁ := .f32) (φ₂ := .f32) dot_S100000x64_S64x128_S100000x128_1_0_0_1_n_n none a w = Cert.Spec.mm a w := by
  funext i
  rw [dot128_entry]
  rfl

end Cert.RefStages

end
-- ==== Proof.RefNorm.lean ====
/-
  The reference's two normalised convolutions and its last plain one, each read against the specification: the stage after
  the positive part is the layer-normalised convolution output of the aggregated messages, the projected features, the
  squared inverse root degrees (a column) and the bias, scale and shift vectors (rows).

  Each layer is read in three steps. The convolution output at (r, k) is the aggregated message plus the node's own
  projected feature times the squared inverse root degree of node r plus the bias entry k. The row statistics sit in a
  column [100000, 1]: entry (r, 0) of the mean column is the sum over the 64 features of row r divided by 64, and entry
  (r, 0) of the variance column is the sum of the squared deviations of row r from that mean divided by 64. The output
  at (r, j) is the deviation of entry (r, j) times the inverse root of the row's variance plus ε, scaled and shifted by
  the entries j of the two vectors, then the larger of that and zero.
-/
import proofs.«402218_j7911329759934_1_alg».proof.Proof.RefRead
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefStages

open Cert.ReferenceIdeal Cert.RefRead Idealize.ShloMosaic Idealize.ShloMosaic.TcCoe
open Idealize.ShloMosaic.ValueIdx

/-! ## The first layer -/

/-- The first convolution's output at row r, feature k: the aggregated message, plus the node's projected feature
    times its squared inverse root degree, plus the bias entry k. -/
private theorem conv1_at (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (r : Fin 100000) (k : Fin 64) :
    val_main_v57 (F := Ideal) x0 x1 x3 x4 (ix2 r k)
      = Cert.Spec.conv (val_main_v49 (F := Ideal) x0 x1 x3) (val_main_v16 (F := Ideal) x0 x3)
          (Cert.Spec.col (val_main_v50 (F := Ideal) x1)) (Cert.Spec.row x4) (ix2 r k) := by
  have e1 : idx_main_v51 (idx_main_v52 (ix2 r k)) = ix1 r :=
    funext fun a => Fin.ext (by match a with | ⟨0, _⟩ => rfl)
  have e2 : idx_main_v55 (idx_main_v56 (ix2 r k)) = ix1 k :=
    funext fun a => Fin.ext (by match a with | ⟨0, _⟩ => rfl)
  rw [val_main_v57_apply, val_main_v54_apply, val_main_v53_apply, val_main_v52_apply, val_main_v51_apply,
    val_main_v56_apply, val_main_v55_apply, e1, e2]
  simp only [Ideal.addf_def, Ideal.mulf_def, Cert.Spec.conv, Cert.Spec.col, Cert.Spec.row]

/-- The mean column of the first layer: entry (r, 0) is the sum of row r of the convolution output over its 64
    features (the sum starts from the float zero, which adds nothing) divided by the float 64. -/
private theorem mean1_at (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (r : Fin 100000) (z : Fin 1) :
    val_main_v61 (F := Ideal) x0 x1 x3 x4 (ix2 r z)
      = Cert.Spec.rowMean (Cert.Spec.conv (val_main_v49 (F := Ideal) x0 x1 x3) (val_main_v16 (F := Ideal) x0 x3)
          (Cert.Spec.col (val_main_v50 (F := Ideal) x1)) (Cert.Spec.row x4)) r := by
  have e : ∀ k : Fin 64, idx_main_v58 (idx_main_v59 (ix2 r z)) k = ix2 r k := fun k =>
    funext fun a => Fin.ext (by match a with | ⟨0, _⟩ => rfl | ⟨1, _⟩ => rfl)
  have h : ∀ k : Fin 64, val_main_v57 (F := Ideal) x0 x1 x3 x4 (idx_main_v58 (idx_main_v59 (ix2 r z)) k)
      = (Cert.Spec.conv (val_main_v49 (F := Ideal) x0 x1 x3) (val_main_v16 (F := Ideal) x0 x3)
          (Cert.Spec.col (val_main_v50 (F := Ideal) x1)) (Cert.Spec.row x4)) (ix2 r k) := fun k => by
    rw [e k]; exact conv1_at x0 x1 x3 x4 r k
  rw [val_main_v61_apply, val_main_v59_apply, val_main_v58_apply, val_main_v60_apply, val_main_cst_13_apply,
    val_main_cst_12_apply, Ideal.hostDivf_def, Ideal.ofBits_def, Ideal.ofBits_def, Ideal.ofBits_zero_f32, zero_add]
  unfold Cert.Spec.rowMean Cert.Spec.width64
  rw [Finset.sum_congr rfl fun k _ => h k]

/-- The variance column of the first layer: entry (r, 0) is the sum over the 64 features of the squared deviation of
    row r's entries from the row's mean, divided by the float 64. -/
private theorem var1_at (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (r : Fin 100000) (z : Fin 1) :
    val_main_v68 (F := Ideal) x0 x1 x3 x4 (ix2 r z)
      = Cert.Spec.rowVar (Cert.Spec.conv (val_main_v49 (F := Ideal) x0 x1 x3) (val_main_v16 (F := Ideal) x0 x3)
          (Cert.Spec.col (val_main_v50 (F := Ideal) x1)) (Cert.Spec.row x4)) r := by
  have e : ∀ k : Fin 64, idx_main_v65 (idx_main_v66 (ix2 r z)) k = ix2 r k := fun k =>
    funext fun a => Fin.ext (by match a with | ⟨0, _⟩ => rfl | ⟨1, _⟩ => rfl)
  have e' : ∀ k : Fin 64, idx_main_v62 (ix2 r k) = ix2 r (0 : Fin 1) := fun k =>
    funext fun a => Fin.ext (by match a with | ⟨0, _⟩ => rfl | ⟨1, _⟩ => rfl)
  have h : ∀ k : Fin 64, val_main_v64 (F := Ideal) x0 x1 x3 x4 (idx_main_v65 (idx_main_v66 (ix2 r z)) k)
      = ((Cert.Spec.conv (val_main_v49 (F := Ideal) x0 x1 x3) (val_main_v16 (F := Ideal) x0 x3)
          (Cert.Spec.col (val_main_v50 (F := Ideal) x1)) (Cert.Spec.row x4)) (ix2 r k) - Cert.Spec.rowMean (Cert.Spec.conv (val_main_v49 (F := Ideal) x0 x1 x3) (val_main_v16 (F := Ideal) x0 x3)
          (Cert.Spec.col (val_main_v50 (F := Ideal) x1)) (Cert.Spec.row x4)) r)
        * ((Cert.Spec.conv (val_main_v49 (F := Ideal) x0 x1 x3) (val_main_v16 (F := Ideal) x0 x3)
          (Cert.Spec.col (val_main_v50 (F := Ideal) x1)) (Cert.Spec.row x4)) (ix2 r k) - Cert.Spec.rowMean (Cert.Spec.conv (val_main_v49 (F := Ideal) x0 x1 x3) (val_main_v16 (F := Ideal) x0 x3)
          (Cert.Spec.col (val_main_v50 (F := Ideal) x1)) (Cert.Spec.row x4)) r) := fun k => by
    rw [e k, val_main_v64_apply, val_main_v63_apply, val_main_v62_apply, e' k, conv1_at, mean1_at,
      Ideal.mulf_def, Ideal.subf_def]
  rw [val_main_v68_apply, val_main_v66_apply, val_main_v65_apply, val_main_v67_apply, val_main_cst_15_apply,
    val_main_cst_14_apply, Ideal.hostDivf_def, Ideal.ofBits_def, Ideal.ofBits_def, Ideal.ofBits_zero_f32, zero_add]
  unfold Cert.Spec.rowVar Cert.Spec.width64
  rw [Finset.sum_congr rfl fun k _ => h k]

/-- The first layer's output. -/
theorem norm1 (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) :
    val_main_v82 (F := Ideal) x0 x1 x3 x4 x5 x6
      = Cert.Spec.lnRelu (Cert.Spec.conv (val_main_v49 (F := Ideal) x0 x1 x3) (val_main_v16 (F := Ideal) x0 x3)
          (Cert.Spec.col (val_main_v50 (F := Ideal) x1)) (Cert.Spec.row x4)) (Cert.Spec.row x5) (Cert.Spec.row x6) := by
  funext i
  obtain ⟨r, j, rfl⟩ : ∃ (r : Fin 100000) (j : Fin 64), i = ix2 r j := ⟨i 0, i 1, eq_ix2 i⟩
  have ec : idx_main_v69 (ix2 r j) = ix2 r (0 : Fin 1) :=
    funext fun a => Fin.ext (by match a with | ⟨0, _⟩ => rfl | ⟨1, _⟩ => rfl)
  have es : idx_main_v74 (ix2 r j) = ix2 r (0 : Fin 1) :=
    funext fun a => Fin.ext (by match a with | ⟨0, _⟩ => rfl | ⟨1, _⟩ => rfl)
  have eg : idx_main_v76 (idx_main_v77 (ix2 r j)) = ix1 j :=
    funext fun a => Fin.ext (by match a with | ⟨0, _⟩ => rfl)
  have eb : idx_main_v79 (idx_main_v80 (ix2 r j)) = ix1 j :=
    funext fun a => Fin.ext (by match a with | ⟨0, _⟩ => rfl)
  rw [val_main_v82_apply, val_main_v81_apply, val_main_v78_apply, val_main_v75_apply, val_main_v70_apply,
    val_main_v69_apply, val_main_v74_apply, val_main_v73_apply, val_main_v72_apply, val_main_v71_apply,
    val_main_cst_16_apply, val_main_v77_apply, val_main_v76_apply, val_main_v80_apply, val_main_v79_apply,
    val_main_call0_v0_apply, val_main_call0_cst_apply, ec, es, eg, eb, conv1_at, mean1_at, var1_at]
  rw [Ideal.maximumf_def, Ideal.addf_def, Ideal.mulf_def, Ideal.mulf_def, Ideal.subf_def, Ideal.hostUnary_rsqrt_def,
    Ideal.addf_def, Ideal.ofBits_def, Ideal.ofBits_def]
  rfl

/-! ## The second layer -/

/-- The second convolution's output at row r, feature k: the aggregated message of the first layer's outputs, plus the
    node's own projected feature times its squared inverse root degree, plus the entry k of the second bias. -/
private theorem conv2_at (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 100000) (k : Fin 64) :
    val_main_v124 (F := Ideal) x0 x1 x3 x4 x5 x6 x7 x8 (ix2 r k)
      = Cert.Spec.conv (val_main_v116 (F := Ideal) x0 x1 x3 x4 x5 x6 x7) (val_main_v83 (F := Ideal) x0 x1 x3 x4 x5 x6 x7)
          (Cert.Spec.col (val_main_v117 (F := Ideal) x1)) (Cert.Spec.row x8) (ix2 r k) := by
  have e1 : idx_main_v118 (idx_main_v119 (ix2 r k)) = ix1 r :=
    funext fun a => Fin.ext (by match a with | ⟨0, _⟩ => rfl)
  have e2 : idx_main_v122 (idx_main_v123 (ix2 r k)) = ix1 k :=
    funext fun a => Fin.ext (by match a with | ⟨0, _⟩ => rfl)
  rw [val_main_v124_apply, val_main_v121_apply, val_main_v120_apply, val_main_v119_apply, val_main_v118_apply,
    val_main_v123_apply, val_main_v122_apply, e1, e2]
  simp only [Ideal.addf_def, Ideal.mulf_def, Cert.Spec.conv, Cert.Spec.col, Cert.Spec.row]

/-- The mean column of the second layer: entry (r, 0) is the sum of row r of the second convolution's output over its
    64 features, started from the float zero, divided by the float 64. -/
private theorem mean2_at (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 100000) (z : Fin 1) :
    val_main_v128 (F := Ideal) x0 x1 x3 x4 x5 x6 x7 x8 (ix2 r z)
      = Cert.Spec.rowMean (Cert.Spec.conv (val_main_v116 (F := Ideal) x0 x1 x3 x4 x5 x6 x7) (val_main_v83 (F := Ideal) x0 x1 x3 x4 x5 x6 x7)
          (Cert.Spec.col (val_main_v117 (F := Ideal) x1)) (Cert.Spec.row x8)) r := by
  have e : ∀ k : Fin 64, idx_main_v125 (idx_main_v126 (ix2 r z)) k = ix2 r k := fun k =>
    funext fun a => Fin.ext (by match a with | ⟨0, _⟩ => rfl | ⟨1, _⟩ => rfl)
  have h : ∀ k : Fin 64, val_main_v124 (F := Ideal) x0 x1 x3 x4 x5 x6 x7 x8 (idx_main_v125 (idx_main_v126 (ix2 r z)) k)
      = Cert.Spec.conv (val_main_v116 (F := Ideal) x0 x1 x3 x4 x5 x6 x7) (val_main_v83 (F := Ideal) x0 x1 x3 x4 x5 x6 x7)
          (Cert.Spec.col (val_main_v117 (F := Ideal) x1)) (Cert.Spec.row x8) (ix2 r k) := fun k => by
    rw [e k]; exact conv2_at x0 x1 x3 x4 x5 x6 x7 x8 r k
  rw [val_main_v128_apply, val_main_v126_apply, val_main_v125_apply, val_main_v127_apply, val_main_cst_27_apply,
    val_main_cst_26_apply, Ideal.hostDivf_def, Ideal.ofBits_def, Ideal.ofBits_def, Ideal.ofBits_zero_f32, zero_add]
  unfold Cert.Spec.rowMean Cert.Spec.width64
  rw [Finset.sum_congr rfl fun k _ => h k]

/-- The variance column of the second layer: entry (r, 0) is the sum over the 64 features of the squared deviation of
    row r's entries from the row's mean, divided by the float 64. -/
private theorem var2_at (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 100000) (z : Fin 1) :
    val_main_v135 (F := Ideal) x0 x1 x3 x4 x5 x6 x7 x8 (ix2 r z)
      = Cert.Spec.rowVar (Cert.Spec.conv (val_main_v116 (F := Ideal) x0 x1 x3 x4 x5 x6 x7) (val_main_v83 (F := Ideal) x0 x1 x3 x4 x5 x6 x7)
          (Cert.Spec.col (val_main_v117 (F := Ideal) x1)) (Cert.Spec.row x8)) r := by
  have e : ∀ k : Fin 64, idx_main_v132 (idx_main_v133 (ix2 r z)) k = ix2 r k := fun k =>
    funext fun a => Fin.ext (by match a with | ⟨0, _⟩ => rfl | ⟨1, _⟩ => rfl)
  have e' : ∀ k : Fin 64, idx_main_v129 (ix2 r k) = ix2 r (0 : Fin 1) := fun k =>
    funext fun a => Fin.ext (by match a with | ⟨0, _⟩ => rfl | ⟨1, _⟩ => rfl)
  have h : ∀ k : Fin 64, val_main_v131 (F := Ideal) x0 x1 x3 x4 x5 x6 x7 x8 (idx_main_v132 (idx_main_v133 (ix2 r z)) k)
      = (Cert.Spec.conv (val_main_v116 (F := Ideal) x0 x1 x3 x4 x5 x6 x7) (val_main_v83 (F := Ideal) x0 x1 x3 x4 x5 x6 x7)
            (Cert.Spec.col (val_main_v117 (F := Ideal) x1)) (Cert.Spec.row x8) (ix2 r k)
          - Cert.Spec.rowMean (Cert.Spec.conv (val_main_v116 (F := Ideal) x0 x1 x3 x4 x5 x6 x7) (val_main_v83 (F := Ideal) x0 x1 x3 x4 x5 x6 x7)
              (Cert.Spec.col (val_main_v117 (F := Ideal) x1)) (Cert.Spec.row x8)) r)
        * (Cert.Spec.conv (val_main_v116 (F := Ideal) x0 x1 x3 x4 x5 x6 x7) (val_main_v83 (F := Ideal) x0 x1 x3 x4 x5 x6 x7)
            (Cert.Spec.col (val_main_v117 (F := Ideal) x1)) (Cert.Spec.row x8) (ix2 r k)
          - Cert.Spec.rowMean (Cert.Spec.conv (val_main_v116 (F := Ideal) x0 x1 x3 x4 x5 x6 x7) (val_main_v83 (F := Ideal) x0 x1 x3 x4 x5 x6 x7)
              (Cert.Spec.col (val_main_v117 (F := Ideal) x1)) (Cert.Spec.row x8)) r) := fun k => by
    rw [e k, val_main_v131_apply, val_main_v130_apply, val_main_v129_apply, e' k, conv2_at, mean2_at,
      Ideal.mulf_def, Ideal.subf_def]
  rw [val_main_v135_apply, val_main_v133_apply, val_main_v132_apply, val_main_v134_apply, val_main_cst_29_apply,
    val_main_cst_28_apply, Ideal.hostDivf_def, Ideal.ofBits_def, Ideal.ofBits_def, Ideal.ofBits_zero_f32, zero_add]
  unfold Cert.Spec.rowVar Cert.Spec.width64
  rw [Finset.sum_congr rfl fun k _ => h k]

/-- The second layer's output. -/
theorem norm2 (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) :
    val_main_v149 (F := Ideal) x0 x1 x3 x4 x5 x6 x7 x8 x9 x10
      = Cert.Spec.lnRelu (Cert.Spec.conv (val_main_v116 (F := Ideal) x0 x1 x3 x4 x5 x6 x7) (val_main_v83 (F := Ideal) x0 x1 x3 x4 x5 x6 x7)
          (Cert.Spec.col (val_main_v117 (F := Ideal) x1)) (Cert.Spec.row x8)) (Cert.Spec.row x9) (Cert.Spec.row x10) := by
  funext i
  obtain ⟨r, j, rfl⟩ : ∃ (r : Fin 100000) (j : Fin 64), i = ix2 r j := ⟨i 0, i 1, eq_ix2 i⟩
  have ec : idx_main_v136 (ix2 r j) = ix2 r (0 : Fin 1) :=
    funext fun a => Fin.ext (by match a with | ⟨0, _⟩ => rfl | ⟨1, _⟩ => rfl)
  have es : idx_main_v141 (ix2 r j) = ix2 r (0 : Fin 1) :=
    funext fun a => Fin.ext (by match a with | ⟨0, _⟩ => rfl | ⟨1, _⟩ => rfl)
  have eg : idx_main_v143 (idx_main_v144 (ix2 r j)) = ix1 j :=
    funext fun a => Fin.ext (by match a with | ⟨0, _⟩ => rfl)
  have eb : idx_main_v146 (idx_main_v147 (ix2 r j)) = ix1 j :=
    funext fun a => Fin.ext (by match a with | ⟨0, _⟩ => rfl)
  rw [val_main_v149_apply, val_main_v148_apply, val_main_v145_apply, val_main_v142_apply, val_main_v137_apply,
    val_main_v136_apply, val_main_v141_apply, val_main_v140_apply, val_main_v139_apply, val_main_v138_apply,
    val_main_cst_30_apply, val_main_v144_apply, val_main_v143_apply, val_main_v147_apply, val_main_v146_apply,
    val_main_call1_v0_apply, val_main_call1_cst_apply, ec, es, eg, eb, conv2_at, mean2_at, var2_at]
  rw [Ideal.maximumf_def, Ideal.addf_def, Ideal.mulf_def, Ideal.mulf_def, Ideal.subf_def, Ideal.hostUnary_rsqrt_def,
    Ideal.addf_def, Ideal.ofBits_def, Ideal.ofBits_def]
  rfl

/-! ## The third layer -/

/-- The third layer's output (no normalisation): at row r, feature j of 128, the aggregated message of the second
    layer's outputs, plus the node's own projected feature times its squared inverse root degree, plus the entry j
    of the third bias. -/
theorem plain3 (x0 : (⟨S100000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) :
    val_main_v191 (F := Ideal) x0 x1 x3 x4 x5 x6 x7 x8 x9 x10 x11 x12
      = Cert.Spec.conv (val_main_v183 (F := Ideal) x0 x1 x3 x4 x5 x6 x7 x8 x9 x10 x11) (val_main_v150 (F := Ideal) x0 x1 x3 x4 x5 x6 x7 x8 x9 x10 x11)
          (Cert.Spec.col (val_main_v184 (F := Ideal) x1)) (Cert.Spec.row x12) := by
  funext i
  obtain ⟨r, j, rfl⟩ : ∃ (r : Fin 100000) (j : Fin 128), i = ix2 r j := ⟨i 0, i 1, eq_ix2 i⟩
  have e1 : idx_main_v185 (idx_main_v186 (ix2 r j)) = ix1 r :=
    funext fun a => Fin.ext (by match a with | ⟨0, _⟩ => rfl)
  have e2 : idx_main_v189 (idx_main_v190 (ix2 r j)) = ix1 j :=
    funext fun a => Fin.ext (by match a with | ⟨0, _⟩ => rfl)
  rw [val_main_v191_apply, val_main_v188_apply, val_main_v187_apply, val_main_v186_apply, val_main_v185_apply,
    val_main_v190_apply, val_main_v189_apply, e1, e2]
  simp only [Ideal.addf_def, Ideal.mulf_def, Cert.Spec.conv, Cert.Spec.col, Cert.Spec.row]

end Cert.RefStages

end
-- ==== Proof.RefPool.lean ====
/-
  The reference's segment sum: scattering the rows of a feature array into 64 rows of zeros at the positions a column of
  segment words names adds, into row s, exactly the rows whose word is s; a word outside 0 … 63 names no row.

  The scatter sends update (n, f) to the entry (start + window) of the result, axis by axis. On the row axis the start
  is the word at (n, 0) of the segment column read as a signed integer and the window coordinate is 0; on the column
  axis the start is 0 and the window coordinate is f. So update (n, f) lands on (s, f') exactly when that word, signed,
  is s and f = f'; when the word is negative or at least 64 the update lands nowhere. The sum over all updates landing
  on (s, f') is therefore a sum over the rows n alone, of h (n, f') where row n's word is s and of 0 elsewhere.
-/
import proofs.«402218_j7911329759934_1_alg».proof.Proof.RefRead
import proofs.«402218_j7911329759934_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefStages

open Cert.ReferenceIdeal Cert.RefRead Idealize.ShloMosaic Idealize.ShloMosaic.TcCoe
open Idealize.ShloMosaic.ValueIdx

/-- The dimension numbers of the segment scatter: 64 × 128 result, 100000 × 1 column of words, 100000 × 128 updates;
    the updates' column axis is the window, the result's row axis is the one the words address. -/
private abbrev segDims : ScatterDims S64x128 S100000x1 S100000x128 := scatter_S64x128_S100000x1_S100000x128_1_0_0_1

/-- Update (n, f) reads its start word at (n, 0) of the segment column: the words have one component only. -/
private theorem siIdx_seg (j : S100000x128.Idx) (c : Fin segDims.scatterDimsToOperandDims.length) :
    segDims.siIdx j c = ix2 (j 0) 0 := by
  funext b; refine Fin.ext ?_
  match b with
  | ⟨0, _⟩ => rfl
  | ⟨1, _⟩ =>
    show c.val = 0
    have hc := c.isLt
    have hlen : segDims.scatterDimsToOperandDims.length = 1 := rfl
    omega

/-- On the row axis the window starts at the update's segment word, read signed. -/
private theorem start_seg_0 (j : S100000x128.Idx) (idx : IVec S100000x1 32) :
    segDims.start j idx 0 = (idx (ix2 (j 0) 0)).toInt := by
  unfold ScatterDims.start
  rw [dif_pos (show (0 : Fin 2) ∈ segDims.scatterDimsToOperandDims from List.mem_singleton.mpr rfl), siIdx_seg]
  rfl

/-- On the column axis, which no word addresses, the window starts at 0. -/
private theorem start_seg_1 (j : S100000x128.Idx) (idx : IVec S100000x1 32) :
    segDims.start j idx 1 = 0 := by
  unfold ScatterDims.start
  rw [dif_neg (show ¬ (1 : Fin 2) ∈ segDims.scatterDimsToOperandDims by decide)]

/-- The row axis is inserted: its window coordinate is 0. -/
private theorem window_seg_0 (j : S100000x128.Idx) : segDims.window j 0 = 0 := by
  unfold ScatterDims.window
  rw [dif_neg (show ¬ (0 : Fin 2) ∈ segDims.sKept by decide)]

/-- The column axis carries the window: its coordinate is the update's column. -/
private theorem window_seg_1 (j : S100000x128.Idx) : segDims.window j 1 = (j 1).val := by
  unfold ScatterDims.window
  rw [dif_pos (show (1 : Fin 2) ∈ segDims.sKept by decide)]
  rfl

/-- An update lands on an entry of the result exactly when its word, read signed, is the entry's row and the update
    sits in the entry's column. In one direction the landing index exists only if start + window is inside the result
    on both axes, and is then that sum; in the other the two equations put the sum inside 64 × 128. -/
private theorem resultIdx_seg_iff (idx : IVec S100000x1 32) (j : S100000x128.Idx) (i : S64x128.Idx) :
    segDims.resultIdx? j idx = some i ↔ (idx (ix2 (j 0) 0)).toInt = ((i 0).val : Int) ∧ (j 1).val = (i 1).val := by
  unfold ScatterDims.resultIdx?
  have hi0 : (i 0).val < 64 := (i 0).isLt
  have hi1 : (i 1).val < 128 := (i 1).isLt
  have hj1 : (j 1).val < 128 := (j 1).isLt
  constructor
  · intro hres
    split at hres
    · rename_i hall
      have e := Option.some.inj hres
      have e0 := congrArg (fun k : S64x128.Idx => (k 0).val) e
      have e1 := congrArg (fun k : S64x128.Idx => (k 1).val) e
      have h0 := hall 0
      have h1 := hall 1
      simp only [start_seg_0, start_seg_1, window_seg_0, window_seg_1] at e0 e1 h0 h1
      constructor
      · omega
      · omega
    · exact absurd hres (by simp)
  · rintro ⟨h0, h1⟩
    have hall : ∀ a, 0 ≤ segDims.start j idx a + segDims.window j a ∧
        segDims.start j idx a + segDims.window j a < S64x128.size a := by
      intro a
      match a with
      | ⟨0, _⟩ =>
        show 0 ≤ segDims.start j idx 0 + segDims.window j 0 ∧ segDims.start j idx 0 + segDims.window j 0 < (64 : Nat)
        rw [start_seg_0, window_seg_0]; omega
      | ⟨1, _⟩ =>
        show 0 ≤ segDims.start j idx 1 + segDims.window j 1 ∧ segDims.start j idx 1 + segDims.window j 1 < (128 : Nat)
        rw [start_seg_1, window_seg_1]; omega
    rw [dif_pos hall]
    congr 1
    funext a
    refine Fin.ext ?_
    match a with
    | ⟨0, _⟩ =>
      show (segDims.start j idx 0 + segDims.window j 0).toNat = (i 0).val
      rw [start_seg_0, window_seg_0]; omega
    | ⟨1, _⟩ =>
      show (segDims.start j idx 1 + segDims.window j 1).toNat = (i 1).val
      rw [start_seg_1, window_seg_1]; omega

/-- A 32-bit word read as a signed integer is `s`, for `s` below 64, exactly when it is the word of `s`: a word whose
    top bit is set reads negative, and below 2³¹ the signed and unsigned readings agree. -/
private theorem toInt_eq_row_iff (w : BitVec 32) (s : Nat) (hs : s < 64) :
    w.toInt = (s : Int) ↔ w = BitVec.ofNat 32 s := by
  have hw : w.toNat < 2 ^ 32 := w.isLt
  constructor
  · intro e
    apply BitVec.eq_of_toNat_eq
    rw [BitVec.toNat_ofNat]
    rw [BitVec.toInt_eq_toNat_cond] at e
    split at e <;> omega
  · rintro rfl
    rw [BitVec.toInt_eq_toNat_cond, BitVec.toNat_ofNat]
    split <;> omega

/-- A sum over the 128 columns of terms that vanish off column `q` is the term at `q`. -/
private theorem sum_one_column (g : Fin 128 → EReal) (q : Fin 128) :
    (∑ f : Fin 128, if f.val = q.val then g f else 0) = g q := by
  have hq : ∀ f : Fin 128, (f.val = q.val) ↔ f = q := fun f => Fin.ext_iff.symm
  simp only [hq]
  rw [Finset.sum_ite_eq' Finset.univ q g, if_pos (Finset.mem_univ _)]

/-- The segment column at row `n` is the segment vector's word `n`. -/
private theorem segCol_apply (x2 : (⟨S100000, .i32⟩ : BufTy).Contents (Elt Ideal)) (n : Fin 100000) :
    val_main_v193 (F := Ideal) x2 (ix2 n 0) = Cert.Spec.icol x2 (ix2 n 0) := by
  rw [val_main_v193_apply]
  unfold Cert.Spec.icol
  congr 1
  funext a
  match a with
  | ⟨0, _⟩ => rfl

/-- The scatter-add of a 100000 × 128 array by the segment column is the segment sum: entry (s, f) is 0 plus the sum of
    the updates landing on it; split by row and column of the update, the column sum keeps the one column f, and the
    row's condition "the word, signed, is s" is "the word is the word of s". -/
theorem pool (x2 : (⟨S100000, .i32⟩ : BufTy).Contents (Elt Ideal)) (h : (⟨S100000x128, .f32⟩ : BufTy).Contents (Elt Ideal)) :
    Host.scatterAdd (F := Ideal) (φ := .f32) scatter_S64x128_S100000x1_S100000x128_1_0_0_1 (val_main_v192 (F := Ideal)) (val_main_v193 (F := Ideal) x2) h
      = Cert.Spec.pool h (Cert.Spec.icol x2) := by
  funext i
  show Ideal.hostScatterAdd segDims (val_main_v192 (F := Ideal)) (val_main_v193 (F := Ideal) x2) h i = _
  unfold Ideal.hostScatterAdd Cert.Spec.pool
  rw [val_main_v192_apply, val_main_cst_40_apply]
  show Ideal.ofBits .f32 0x00000000#32 + _ = _
  rw [Ideal.ofBits_zero_f32, zero_add, Finset.sum_filter, sum_idx2]
  refine Finset.sum_congr rfl fun n _ => ?_
  have hi0 : (i 0).val < 64 := (i 0).isLt
  simp only [resultIdx_seg_iff]
  show (∑ f : Fin 128, if (val_main_v193 (F := Ideal) x2 (ix2 n 0)).toInt = ((i 0).val : Int) ∧ f.val = (i 1).val
      then h (ix2 n f) else 0) = _
  rw [segCol_apply]
  by_cases hw : Cert.Spec.icol x2 (ix2 n 0) = BitVec.ofNat 32 (i 0).val
  · have hrow : (Cert.Spec.icol x2 (ix2 n 0)).toInt = ((i 0).val : Int) := (toInt_eq_row_iff _ _ hi0).mpr hw
    rw [if_pos hw]
    simp only [hrow, true_and]
    exact sum_one_column (fun f => h (ix2 n f)) (i 1)
  · have hrow : ¬ (Cert.Spec.icol x2 (ix2 n 0)).toInt = ((i 0).val : Int) :=
      fun e => hw ((toInt_eq_row_iff _ _ hi0).mp e)
    rw [if_neg hw]
    simp only [hrow, false_and, if_false, Finset.sum_const_zero]

end Cert.RefStages

end
-- ==== Proof.KernelValue.lean ====
/-
  The kernel program's result, read back through its seven regions. At the extended reals each region's array is a
  dense stage of the graph encoder — a projection, a normalised convolution, the last plain convolution, the segment
  sums — of the arrays it finds, and so is the matching block of the reference's host operations; the stretches of
  host operations between the regions are the reference's own. Boundary by boundary, the array each region leaves is
  therefore the reference's stage of the launched arguments, and the result is the reference's last stage.
-/
import proofs.«402218_j7911329759934_1_alg».proof.Proof.KernelGlue
import proofs.«402218_j7911329759934_1_alg».proof.Proof.RegProj0
import proofs.«402218_j7911329759934_1_alg».proof.Proof.RegProj2
import proofs.«402218_j7911329759934_1_alg».proof.Proof.RegProj4
import proofs.«402218_j7911329759934_1_alg».proof.Proof.RegNorm1
import proofs.«402218_j7911329759934_1_alg».proof.Proof.RegNorm3
import proofs.«402218_j7911329759934_1_alg».proof.Proof.RegPlain5
import proofs.«402218_j7911329759934_1_alg».proof.Proof.RegPool6
import proofs.«402218_j7911329759934_1_alg».proof.Proof.RefProj
import proofs.«402218_j7911329759934_1_alg».proof.Proof.RefNorm
import proofs.«402218_j7911329759934_1_alg».proof.Proof.RefPool
import Idealize.ShloMosaic.Lib.ValueLayout

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo
open Idealize.ShloMosaic.ValueIdx

/-! ## A vector re-laid as a column or as a row -/

/-- A vector of n entries cast to [n, 1] reads, at (r, 0), its entry r. -/
theorem cast_col_apply {α : Type} {n : Nat} (v : (⟨1, ![n]⟩ : Shape).Idx → α)
    (h : (⟨1, ![n]⟩ : Shape).ShapeCasts ⟨2, ![n, 1]⟩) (i : (⟨2, ![n, 1]⟩ : Shape).Idx) :
    shapeCast ⟨2, ![n, 1]⟩ v h i = v (ix1 (i 0)) :=
  shapeCast_apply v h _ _ (by
    have h1 : (i 1).val < 1 := (i 1).isLt
    rw [Shape.rowMajor_val_two, Shape.rowMajor_val_one]
    show (i 0).val = (i 0).val * 1 + (i 1).val
    omega)

theorem cast_col (v : S100000.Idx → EReal) :
    shapeCast S100000x1 v shapeCasts_S100000_S100000x1 = Cert.Spec.col v :=
  funext fun i => cast_col_apply v _ i

theorem cast_icol (v : S100000.Idx → BitVec 32) :
    shapeCast S100000x1 v shapeCasts_S100000_S100000x1 = Cert.Spec.icol v :=
  funext fun i => cast_col_apply v _ i

theorem cast_row64 (v : S64.Idx → EReal) : shapeCast S1x64 v shapeCasts_S64_S1x64 = Cert.Spec.row v :=
  funext fun i => by
    obtain ⟨p, q, rfl⟩ : ∃ (p : Fin 1) (q : Fin 64), i = ix2 p q := ⟨i 0, i 1, eq_ix2 i⟩
    exact shapeCast_a_1a_apply v _ p q

theorem cast_row128 (v : S128.Idx → EReal) : shapeCast S1x128 v shapeCasts_S128_S1x128 = Cert.Spec.row v :=
  funext fun i => by
    obtain ⟨p, q, rfl⟩ : ∃ (p : Fin 1) (q : Fin 128), i = ix2 p q := ⟨i 0, i 1, eq_ix2 i⟩
    exact shapeCast_a_1a_apply v _ p q

variable (m : (ℓ : Loc nD τ sig) → Buf (Elt Ideal) ℓ) (ρ : Dev nD → PrngReg)

/-! ## The seven regions, in order -/

/-- After region 0: the first projection x · W1. -/
theorem v33 (c : Dev nD) : W2 m ρ c (Proc.devRef .tc main_v33) = Cert.RefRead.val_main_v16 (F := Ideal) (m ((c : Thread nD τ).loc main_arg0)) (m ((c : Thread nD τ).loc main_arg3)) := by
  have h := Cert.KernelIdeal.RegionValue.proj0 (V1 m ρ) c
  have e0 : V1 m ρ c (Pipeline.arrRef spec0 0) = (m ((c : Thread nD τ).loc main_arg0)) := Cert.KernelIdeal.Glue.w1_arg m ρ c main_arg0 (by decide)
  have e1 : V1 m ρ c (Pipeline.arrRef spec0 1) = (m ((c : Thread nD τ).loc main_arg3)) := Cert.KernelIdeal.Glue.w1_arg m ρ c main_arg3 (by decide)
  rw [e0, e1] at h
  refine (W2_arr m ρ c 2).trans (h.trans ?_)
  unfold Cert.RefRead.val_main_v16
  exact (Cert.RefStages.dot64 _ _).symm

set_option maxHeartbeats 2000000 in
/-- After region 1: the first layer's normalised output. -/
theorem v55 (c : Dev nD) : W4 m ρ c (Proc.devRef .tc main_v55) = Cert.RefRead.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h := Cert.KernelIdeal.RegionValue.norm1 (V3 m ρ) c
  have e0 : V3 m ρ c (Pipeline.arrRef spec1 0) = Cert.RefRead.val_main_v49 (F := Ideal) (m ((c : Thread nD τ).loc main_arg0)) (m ((c : Thread nD τ).loc main_arg1)) (m ((c : Thread nD τ).loc main_arg3)) := Cert.KernelIdeal.Glue.w3_v51 m ρ c (v33 m ρ c)
  have e1 : V3 m ρ c (Pipeline.arrRef spec1 1) = Cert.RefRead.val_main_v16 (F := Ideal) (m ((c : Thread nD τ).loc main_arg0)) (m ((c : Thread nD τ).loc main_arg3)) := (Cert.KernelIdeal.Glue.w3_v33 m ρ c).trans (v33 m ρ c)
  have e2 : V3 m ρ c (Pipeline.arrRef spec1 2) = Cert.Spec.col (Cert.RefRead.val_main_v50 (F := Ideal) (m ((c : Thread nD τ).loc main_arg1))) := (Cert.KernelIdeal.Glue.w3_v32 m ρ c).trans (cast_col _)
  have e3 : V3 m ρ c (Pipeline.arrRef spec1 3) = Cert.Spec.row (m ((c : Thread nD τ).loc main_arg4)) := (Cert.KernelIdeal.Glue.w3_v52 m ρ c).trans (cast_row64 _)
  have e4 : V3 m ρ c (Pipeline.arrRef spec1 4) = Cert.Spec.row (m ((c : Thread nD τ).loc main_arg5)) := (Cert.KernelIdeal.Glue.w3_v53 m ρ c).trans (cast_row64 _)
  have e5 : V3 m ρ c (Pipeline.arrRef spec1 5) = Cert.Spec.row (m ((c : Thread nD τ).loc main_arg6)) := (Cert.KernelIdeal.Glue.w3_v54 m ρ c).trans (cast_row64 _)
  exact (W4_arr m ρ c 6).trans ((h.trans (congr (congr (congrArg (@Cert.Spec.lnRelu 100000) (congr (congr (congr (congrArg (@Cert.Spec.conv 100000 64) e0) e1) e2) e3)) e4) e5)).trans (Cert.RefStages.norm1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm)

/-- After region 2: the second projection. -/
theorem v56 (c : Dev nD) : W5 m ρ c (Proc.devRef .tc main_v56) = Cert.RefRead.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have h := Cert.KernelIdeal.RegionValue.proj2 (V4 m ρ) c
  have e0 : V4 m ρ c (Pipeline.arrRef spec2 0) = Cert.RefRead.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := v55 m ρ c
  have e1 : V4 m ρ c (Pipeline.arrRef spec2 1) = (m ((c : Thread nD τ).loc main_arg7)) := Cert.KernelIdeal.Glue.w4_arg7 m ρ c
  rw [e0, e1] at h
  refine (W5_arr m ρ c 2).trans (h.trans ?_)
  unfold Cert.RefRead.val_main_v83
  exact (Cert.RefStages.dot64 _ _).symm

/-- The reference squares the inverse root degrees anew in each layer: one and the same array. -/
theorem sq2 (x1 : (⟨Cert.ReferenceIdeal.S2x800000, .i32⟩ : BufTy).Contents (Elt Ideal)) :
    Cert.RefRead.val_main_v117 (F := Ideal) x1 = Cert.RefRead.val_main_v50 (F := Ideal) x1 := rfl
theorem sq3 (x1 : (⟨Cert.ReferenceIdeal.S2x800000, .i32⟩ : BufTy).Contents (Elt Ideal)) :
    Cert.RefRead.val_main_v184 (F := Ideal) x1 = Cert.RefRead.val_main_v50 (F := Ideal) x1 := rfl

set_option maxHeartbeats 2000000 in
/-- After region 3: the second layer's normalised output. -/
theorem v78 (c : Dev nD) : W7 m ρ c (Proc.devRef .tc main_v78) = Cert.RefRead.val_main_v149 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := Cert.KernelIdeal.RegionValue.norm3 (V6 m ρ) c
  have e0 : V6 m ρ c (Pipeline.arrRef spec3 0) = Cert.RefRead.val_main_v116 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := Cert.KernelIdeal.Glue.w6_v74 m ρ c (v56 m ρ c)
  have e1 : V6 m ρ c (Pipeline.arrRef spec3 1) = Cert.RefRead.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := (Cert.KernelIdeal.Glue.w6_v56 m ρ c).trans (v56 m ρ c)
  have e2 : V6 m ρ c (Pipeline.arrRef spec3 2) = Cert.Spec.col (Cert.RefRead.val_main_v117 (F := Ideal) (m ((c : Thread nD τ).loc main_arg1))) :=
    (Cert.KernelIdeal.Glue.w6_v32 m ρ c).trans ((cast_col _).trans (congrArg Cert.Spec.col (sq2 _).symm))
  have e3 : V6 m ρ c (Pipeline.arrRef spec3 3) = Cert.Spec.row (m ((c : Thread nD τ).loc main_arg8)) := (Cert.KernelIdeal.Glue.w6_v75 m ρ c).trans (cast_row64 _)
  have e4 : V6 m ρ c (Pipeline.arrRef spec3 4) = Cert.Spec.row (m ((c : Thread nD τ).loc main_arg9)) := (Cert.KernelIdeal.Glue.w6_v76 m ρ c).trans (cast_row64 _)
  have e5 : V6 m ρ c (Pipeline.arrRef spec3 5) = Cert.Spec.row (m ((c : Thread nD τ).loc main_arg10)) := (Cert.KernelIdeal.Glue.w6_v77 m ρ c).trans (cast_row64 _)
  exact (W7_arr m ρ c 6).trans ((h.trans (congr (congr (congrArg (@Cert.Spec.lnRelu 100000) (congr (congr (congr (congrArg (@Cert.Spec.conv 100000 64) e0) e1) e2) e3)) e4) e5)).trans (Cert.RefStages.norm2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm)

/-- After region 4: the third projection. -/
theorem v79 (c : Dev nD) : W8 m ρ c (Proc.devRef .tc main_v79) = Cert.RefRead.val_main_v150 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := Cert.KernelIdeal.RegionValue.proj4 (V7 m ρ) c
  have e0 : V7 m ρ c (Pipeline.arrRef spec4 0) = Cert.RefRead.val_main_v149 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := v78 m ρ c
  have e1 : V7 m ρ c (Pipeline.arrRef spec4 1) = (m ((c : Thread nD τ).loc main_arg11)) := Cert.KernelIdeal.Glue.w7_arg11 m ρ c
  rw [e0, e1] at h
  refine (W8_arr m ρ c 2).trans (h.trans ?_)
  unfold Cert.RefRead.val_main_v150
  exact (Cert.RefStages.dot128 _ _).symm

/-- After region 5: the third layer's output. -/
theorem v99 (c : Dev nD) : W10 m ρ c (Proc.devRef .tc main_v99) = Cert.RefRead.val_main_v191 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h := Cert.KernelIdeal.RegionValue.plain5 (V9 m ρ) c
  have e0 : V9 m ρ c (Pipeline.arrRef spec5 0) = Cert.RefRead.val_main_v183 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := Cert.KernelIdeal.Glue.w9_v97 m ρ c (v79 m ρ c)
  have e1 : V9 m ρ c (Pipeline.arrRef spec5 1) = Cert.RefRead.val_main_v150 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := (Cert.KernelIdeal.Glue.w9_v79 m ρ c).trans (v79 m ρ c)
  have e2 : V9 m ρ c (Pipeline.arrRef spec5 2) = Cert.Spec.col (Cert.RefRead.val_main_v184 (F := Ideal) (m ((c : Thread nD τ).loc main_arg1))) :=
    (Cert.KernelIdeal.Glue.w9_v32 m ρ c).trans ((cast_col _).trans (congrArg Cert.Spec.col (sq3 _).symm))
  have e3 : V9 m ρ c (Pipeline.arrRef spec5 3) = Cert.Spec.row (m ((c : Thread nD τ).loc main_arg12)) := (Cert.KernelIdeal.Glue.w9_v98 m ρ c).trans (cast_row128 _)
  rw [e0, e1, e2, e3] at h
  exact (W10_arr m ρ c 4).trans (h.trans (Cert.RefStages.plain3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm)

/-- After region 6: the segment sums. -/
theorem v101 (c : Dev nD) : W12 m ρ c (Proc.devRef .tc main_v101) = Cert.RefRead.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h := Cert.KernelIdeal.RegionValue.pool6 (V11 m ρ) c
  have e0 : V11 m ρ c (Pipeline.arrRef spec6 0) = Cert.RefRead.val_main_v191 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := (Cert.KernelIdeal.Glue.w11_v99 m ρ c).trans (v99 m ρ c)
  have e1 : V11 m ρ c (Pipeline.arrRef spec6 1) = Cert.Spec.icol (m ((c : Thread nD τ).loc main_arg2)) := (Cert.KernelIdeal.Glue.w11_v100 m ρ c).trans (cast_icol _)
  rw [e0, e1] at h
  refine (W12_arr m ρ c 2).trans (h.trans ?_)
  unfold Cert.RefRead.val_main_v194
  exact (Cert.RefStages.pool _ _).symm

/-- The result array, at the last boundary, is the reference's last stage of the launched arguments. -/
theorem result (c : Dev nD) : W13 m ρ c (Proc.devRef .tc main_v110) = Cert.RefRead.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  Cert.KernelIdeal.Glue.w13_v110 m ρ c (v101 m ρ c)

end Cert.KernelIdeal.Value

end
-- ==== Proof.RefRun.lean ====
/-
  The reference program's run, read back over its stages. The 254 host operations are taken in ten consecutive parts; after
  each part the buffers later parts still read hold the corresponding stage functions of the launched arguments (the
  edge endpoints, the inverse root degrees, the layer's projected features, edge coefficients and output), and no part
  writes an argument. Every weakly fair execution therefore terminates with the result buffer at the last stage, the
  pooled sums divided by the clamped counts, of the arguments as launched.
-/
import proofs.«402218_j7911329759934_1_alg».proof.Proof.RefOps
import proofs.«402218_j7911329759934_1_alg».proof.Proof.RefRead

noncomputable section

namespace Cert.RefRun

open Cert.ReferenceIdeal Cert.ReferenceIdeal.Gen Cert.RefOps Cert.RefRead
open Idealize.ShloMosaic Idealize.ShloMosaic.TcCoe Idealize.SL.Sem Idealize.ShloMosaic.StableHlo

variable {F : FTy → Type} [FloatOps F]

/-! ## The buffers that stay as launched

No operation of the reference writes one of @main's thirteen arguments, so whatever part has run, an argument
buffer still holds its launch contents. -/

/-- @main's arguments. -/
abbrev argRefs : List (Ref sig .tc) :=
  [main_arg0, main_arg1, main_arg2, main_arg3, main_arg4, main_arg5, main_arg6, main_arg7, main_arg8, main_arg9,
   main_arg10, main_arg11, main_arg12]

/-! ## Part 0: the edge endpoints and the inverse root degrees

The first 21 operations cut the edge list into its source row and its target row, count for every node the edges that
end at it (a scatter of ones over the wrapped target ids), add the self loop and take the inverse square root. -/

/-- The device's buffer contents after part 0. -/
def val1 (V0 : Valuation τ sig (Elt F)) : Valuation τ sig (Elt F) := after ops_part0 V0

/-- The buffers part 0 writes. -/
abbrev ops_part0_W : List (Ref sig .tc) :=
  [main_v0, main_v1, main_v2, main_v3, main_cst, main_v4, main_cst_0, main_v5, main_c, main_v6, main_v7, main_c_1,
   main_v8, main_v9, main_v10, main_v11, main_v12, main_cst_2, main_v13, main_v14, main_v15]

set_option maxRecDepth 8192 in
theorem ops_part0_writes : (ops_part0 : List (HloOp τ sig (Elt F))).Forall fun op =>
    op.writes ⊆ (ops_part0_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 0 does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h

theorem val1_arg (V0 : Valuation τ sig (Elt F)) (r : Ref sig .tc) (h : r ∈ argRefs) :
    val1 V0 (Proc.devRef .tc r) = V0 (Proc.devRef .tc r) :=
  val1_keep V0 r ((by decide : ∀ r ∈ argRefs, r ∉ ops_part0_W) r h)

theorem val1_main_arg0 (V0 : Valuation τ sig (Elt F)) :
    val1 V0 (no_index (Proc.devRef .tc main_arg0)) = V0 (Proc.devRef .tc main_arg0) := val1_arg V0 main_arg0 (by decide)
theorem val1_main_arg3 (V0 : Valuation τ sig (Elt F)) :
    val1 V0 (no_index (Proc.devRef .tc main_arg3)) = V0 (Proc.devRef .tc main_arg3) := val1_arg V0 main_arg3 (by decide)

set_option maxRecDepth 8192 in
/-- The source ids of the edges: row 0 of the edge list, as a vector. -/
theorem val1_main_v1 (V0 : Valuation τ sig (Elt F)) :
    val1 V0 (no_index (Proc.devRef .tc main_v1)) = val_main_v1 (F := F) (V0 (Proc.devRef .tc main_arg1)) := by
  unfold val1
  simp only [ops_part0]
  after_results_simp
  rfl

set_option maxRecDepth 8192 in
/-- The target ids of the edges: row 1 of the edge list, as a vector. -/
theorem val1_main_v3 (V0 : Valuation τ sig (Elt F)) :
    val1 V0 (no_index (Proc.devRef .tc main_v3)) = val_main_v3 (F := F) (V0 (Proc.devRef .tc main_arg1)) := by
  unfold val1
  simp only [ops_part0]
  after_results_simp
  rfl

set_option maxRecDepth 8192 in
/-- The inverse root degrees: one over the square root of (in-degree + 1), node by node. -/
theorem val1_main_v15 (V0 : Valuation τ sig (Elt F)) :
    val1 V0 (no_index (Proc.devRef .tc main_v15)) = val_main_v15 (F := F) (V0 (Proc.devRef .tc main_arg1)) := by
  unfold val1
  simp only [ops_part0]
  after_results_simp
  rfl

/-! ## Part 1: the first layer's projected features and edge coefficients

Operations 21 to 40 multiply the node features by the first weight matrix, and give every edge the product of the
inverse root degrees of its two endpoints (each endpoint id wrapped once if negative, then looked up). -/

/-- The device's buffer contents after parts 0 and 1. -/
def val2 (V0 : Valuation τ sig (Elt F)) : Valuation τ sig (Elt F) := after ops_part1 (val1 V0)

/-- The buffers part 1 writes. -/
abbrev ops_part1_W : List (Ref sig .tc) :=
  [main_v16, main_c_3, main_v17, main_v18, main_c_4, main_v19, main_v20, main_v21, main_v22, main_v23, main_c_5,
   main_v24, main_v25, main_c_6, main_v26, main_v27, main_v28, main_v29, main_v30, main_v31]

set_option maxRecDepth 8192 in
theorem ops_part1_writes : (ops_part1 : List (HloOp τ sig (Elt F))).Forall fun op =>
    op.writes ⊆ (ops_part1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h

theorem val2_arg (V0 : Valuation τ sig (Elt F)) (r : Ref sig .tc) (h : r ∈ argRefs) :
    val2 V0 (Proc.devRef .tc r) = V0 (Proc.devRef .tc r) :=
  (val2_keep V0 r ((by decide : ∀ r ∈ argRefs, r ∉ ops_part1_W) r h)).trans (val1_arg V0 r h)

theorem val2_main_arg4 (V0 : Valuation τ sig (Elt F)) :
    val2 V0 (no_index (Proc.devRef .tc main_arg4)) = V0 (Proc.devRef .tc main_arg4) := val2_arg V0 main_arg4 (by decide)
theorem val2_main_v1 (V0 : Valuation τ sig (Elt F)) :
    val2 V0 (no_index (Proc.devRef .tc main_v1)) = val_main_v1 (F := F) (V0 (Proc.devRef .tc main_arg1)) :=
  (val2_keep V0 main_v1 (by decide)).trans (val1_main_v1 V0)
theorem val2_main_v3 (V0 : Valuation τ sig (Elt F)) :
    val2 V0 (no_index (Proc.devRef .tc main_v3)) = val_main_v3 (F := F) (V0 (Proc.devRef .tc main_arg1)) :=
  (val2_keep V0 main_v3 (by decide)).trans (val1_main_v3 V0)
theorem val2_main_v15 (V0 : Valuation τ sig (Elt F)) :
    val2 V0 (no_index (Proc.devRef .tc main_v15)) = val_main_v15 (F := F) (V0 (Proc.devRef .tc main_arg1)) :=
  (val2_keep V0 main_v15 (by decide)).trans (val1_main_v15 V0)

set_option maxRecDepth 8192 in
/-- The features times the first weight matrix. -/
theorem val2_main_v16 (V0 : Valuation τ sig (Elt F)) :
    val2 V0 (no_index (Proc.devRef .tc main_v16))
      = val_main_v16 (F := F) (V0 (Proc.devRef .tc main_arg0)) (V0 (Proc.devRef .tc main_arg3)) := by
  unfold val2
  simp only [ops_part1]
  after_results_simp
  simp only [val1_main_arg0, val1_main_arg3] <;> rfl

set_option maxRecDepth 8192 in
/-- An edge's coefficient: the inverse root degree of its source times that of its target. -/
theorem val2_main_v31 (V0 : Valuation τ sig (Elt F)) :
    val2 V0 (no_index (Proc.devRef .tc main_v31)) = val_main_v31 (F := F) (V0 (Proc.devRef .tc main_arg1)) := by
  unfold val2
  simp only [ops_part1]
  after_results_simp
  simp only [val1_main_v1, val1_main_v3, val1_main_v15] <;> rfl

/-! ## Part 2: the first layer's aggregation

Operations 41 to 71 carry every edge's coefficient times its source's projected row to the edge's target (a scatter
sum from zero), add each node's own row weighted by its squared inverse root degree, and add the bias. -/

/-- The device's buffer contents after parts 0 to 2. -/
def val3 (V0 : Valuation τ sig (Elt F)) : Valuation τ sig (Elt F) := after ops_part2 (val2 V0)

/-- The buffers part 2 writes. -/
abbrev ops_part2_W : List (Ref sig .tc) :=
  [main_cst_7, main_v32, main_c_8, main_v33, main_v34, main_c_9, main_v35, main_v36, main_v37, main_v38, main_v39,
   main_v40, main_v41, main_v42, main_c_10, main_v43, main_v44, main_c_11, main_v45, main_v46, main_v47, main_v48,
   main_v49, main_v50, main_v51, main_v52, main_v53, main_v54, main_v55, main_v56, main_v57]

set_option maxRecDepth 8192 in
theorem ops_part2_writes : (ops_part2 : List (HloOp τ sig (Elt F))).Forall fun op =>
    op.writes ⊆ (ops_part2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h

theorem val3_arg (V0 : Valuation τ sig (Elt F)) (r : Ref sig .tc) (h : r ∈ argRefs) :
    val3 V0 (Proc.devRef .tc r) = V0 (Proc.devRef .tc r) :=
  (val3_keep V0 r ((by decide : ∀ r ∈ argRefs, r ∉ ops_part2_W) r h)).trans (val2_arg V0 r h)

theorem val3_main_arg5 (V0 : Valuation τ sig (Elt F)) :
    val3 V0 (no_index (Proc.devRef .tc main_arg5)) = V0 (Proc.devRef .tc main_arg5) := val3_arg V0 main_arg5 (by decide)
theorem val3_main_arg6 (V0 : Valuation τ sig (Elt F)) :
    val3 V0 (no_index (Proc.devRef .tc main_arg6)) = V0 (Proc.devRef .tc main_arg6) := val3_arg V0 main_arg6 (by decide)
theorem val3_main_v1 (V0 : Valuation τ sig (Elt F)) :
    val3 V0 (no_index (Proc.devRef .tc main_v1)) = val_main_v1 (F := F) (V0 (Proc.devRef .tc main_arg1)) :=
  (val3_keep V0 main_v1 (by decide)).trans (val2_main_v1 V0)
theorem val3_main_v3 (V0 : Valuation τ sig (Elt F)) :
    val3 V0 (no_index (Proc.devRef .tc main_v3)) = val_main_v3 (F := F) (V0 (Proc.devRef .tc main_arg1)) :=
  (val3_keep V0 main_v3 (by decide)).trans (val2_main_v3 V0)
theorem val3_main_v15 (V0 : Valuation τ sig (Elt F)) :
    val3 V0 (no_index (Proc.devRef .tc main_v15)) = val_main_v15 (F := F) (V0 (Proc.devRef .tc main_arg1)) :=
  (val3_keep V0 main_v15 (by decide)).trans (val2_main_v15 V0)

set_option maxRecDepth 8192 in
/-- The first layer's output before normalisation: neighbour sum, self term and bias. -/
theorem val3_main_v57 (V0 : Valuation τ sig (Elt F)) :
    val3 V0 (no_index (Proc.devRef .tc main_v57))
      = val_main_v57 (F := F) (V0 (Proc.devRef .tc main_arg0)) (V0 (Proc.devRef .tc main_arg1))
          (V0 (Proc.devRef .tc main_arg3)) (V0 (Proc.devRef .tc main_arg4)) := by
  unfold val3
  simp only [ops_part2]
  after_results_simp
  simp only [val2_main_v1, val2_main_v3, val2_main_v15, val2_main_v16, val2_main_v31, val2_main_arg4] <;> rfl

/-! ## Part 3: the first layer's row normalisation and rectifier

Operations 72 to 103 centre every row on its mean over the 64 features, divide by the root of the row's variance plus
a small constant, scale and shift feature by feature, and take the maximum with zero. -/

/-- The device's buffer contents after parts 0 to 3. -/
def val4 (V0 : Valuation τ sig (Elt F)) : Valuation τ sig (Elt F) := after ops_part3 (val3 V0)

/-- The buffers part 3 writes. -/
abbrev ops_part3_W : List (Ref sig .tc) :=
  [main_cst_12, main_v58, main_v59, main_cst_13, main_v60, main_v61, main_v62, main_v63, main_v64, main_cst_14,
   main_v65, main_v66, main_cst_15, main_v67, main_v68, main_v69, main_v70, main_cst_16, main_v71, main_v72, main_v73,
   main_v74, main_v75, main_v76, main_v77, main_v78, main_v79, main_v80, main_v81, main_call0_cst, main_call0_v0,
   main_v82]

set_option maxRecDepth 8192 in
theorem ops_part3_writes : (ops_part3 : List (HloOp τ sig (Elt F))).Forall fun op =>
    op.writes ⊆ (ops_part3_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h

theorem val4_arg (V0 : Valuation τ sig (Elt F)) (r : Ref sig .tc) (h : r ∈ argRefs) :
    val4 V0 (Proc.devRef .tc r) = V0 (Proc.devRef .tc r) :=
  (val4_keep V0 r ((by decide : ∀ r ∈ argRefs, r ∉ ops_part3_W) r h)).trans (val3_arg V0 r h)

theorem val4_main_arg7 (V0 : Valuation τ sig (Elt F)) :
    val4 V0 (no_index (Proc.devRef .tc main_arg7)) = V0 (Proc.devRef .tc main_arg7) := val4_arg V0 main_arg7 (by decide)
theorem val4_main_v1 (V0 : Valuation τ sig (Elt F)) :
    val4 V0 (no_index (Proc.devRef .tc main_v1)) = val_main_v1 (F := F) (V0 (Proc.devRef .tc main_arg1)) :=
  (val4_keep V0 main_v1 (by decide)).trans (val3_main_v1 V0)
theorem val4_main_v3 (V0 : Valuation τ sig (Elt F)) :
    val4 V0 (no_index (Proc.devRef .tc main_v3)) = val_main_v3 (F := F) (V0 (Proc.devRef .tc main_arg1)) :=
  (val4_keep V0 main_v3 (by decide)).trans (val3_main_v3 V0)
theorem val4_main_v15 (V0 : Valuation τ sig (Elt F)) :
    val4 V0 (no_index (Proc.devRef .tc main_v15)) = val_main_v15 (F := F) (V0 (Proc.devRef .tc main_arg1)) :=
  (val4_keep V0 main_v15 (by decide)).trans (val3_main_v15 V0)

set_option maxRecDepth 8192 in
/-- The first layer's output: normalised rows, scaled and shifted, negative entries set to zero. -/
theorem val4_main_v82 (V0 : Valuation τ sig (Elt F)) :
    val4 V0 (no_index (Proc.devRef .tc main_v82))
      = val_main_v82 (F := F) (V0 (Proc.devRef .tc main_arg0)) (V0 (Proc.devRef .tc main_arg1))
          (V0 (Proc.devRef .tc main_arg3)) (V0 (Proc.devRef .tc main_arg4)) (V0 (Proc.devRef .tc main_arg5))
          (V0 (Proc.devRef .tc main_arg6)) := by
  unfold val4
  simp only [ops_part3]
  after_results_simp
  simp only [val3_main_v57, val3_main_arg5, val3_main_arg6] <;> rfl

/-! ## Part 4: the second layer's projected features and edge coefficients

Operations 104 to 123 multiply the first layer's output by the second weight matrix and recompute every edge's
coefficient from the inverse root degrees of its endpoints. -/

/-- The device's buffer contents after parts 0 to 4. -/
def val5 (V0 : Valuation τ sig (Elt F)) : Valuation τ sig (Elt F) := after ops_part4 (val4 V0)

/-- The buffers part 4 writes. -/
abbrev ops_part4_W : List (Ref sig .tc) :=
  [main_v83, main_c_17, main_v84, main_v85, main_c_18, main_v86, main_v87, main_v88, main_v89, main_v90, main_c_19,
   main_v91, main_v92, main_c_20, main_v93, main_v94, main_v95, main_v96, main_v97, main_v98]

set_option maxRecDepth 8192 in
theorem ops_part4_writes : (ops_part4 : List (HloOp τ sig (Elt F))).Forall fun op =>
    op.writes ⊆ (ops_part4_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 4 does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h

theorem val5_arg (V0 : Valuation τ sig (Elt F)) (r : Ref sig .tc) (h : r ∈ argRefs) :
    val5 V0 (Proc.devRef .tc r) = V0 (Proc.devRef .tc r) :=
  (val5_keep V0 r ((by decide : ∀ r ∈ argRefs, r ∉ ops_part4_W) r h)).trans (val4_arg V0 r h)

theorem val5_main_arg8 (V0 : Valuation τ sig (Elt F)) :
    val5 V0 (no_index (Proc.devRef .tc main_arg8)) = V0 (Proc.devRef .tc main_arg8) := val5_arg V0 main_arg8 (by decide)
theorem val5_main_v1 (V0 : Valuation τ sig (Elt F)) :
    val5 V0 (no_index (Proc.devRef .tc main_v1)) = val_main_v1 (F := F) (V0 (Proc.devRef .tc main_arg1)) :=
  (val5_keep V0 main_v1 (by decide)).trans (val4_main_v1 V0)
theorem val5_main_v3 (V0 : Valuation τ sig (Elt F)) :
    val5 V0 (no_index (Proc.devRef .tc main_v3)) = val_main_v3 (F := F) (V0 (Proc.devRef .tc main_arg1)) :=
  (val5_keep V0 main_v3 (by decide)).trans (val4_main_v3 V0)
theorem val5_main_v15 (V0 : Valuation τ sig (Elt F)) :
    val5 V0 (no_index (Proc.devRef .tc main_v15)) = val_main_v15 (F := F) (V0 (Proc.devRef .tc main_arg1)) :=
  (val5_keep V0 main_v15 (by decide)).trans (val4_main_v15 V0)

set_option maxRecDepth 8192 in
/-- The first layer's output times the second weight matrix. -/
theorem val5_main_v83 (V0 : Valuation τ sig (Elt F)) :
    val5 V0 (no_index (Proc.devRef .tc main_v83))
      = val_main_v83 (F := F) (V0 (Proc.devRef .tc main_arg0)) (V0 (Proc.devRef .tc main_arg1))
          (V0 (Proc.devRef .tc main_arg3)) (V0 (Proc.devRef .tc main_arg4)) (V0 (Proc.devRef .tc main_arg5))
          (V0 (Proc.devRef .tc main_arg6)) (V0 (Proc.devRef .tc main_arg7)) := by
  unfold val5
  simp only [ops_part4]
  after_results_simp
  simp only [val4_main_v82, val4_main_arg7] <;> rfl

set_option maxRecDepth 8192 in
/-- The edge coefficients again, for the second layer. -/
theorem val5_main_v98 (V0 : Valuation τ sig (Elt F)) :
    val5 V0 (no_index (Proc.devRef .tc main_v98)) = val_main_v98 (F := F) (V0 (Proc.devRef .tc main_arg1)) := by
  unfold val5
  simp only [ops_part4]
  after_results_simp
  simp only [val4_main_v1, val4_main_v3, val4_main_v15] <;> rfl

/-! ## Part 5: the second layer's aggregation

Operations 124 to 154: the neighbour sum of coefficient times projected row, the self term and the bias, as in the
first layer, over the second layer's projected features. -/

/-- The device's buffer contents after parts 0 to 5. -/
def val6 (V0 : Valuation τ sig (Elt F)) : Valuation τ sig (Elt F) := after ops_part5 (val5 V0)

/-- The buffers part 5 writes. -/
abbrev ops_part5_W : List (Ref sig .tc) :=
  [main_cst_21, main_v99, main_c_22, main_v100, main_v101, main_c_23, main_v102, main_v103, main_v104, main_v105,
   main_v106, main_v107, main_v108, main_v109, main_c_24, main_v110, main_v111, main_c_25, main_v112, main_v113,
   main_v114, main_v115, main_v116, main_v117, main_v118, main_v119, main_v120, main_v121, main_v122, main_v123,
   main_v124]

set_option maxRecDepth 8192 in
theorem ops_part5_writes : (ops_part5 : List (HloOp τ sig (Elt F))).Forall fun op =>
    op.writes ⊆ (ops_part5_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 5 does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h

theorem val6_arg (V0 : Valuation τ sig (Elt F)) (r : Ref sig .tc) (h : r ∈ argRefs) :
    val6 V0 (Proc.devRef .tc r) = V0 (Proc.devRef .tc r) :=
  (val6_keep V0 r ((by decide : ∀ r ∈ argRefs, r ∉ ops_part5_W) r h)).trans (val5_arg V0 r h)

theorem val6_main_arg9 (V0 : Valuation τ sig (Elt F)) :
    val6 V0 (no_index (Proc.devRef .tc main_arg9)) = V0 (Proc.devRef .tc main_arg9) := val6_arg V0 main_arg9 (by decide)
theorem val6_main_arg10 (V0 : Valuation τ sig (Elt F)) :
    val6 V0 (no_index (Proc.devRef .tc main_arg10)) = V0 (Proc.devRef .tc main_arg10) :=
  val6_arg V0 main_arg10 (by decide)
theorem val6_main_v1 (V0 : Valuation τ sig (Elt F)) :
    val6 V0 (no_index (Proc.devRef .tc main_v1)) = val_main_v1 (F := F) (V0 (Proc.devRef .tc main_arg1)) :=
  (val6_keep V0 main_v1 (by decide)).trans (val5_main_v1 V0)
theorem val6_main_v3 (V0 : Valuation τ sig (Elt F)) :
    val6 V0 (no_index (Proc.devRef .tc main_v3)) = val_main_v3 (F := F) (V0 (Proc.devRef .tc main_arg1)) :=
  (val6_keep V0 main_v3 (by decide)).trans (val5_main_v3 V0)
theorem val6_main_v15 (V0 : Valuation τ sig (Elt F)) :
    val6 V0 (no_index (Proc.devRef .tc main_v15)) = val_main_v15 (F := F) (V0 (Proc.devRef .tc main_arg1)) :=
  (val6_keep V0 main_v15 (by decide)).trans (val5_main_v15 V0)

set_option maxRecDepth 8192 in
/-- The second layer's output before normalisation. -/
theorem val6_main_v124 (V0 : Valuation τ sig (Elt F)) :
    val6 V0 (no_index (Proc.devRef .tc main_v124))
      = val_main_v124 (F := F) (V0 (Proc.devRef .tc main_arg0)) (V0 (Proc.devRef .tc main_arg1))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8)) := by
  unfold val6
  simp only [ops_part5]
  after_results_simp
  simp only [val5_main_v1, val5_main_v3, val5_main_v15, val5_main_v83, val5_main_v98, val5_main_arg8] <;> rfl

/-! ## Part 6: the second layer's row normalisation and rectifier

Operations 155 to 186: centre, divide by the root of variance plus the small constant, scale, shift, maximum with
zero, row by row as in the first layer. -/

/-- The device's buffer contents after parts 0 to 6. -/
def val7 (V0 : Valuation τ sig (Elt F)) : Valuation τ sig (Elt F) := after ops_part6 (val6 V0)

/-- The buffers part 6 writes. -/
abbrev ops_part6_W : List (Ref sig .tc) :=
  [main_cst_26, main_v125, main_v126, main_cst_27, main_v127, main_v128, main_v129, main_v130, main_v131, main_cst_28,
   main_v132, main_v133, main_cst_29, main_v134, main_v135, main_v136, main_v137, main_cst_30, main_v138, main_v139,
   main_v140, main_v141, main_v142, main_v143, main_v144, main_v145, main_v146, main_v147, main_v148, main_call1_cst,
   main_call1_v0, main_v149]

set_option maxRecDepth 8192 in
theorem ops_part6_writes : (ops_part6 : List (HloOp τ sig (Elt F))).Forall fun op =>
    op.writes ⊆ (ops_part6_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 6 does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h

theorem val7_arg (V0 : Valuation τ sig (Elt F)) (r : Ref sig .tc) (h : r ∈ argRefs) :
    val7 V0 (Proc.devRef .tc r) = V0 (Proc.devRef .tc r) :=
  (val7_keep V0 r ((by decide : ∀ r ∈ argRefs, r ∉ ops_part6_W) r h)).trans (val6_arg V0 r h)

theorem val7_main_arg11 (V0 : Valuation τ sig (Elt F)) :
    val7 V0 (no_index (Proc.devRef .tc main_arg11)) = V0 (Proc.devRef .tc main_arg11) :=
  val7_arg V0 main_arg11 (by decide)
theorem val7_main_v1 (V0 : Valuation τ sig (Elt F)) :
    val7 V0 (no_index (Proc.devRef .tc main_v1)) = val_main_v1 (F := F) (V0 (Proc.devRef .tc main_arg1)) :=
  (val7_keep V0 main_v1 (by decide)).trans (val6_main_v1 V0)
theorem val7_main_v3 (V0 : Valuation τ sig (Elt F)) :
    val7 V0 (no_index (Proc.devRef .tc main_v3)) = val_main_v3 (F := F) (V0 (Proc.devRef .tc main_arg1)) :=
  (val7_keep V0 main_v3 (by decide)).trans (val6_main_v3 V0)
theorem val7_main_v15 (V0 : Valuation τ sig (Elt F)) :
    val7 V0 (no_index (Proc.devRef .tc main_v15)) = val_main_v15 (F := F) (V0 (Proc.devRef .tc main_arg1)) :=
  (val7_keep V0 main_v15 (by decide)).trans (val6_main_v15 V0)

set_option maxRecDepth 8192 in
/-- The second layer's output. -/
theorem val7_main_v149 (V0 : Valuation τ sig (Elt F)) :
    val7 V0 (no_index (Proc.devRef .tc main_v149))
      = val_main_v149 (F := F) (V0 (Proc.devRef .tc main_arg0)) (V0 (Proc.devRef .tc main_arg1))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) := by
  unfold val7
  simp only [ops_part6]
  after_results_simp
  simp only [val6_main_v124, val6_main_arg9, val6_main_arg10] <;> rfl

/-! ## Part 7: the third layer's projected features and edge coefficients

Operations 187 to 206 multiply the second layer's output by the third weight matrix (64 features to 128) and recompute
the edge coefficients. -/

/-- The device's buffer contents after parts 0 to 7. -/
def val8 (V0 : Valuation τ sig (Elt F)) : Valuation τ sig (Elt F) := after ops_part7 (val7 V0)

/-- The buffers part 7 writes. -/
abbrev ops_part7_W : List (Ref sig .tc) :=
  [main_v150, main_c_31, main_v151, main_v152, main_c_32, main_v153, main_v154, main_v155, main_v156, main_v157,
   main_c_33, main_v158, main_v159, main_c_34, main_v160, main_v161, main_v162, main_v163, main_v164, main_v165]

set_option maxRecDepth 8192 in
theorem ops_part7_writes : (ops_part7 : List (HloOp τ sig (Elt F))).Forall fun op =>
    op.writes ⊆ (ops_part7_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 7 does not write keeps its contents through it. -/
theorem val8_keep (V0 : Valuation τ sig (Elt F)) (r : Ref sig .tc) (h : r ∉ ops_part7_W) :
    val8 V0 (Proc.devRef .tc r) = val7 V0 (Proc.devRef .tc r) :=
  after_of_writes_sub ops_part7 _ ops_part7_writes h

theorem val8_arg (V0 : Valuation τ sig (Elt F)) (r : Ref sig .tc) (h : r ∈ argRefs) :
    val8 V0 (Proc.devRef .tc r) = V0 (Proc.devRef .tc r) :=
  (val8_keep V0 r ((by decide : ∀ r ∈ argRefs, r ∉ ops_part7_W) r h)).trans (val7_arg V0 r h)

theorem val8_main_arg12 (V0 : Valuation τ sig (Elt F)) :
    val8 V0 (no_index (Proc.devRef .tc main_arg12)) = V0 (Proc.devRef .tc main_arg12) :=
  val8_arg V0 main_arg12 (by decide)
theorem val8_main_v1 (V0 : Valuation τ sig (Elt F)) :
    val8 V0 (no_index (Proc.devRef .tc main_v1)) = val_main_v1 (F := F) (V0 (Proc.devRef .tc main_arg1)) :=
  (val8_keep V0 main_v1 (by decide)).trans (val7_main_v1 V0)
theorem val8_main_v3 (V0 : Valuation τ sig (Elt F)) :
    val8 V0 (no_index (Proc.devRef .tc main_v3)) = val_main_v3 (F := F) (V0 (Proc.devRef .tc main_arg1)) :=
  (val8_keep V0 main_v3 (by decide)).trans (val7_main_v3 V0)
theorem val8_main_v15 (V0 : Valuation τ sig (Elt F)) :
    val8 V0 (no_index (Proc.devRef .tc main_v15)) = val_main_v15 (F := F) (V0 (Proc.devRef .tc main_arg1)) :=
  (val8_keep V0 main_v15 (by decide)).trans (val7_main_v15 V0)

set_option maxRecDepth 8192 in
/-- The second layer's output times the third weight matrix. -/
theorem val8_main_v150 (V0 : Valuation τ sig (Elt F)) :
    val8 V0 (no_index (Proc.devRef .tc main_v150))
      = val_main_v150 (F := F) (V0 (Proc.devRef .tc main_arg0)) (V0 (Proc.devRef .tc main_arg1))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11)) := by
  unfold val8
  simp only [ops_part7]
  after_results_simp
  simp only [val7_main_v149, val7_main_arg11] <;> rfl

set_option maxRecDepth 8192 in
/-- The edge coefficients again, for the third layer. -/
theorem val8_main_v165 (V0 : Valuation τ sig (Elt F)) :
    val8 V0 (no_index (Proc.devRef .tc main_v165)) = val_main_v165 (F := F) (V0 (Proc.devRef .tc main_arg1)) := by
  unfold val8
  simp only [ops_part7]
  after_results_simp
  simp only [val7_main_v1, val7_main_v3, val7_main_v15] <;> rfl

/-! ## Part 8: the third layer's aggregation

Operations 207 to 237: neighbour sum, self term and bias over the 128 projected features; this layer is neither
normalised nor rectified. -/

/-- The device's buffer contents after parts 0 to 8. -/
def val9 (V0 : Valuation τ sig (Elt F)) : Valuation τ sig (Elt F) := after ops_part8 (val8 V0)

/-- The buffers part 8 writes. -/
abbrev ops_part8_W : List (Ref sig .tc) :=
  [main_cst_35, main_v166, main_c_36, main_v167, main_v168, main_c_37, main_v169, main_v170, main_v171, main_v172,
   main_v173, main_v174, main_v175, main_v176, main_c_38, main_v177, main_v178, main_c_39, main_v179, main_v180,
   main_v181, main_v182, main_v183, main_v184, main_v185, main_v186, main_v187, main_v188, main_v189, main_v190,
   main_v191]

set_option maxRecDepth 8192 in
theorem ops_part8_writes : (ops_part8 : List (HloOp τ sig (Elt F))).Forall fun op =>
    op.writes ⊆ (ops_part8_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 8 does not write keeps its contents through it. -/
theorem val9_keep (V0 : Valuation τ sig (Elt F)) (r : Ref sig .tc) (h : r ∉ ops_part8_W) :
    val9 V0 (Proc.devRef .tc r) = val8 V0 (Proc.devRef .tc r) :=
  after_of_writes_sub ops_part8 _ ops_part8_writes h

theorem val9_arg (V0 : Valuation τ sig (Elt F)) (r : Ref sig .tc) (h : r ∈ argRefs) :
    val9 V0 (Proc.devRef .tc r) = V0 (Proc.devRef .tc r) :=
  (val9_keep V0 r ((by decide : ∀ r ∈ argRefs, r ∉ ops_part8_W) r h)).trans (val8_arg V0 r h)

theorem val9_main_arg2 (V0 : Valuation τ sig (Elt F)) :
    val9 V0 (no_index (Proc.devRef .tc main_arg2)) = V0 (Proc.devRef .tc main_arg2) := val9_arg V0 main_arg2 (by decide)

set_option maxRecDepth 8192 in
/-- The third layer's output: the node embeddings that are pooled. -/
theorem val9_main_v191 (V0 : Valuation τ sig (Elt F)) :
    val9 V0 (no_index (Proc.devRef .tc main_v191))
      = val_main_v191 (F := F) (V0 (Proc.devRef .tc main_arg0)) (V0 (Proc.devRef .tc main_arg1))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) := by
  unfold val9
  simp only [ops_part8]
  after_results_simp
  simp only [val8_main_v1, val8_main_v3, val8_main_v15, val8_main_v150, val8_main_v165, val8_main_arg12] <;> rfl

/-! ## Part 9: the mean over each graph

The last 16 operations add every node's embedding to the row of its graph id, count the nodes of each graph (a scatter
of ones), clamp the counts below at one, and divide each pooled row by its count. -/

/-- The device's buffer contents after all ten parts. -/
def val10 (V0 : Valuation τ sig (Elt F)) : Valuation τ sig (Elt F) := after ops_part9 (val9 V0)

/-- The buffers part 9 writes. -/
abbrev ops_part9_W : List (Ref sig .tc) :=
  [main_cst_40, main_v192, main_v193, main_v194, main_cst_41, main_v195, main_cst_42, main_v196, main_v197, main_v198,
   main_cst_43, main_v199, main_v200, main_v201, main_v202, main_v203]

set_option maxRecDepth 8192 in
theorem ops_part9_writes : (ops_part9 : List (HloOp τ sig (Elt F))).Forall fun op =>
    op.writes ⊆ (ops_part9_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer part 9 does not write keeps its contents through it. -/
theorem val10_keep (V0 : Valuation τ sig (Elt F)) (r : Ref sig .tc) (h : r ∉ ops_part9_W) :
    val10 V0 (Proc.devRef .tc r) = val9 V0 (Proc.devRef .tc r) :=
  after_of_writes_sub ops_part9 _ ops_part9_writes h

/-- After the whole program an argument buffer holds what it was launched with. -/
theorem val10_arg (V0 : Valuation τ sig (Elt F)) (r : Ref sig .tc) (h : r ∈ argRefs) :
    val10 V0 (Proc.devRef .tc r) = V0 (Proc.devRef .tc r) :=
  (val10_keep V0 r ((by decide : ∀ r ∈ argRefs, r ∉ ops_part9_W) r h)).trans (val9_arg V0 r h)

set_option maxRecDepth 8192 in
/-- The result: each graph's summed node embeddings over its node count, the count taken as at least one. -/
theorem val10_main_v203 (V0 : Valuation τ sig (Elt F)) :
    val10 V0 (no_index (Proc.devRef .tc main_v203))
      = val_main_v203 (F := F) (V0 (Proc.devRef .tc main_arg0)) (V0 (Proc.devRef .tc main_arg1))
          (V0 (Proc.devRef .tc main_arg2)) (V0 (Proc.devRef .tc main_arg3)) (V0 (Proc.devRef .tc main_arg4))
          (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10))
          (V0 (Proc.devRef .tc main_arg11)) (V0 (Proc.devRef .tc main_arg12)) := by
  unfold val10
  simp only [ops_part9]
  after_results_simp
  simp only [val9_main_v191, val9_main_arg2] <;> rfl

/-! ## The whole program -/

/-- Running all 254 operations is running the ten parts one after the other. -/
theorem after_ops (V0 : Valuation τ sig (Elt F)) : after ops V0 = val10 V0 := by
  simp only [ops, after_append]
  rfl

set_option maxRecDepth 8192 in
/-- Every weakly fair execution of the reference terminates; the result is the last stage of the launched arguments,
    and the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v203)
        = val_main_v203 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12):=
  (θ_run defs _ _).mono (fun _ h c =>
      ⟨(h c main_v203).trans (by simp only [after_ops]; exact val10_main_v203 (launchContents m c)),
       (h c main_arg0).trans (by simp only [after_ops]; exact val10_arg (launchContents m c) main_arg0 (by decide)),
       (h c main_arg1).trans (by simp only [after_ops]; exact val10_arg (launchContents m c) main_arg1 (by decide)),
       (h c main_arg2).trans (by simp only [after_ops]; exact val10_arg (launchContents m c) main_arg2 (by decide)),
       (h c main_arg3).trans (by simp only [after_ops]; exact val10_arg (launchContents m c) main_arg3 (by decide)),
       (h c main_arg4).trans (by simp only [after_ops]; exact val10_arg (launchContents m c) main_arg4 (by decide)),
       (h c main_arg5).trans (by simp only [after_ops]; exact val10_arg (launchContents m c) main_arg5 (by decide)),
       (h c main_arg6).trans (by simp only [after_ops]; exact val10_arg (launchContents m c) main_arg6 (by decide)),
       (h c main_arg7).trans (by simp only [after_ops]; exact val10_arg (launchContents m c) main_arg7 (by decide)),
       (h c main_arg8).trans (by simp only [after_ops]; exact val10_arg (launchContents m c) main_arg8 (by decide)),
       (h c main_arg9).trans (by simp only [after_ops]; exact val10_arg (launchContents m c) main_arg9 (by decide)),
       (h c main_arg10).trans (by simp only [after_ops]; exact val10_arg (launchContents m c) main_arg10 (by decide)),
       (h c main_arg11).trans (by simp only [after_ops]; exact val10_arg (launchContents m c) main_arg11 (by decide)),
       (h c main_arg12).trans (by simp only [after_ops]; exact val10_arg (launchContents m c) main_arg12 (by decide))⟩)
    (run_seq scopedRefs_eq scopedSems_eq defs main (fun _ => ops) main_eq (fun _ => ops_sub) m ρ)

end Cert.RefRun

end
-- ==== Proof.lean ====
/-
  A three-layer graph convolution encoder with mean pooling: each layer projects the node features (x · W), gathers
  the projected rows along the edges scaled by the product of the endpoints' inverse root degrees, scatter-adds them
  at the targets, adds the node's own row scaled by its squared inverse root degree and the bias; the first two layers
  then normalise each row (mean, variance, ε, scale, shift) and take the positive part; the last layer's rows are summed
  per segment and divided by the segment's size, at least one.

  The kernel program computes the projections, the per-row epilogues and the segment sums in seven tiled regions (the
  segment sum as a one-hot matrix product accumulated over fifty row tiles) and keeps the gathers and scatters as host
  operations; the reference is host operations throughout. On the extended reals every dense stage of the kernel is the
  reference's: a tiled product is the whole product, a row tile's normalisation is the whole array's, and a one-hot
  product summed over tiles is the sum over the nodes of the segment, since 0 · x = 0 and 1 · x = x for every extended
  real and a segment word outside 0 … 63 selects no row on either side. The host stretches are the same operations on
  the same values. So both programs end at the reference's last stage of the arguments, and no precondition is used
  beyond what the frames take.
-/
import proofs.«402218_j7911329759934_1_alg».proof.Defs
import proofs.«402218_j7911329759934_1_alg».proof.Proof.Gen.Kernel
import proofs.«402218_j7911329759934_1_alg».proof.Proof.Gen.Kernel.Skeleton
import proofs.«402218_j7911329759934_1_alg».proof.Proof.Gen.Kernel.Launch
import proofs.«402218_j7911329759934_1_alg».proof.Proof.Gen.Kernel.Points
import proofs.«402218_j7911329759934_1_alg».proof.Proof.Gen.Kernel.Frame
import proofs.«402218_j7911329759934_1_alg».proof.Proof.Gen.KernelIdeal
import proofs.«402218_j7911329759934_1_alg».proof.Proof.Gen.KernelIdeal.Skeleton
import proofs.«402218_j7911329759934_1_alg».proof.Proof.Gen.KernelIdeal.Launch
import proofs.«402218_j7911329759934_1_alg».proof.Proof.Gen.KernelIdeal.Points
import proofs.«402218_j7911329759934_1_alg».proof.Proof.Gen.KernelIdeal.Frame
import proofs.«402218_j7911329759934_1_alg».proof.Proof.Gen.ReferenceIdeal
import proofs.«402218_j7911329759934_1_alg».proof.Proof.Gen.Pre_finite_inputs
import proofs.«402218_j7911329759934_1_alg».proof.Proof.KernelRun
import proofs.«402218_j7911329759934_1_alg».proof.Proof.KernelValue
import proofs.«402218_j7911329759934_1_alg».proof.Proof.RefRun
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.RefRun.run (F := Ideal) m ρ)

/-- The idealisation rewrote no operation. -/
theorem preserves : Cert.preserves_Kernel_KernelIdeal := trivial

/-- From memories that agree on the thirteen arguments both programs end with the result array at the reference's last
    stage — the pooled sums over the clamped segment sizes — of those arguments. -/
theorem algebraic : Cert.algebraic_KernelIdeal_ReferenceIdeal := by
  intro m ρ m' ρ' _ hagree
  refine ⟨fun c => Cert.RefRead.val_main_v203 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Value.result m ρ c), (h c).2⟩)
      (Cert.KernelIdeal.Value.run (F := Ideal) m ρ)
  · refine (θ_run Cert.ReferenceIdeal.defs _ _).mono (fun r h c => ⟨(h c).1.trans ?_, (h c).2⟩)
      (Cert.RefRun.run (F := Ideal) m' ρ')
    obtain ⟨a0, a1, a2, a3, a4, a5, a6, a7, a8, a9, a10, a11, a12⟩ := hagree c
    rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
